-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v5_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_v18) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x16384 : Shape := ⟨2, ![1024, 16384]⟩
abbrev S16384x256 : Shape := ⟨2, ![16384, 256]⟩
abbrev S4096x16384 : Shape := ⟨2, ![4096, 16384]⟩
abbrev S4096 : Shape := ⟨1, ![4096]⟩
abbrev S256x256 : Shape := ⟨2, ![256, 256]⟩
abbrev S256 : Shape := ⟨1, ![256]⟩
abbrev S4096x256 : Shape := ⟨2, ![4096, 256]⟩
abbrev S_ : Shape := ⟨0, ![]⟩

class Facts : Prop where
  bcast_S_S1024x16384 : S_.BroadcastsInDim S1024x16384 (![] : Fin 0 → Fin S1024x16384.rank)
  reducesTo_S1024x16384_S_d0_1 : S1024x16384.ReducesTo [0, 1] S_
  h_S_ : 0 < S_.numel
  bcast_S_S16384x256 : S_.BroadcastsInDim S16384x256 (![] : Fin 0 → Fin S16384x256.rank)
  reducesTo_S16384x256_S_d0_1 : S16384x256.ReducesTo [0, 1] S_
  bcast_S_S4096x16384 : S_.BroadcastsInDim S4096x16384 (![] : Fin 0 → Fin S4096x16384.rank)
  reducesTo_S4096x16384_S_d0_1 : S4096x16384.ReducesTo [0, 1] S_
  bcast_S_S4096 : S_.BroadcastsInDim S4096 (![] : Fin 0 → Fin S4096.rank)
  reducesTo_S4096_S_d0 : S4096.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S4096x256 : S_.BroadcastsInDim S4096x256 (![] : Fin 0 → Fin S4096x256.rank)
  reducesTo_S4096x256_S_d0_1 : S4096x256.ReducesTo [0, 1] S_

variable [Facts]

def fn_part2 {F : FTy → Type} [FloatOps F] (main_arg7 : FVec F S4096 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  main_v38

def fn_part1 {F : FTy → Type} [FloatOps F] (main_arg4 : FVec F S256x256 .f32) (main_arg5 : FVec F S256 .f32) (main_arg6 : FVec F S4096x256 .f32) (main_arg7 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S4096x256 .f32 := Host.absf main_arg6
  let main_cst_10 : FVec F S_ .f32 := constant S_ .f32 0x7F800000#32
  let main_v30 : FVec F S4096x256 .f32 := broadcastInDim S4096x256 ![] bcast_S_S4096x256 main_cst_10
  let main_v31 : IVec S4096x256 1 := cmpf .olt main_v29 main_v30
  let main_c_11 : IVec S_ 1 := constantI S_ 1 1#1
  let main_v32 : IVec S_ 1 := (fun x v => Host.reduce IntOp.andi x v reducesTo_S4096x256_S_d0_1 h_S_) main_v31 main_c_11
  let main_v33 : IVec S_ 1 := andi main_v28 main_v32
  fn_part2 (F := F) main_arg7 main_v33

def fn {F : FTy → Type} [FloatOps F] (main_arg0 : FVec F S1024x16384 .f32) (main_arg1 : FVec F S16384x256 .f32) (main_arg2 : FVec F S4096x16384 .f32) (main_arg3 : FVec F S4096 .f32) (main_arg4 : FVec F S256x256 .f32) (main_arg5 : FVec F S256 .f32) (main_arg6 : FVec F S4096x256 .f32) (main_arg7 : FVec F S4096 .f32) : IVec S_ 1 :=
  let main_v0 : FVec F S1024x16384 .f32 := Host.absf main_arg0
  let main_cst : FVec F S_ .f32 := constant S_ .f32 0x7F800000#32
  let main_v1 : FVec F S1024x16384 .f32 := broadcastInDim S1024x16384 ![] bcast_S_S1024x16384 main_cst
  let main_v2 : IVec S1024x16384 1 := cmpf .olt main_v0 main_v1
  let main_c : IVec S_ 1 := constantI S_ 1 1#1
  let main_v3 : IVec S_ 1 := (fun x v => Host.reduce IntOp.andi x v reducesTo_S1024x16384_S_d0_1 h_S_) main_v2 main_c
  let main_v4 : FVec F S16384x256 .f32 := Host.absf main_arg1
  let main_cst_0 : FVec F S_ .f32 := constant S_ .f32 0x7F800000#32
  let main_v5 : FVec F S16384x256 .f32 := broadcastInDim S16384x256 ![] bcast_S_S16384x256 main_cst_0
  let main_v6 : IVec S16384x256 1 := cmpf .olt main_v4 main_v5
  let main_c_1 : IVec S_ 1 := constantI S_ 1 1#1
  let main_v7 : IVec S_ 1 := (fun x v => Host.reduce IntOp.andi x v reducesTo_S16384x256_S_d0_1 h_S_) main_v6 main_c_1
  let main_v8 : IVec S_ 1 := andi main_v3 main_v7
  let main_v9 : FVec F S4096x16384 .f32 := Host.absf main_arg2
  let main_cst_2 : FVec F S_ .f32 := constant S_ .f32 0x7F800000#32
  let main_v10 : FVec F S4096x16384 .f32 := broadcastInDim S4096x16384 ![] bcast_S_S4096x16384 main_cst_2
  let main_v11 : IVec S4096x16384 1 := cmpf .olt main_v9 main_v10
  let main_c_3 : IVec S_ 1 := constantI S_ 1 1#1
  let main_v12 : IVec S_ 1 := (fun x v => Host.reduce IntOp.andi x v reducesTo_S4096x16384_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_v13 main_v16
-- ==== Kernel.lean ====
abbrev S1024x16384 : Shape := ⟨2, ![1024, 16384]⟩
abbrev S16384x256 : Shape := ⟨2, ![16384, 256]⟩
abbrev S4096x16384 : Shape := ⟨2, ![4096, 16384]⟩
abbrev S4096 : Shape := ⟨1, ![4096]⟩
abbrev S256x256 : Shape := ⟨2, ![256, 256]⟩
abbrev S256 : Shape := ⟨1, ![256]⟩
abbrev S4096x256 : Shape := ⟨2, ![4096, 256]⟩
abbrev S1024x256 : Shape := ⟨2, ![1024, 256]⟩
abbrev S512x1024 : Shape := ⟨2, ![512, 1024]⟩
abbrev S512x256 : Shape := ⟨2, ![512, 256]⟩
abbrev S1x4096 : Shape := ⟨2, ![1, 4096]⟩
abbrev S1024x4096 : Shape := ⟨2, ![1024, 4096]⟩
abbrev S2048x256 : Shape := ⟨2, ![2048, 256]⟩
abbrev S1x2048 : Shape := ⟨2, ![1, 2048]⟩
abbrev S1024x2048 : Shape := ⟨2, ![1024, 2048]⟩
abbrev S256x2048 : Shape := ⟨2, ![256, 2048]⟩
abbrev S1x256 : Shape := ⟨2, ![1, 256]⟩
abbrev S128x256 : Shape := ⟨2, ![128, 256]⟩
abbrev S128x4096 : Shape := ⟨2, ![128, 4096]⟩
abbrev S256x4096 : Shape := ⟨2, ![256, 4096]⟩

abbrev nBuf : Space → Nat
  | .hbm => 15
  | .vmem => 29
  | .smem => 0
  | _ => 0

abbrev bufTy : (tb : Table) → Fin (tcTables nBuf tb) → BufTy
  | .hbm, ⟨0, _⟩ => ⟨S1024x16384, .f32⟩
  | .hbm, ⟨1, _⟩ => ⟨S16384x256, .f32⟩
  | .hbm, ⟨2, _⟩ => ⟨S4096x16384, .f32⟩
  | .hbm, ⟨3, _⟩ => ⟨S4096, .f32⟩
  | .hbm, ⟨4, _⟩ => ⟨S256x256, .f32⟩
  | .hbm, ⟨5, _⟩ => ⟨S256, .f32⟩
  | .hbm, ⟨6, _⟩ => ⟨S4096x256, .f32⟩
  | .hbm, ⟨7, _⟩ => ⟨S4096, .f32⟩
  | .hbm, ⟨8, _⟩ => ⟨S1024x256, .f32⟩
  | .hbm, ⟨9, _⟩ => ⟨S1x4096, .f32⟩
  | .hbm, ⟨10, _⟩ => ⟨S1024x4096, .f32⟩
  | .hbm, ⟨11, _⟩ => ⟨S1x256, .f32⟩
  | .hbm, ⟨12, _⟩ => ⟨S1x4096, .f32⟩
  | .hbm, ⟨13, _⟩ => ⟨S1024x4096, .f32⟩
  | .hbm, ⟨14, _⟩ => ⟨S1024x4096, .f32⟩
  | .local _ .vmem, ⟨0, _⟩ => ⟨S512x1024, .f32⟩
  | .local _ .vmem, ⟨1, _⟩ => ⟨S512x1024, .f32⟩
  | .local _ .vmem, ⟨2, _⟩ => ⟨S1024x256, .f32⟩
  | .local _ .vmem, ⟨3, _⟩ => ⟨S1024x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S1024x256, .f32⟩
  | .local _ .vmem, ⟨9, _⟩ => ⟨S1024x256, .f32⟩
  | .local _ .vmem, ⟨10, _⟩ => ⟨S2048x256, .f32⟩
  | .local _ .vmem, ⟨11, _⟩ => ⟨S2048x256, .f32⟩
  | .local _ .vmem, ⟨12, _⟩ => ⟨S1x2048, .f32⟩
  | .local _ .vmem, ⟨13, _⟩ => ⟨S1x2048, .f32⟩
  | .local _ .vmem, ⟨14, _⟩ => ⟨S1024x2048, .f32⟩
  | .local _ .vmem, ⟨15, _⟩ => ⟨S1024x2048, .f32⟩
  | .local _ .vmem, ⟨16, _⟩ => ⟨S1024x2048, .f32⟩
  | .local _ .vmem, ⟨17, _⟩ => ⟨S128x256, .f32⟩
  | .local _ .vmem, ⟨18, _⟩ => ⟨S128x256, .f32⟩
  | .local _ .vmem, ⟨19, _⟩ => ⟨S256x256, .f32⟩
  | .local _ .vmem, ⟨20, _⟩ => ⟨S1x256, .f32⟩
  | .local _ .vmem, ⟨21, _⟩ => ⟨S4096x256, .f32⟩
  | .local _ .vmem, ⟨22, _⟩ => ⟨S1x4096, .f32⟩
  | .local _ .vmem, ⟨23, _⟩ => ⟨S128x4096, .f32⟩
  | .local _ .vmem, ⟨24, _⟩ => ⟨S128x4096, .f32⟩
  | .local _ .vmem, ⟨25, _⟩ => ⟨S128x4096, .f32⟩
  | .local _ .vmem, ⟨26, _⟩ => ⟨S128x4096, .f32⟩
  | .local _ .vmem, ⟨27, _⟩ => ⟨S128x4096, .f32⟩
  | .local _ .vmem, ⟨28, _⟩ => ⟨S128x4096, .f32⟩
  | _, _ => ⟨S1024x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc2_stg6_0 : Ref sig .tc := ⟨.vmem, 25, rfl⟩
abbrev cc2_stg6_1 : Ref sig .tc := ⟨.vmem, 26, rfl⟩
abbrev cc2_stg7_0 : Ref sig .tc := ⟨.vmem, 27, rfl⟩
abbrev cc2_stg7_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem5_1 : DmaSem sig := 21
abbrev cc2_sem6_0 : DmaSem sig := 22
abbrev cc2_sem6_1 : DmaSem sig := 23
abbrev cc2_sem7_0 : DmaSem sig := 24
abbrev cc2_sem7_1 : DmaSem sig := 25

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v23 : BitVec 1 := Scalar.cmpi .eq arg1 c15_i32
  let v24 : BitVec 32 := Scalar.extui v23
  let c0_i32_13 : BitVec 32 := 0#32
  let v25 : BitVec 1 := Scalar.cmpi .ne v24 c0_i32_13
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 64], ![false, false]⟩

def k1_cond2 (i : grid1.Coords) : BitVec 1 :=
  let arg1 : BitVec 32 := BitVec.ofNat 32 (i 1).val
  let c63_i32 : BitVec 32 := 63#32
  let v14 : BitVec 1 := Scalar.cmpi .eq arg1 c63_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S4096x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x4096 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S128x4096 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S128x4096 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S128x4096 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x1024_S512x1024_0_0 : ∀ a, (![0, 0] : Fin 2 → Nat) a + S512x1024.size a ≤ S512x1024.size a
  h_S512x1024 : 0 < S512x1024.numel
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  shapeCasts_S4096_S1x4096 : S4096.ShapeCasts S1x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x256_S2048x256_0_0 : ∀ a, (![0, 0] : Fin 2 → Nat) a + S2048x256.size a ≤ S2048x256.size a
  h_S2048x256 : 0 < S2048x256.numel
  transposes_S2048x256_p1_0_S256x2048 : S2048x256.Transposes [1, 0] S256x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  shapeCasts_S256_S1x256 : S256.ShapeCasts S1x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256x256_S256x256_0_0 : ∀ a, (![0, 0] : Fin 2 → Nat) a + S256x256.size a ≤ S256x256.size a
  h_S256x256 : 0 < S256x256.numel
  transposes_S256x256_p1_0_S256x256 : S256x256.Transposes [1, 0] S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S128x256 : S1x256.Broadcasts S128x256
  inb_S4096x256_S4096x256_0_0 : ∀ a, (![0, 0] : Fin 2 → Nat) a + S4096x256.size a ≤ S4096x256.size a
  h_S4096x256 : 0 < S4096x256.numel
  transposes_S4096x256_p1_0_S256x4096 : S4096x256.Transposes [1, 0] S256x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  dot_S512x1024_S1024x256_S512x256_1_0_0_1_n_n_wf : DotDims.WF S512x1024 S1024x256 S512x256 [1] [0] [0] [1] [] []
  dot_S1024x256_S256x2048_S1024x2048_1_0_0_1_n_n_wf : DotDims.WF S1024x256 S256x2048 S1024x2048 [1] [0] [0] [1] [] []
  dot_S128x256_S256x256_S128x256_1_0_0_1_n_n_wf : DotDims.WF S128x256 S256x256 S128x256 [1] [0] [0] [1] [] []
  dot_S128x256_S256x4096_S128x4096_1_0_0_1_n_n_wf : DotDims.WF S128x256 S256x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S1024x16384.size a
  hwx0_0 : ∀ i : grid0.Coords, EltTy.bits .f32 = 32 ∨ (Rect.block (s := S1024x16384) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S16384x256.size a
  hwx0_1 : ∀ i : grid0.Coords, EltTy.bits .f32 = 32 ∨ (Rect.block (s := S16384x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S1024x256.size a
  hwx0_2 : ∀ i : grid0.Coords, EltTy.bits .f32 = 32 ∨ (Rect.block (s := S1024x256) S512x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S1024x16384.size a
  hwx1_0 : ∀ i : grid1.Coords, EltTy.bits .f32 = 32 ∨ (Rect.block (s := S1024x16384) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S4096x16384.size a
  hwx1_1 : ∀ i : grid1.Coords, EltTy.bits .f32 = 32 ∨ (Rect.block (s := S4096x16384) S2048x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x4096.size a
  hwx1_2 : ∀ i : grid1.Coords, EltTy.bits .f32 = 32 ∨ (Rect.block (s := S1x4096) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S1024x4096.size a
  hwx1_3 : ∀ i : grid1.Coords, EltTy.bits .f32 = 32 ∨ (Rect.block (s := S1024x4096) S1024x2048.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x256.size a ≤ S1024x256.size a
  hwx2_0 : ∀ i : grid2.Coords, EltTy.bits .f32 = 32 ∨ (Rect.block (s := S1024x256) S128x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S4096x256.size a ≤ S4096x256.size a
  hwx2_3 : ∀ i : grid2.Coords, EltTy.bits .f32 = 32 ∨ (Rect.block (s := S4096x256) S4096x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x4096.size a ≤ S1x4096.size a
  hwx2_4 : ∀ i : grid2.Coords, EltTy.bits .f32 = 32 ∨ (Rect.block (s := S1x4096) S1x4096.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S128x4096.size a ≤ S1024x4096.size a
  hwx2_5 : ∀ i : grid2.Coords, EltTy.bits .f32 = 32 ∨ (Rect.block (s := S1024x4096) S128x4096.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S128x4096.size a ≤ S1024x4096.size a
  hwx2_6 : ∀ i : grid2.Coords, EltTy.bits .f32 = 32 ∨ (Rect.block (s := S1024x4096) S128x4096.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S128x4096.size a ≤ S1024x4096.size a
  hwx2_7 : ∀ i : grid2.Coords, EltTy.bits .f32 = 32 ∨ (Rect.block (s := S1024x4096) S128x4096.size (cc2_transform_7 i) (hinb2_7 i)).WholeWords (EltTy.packing .f32)

variable [Facts₀]

def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf
def dot_S1024x256_S256x2048_S1024x2048_1_0_0_1_n_n : DotDims S1024x256 S256x2048 S1024x2048 where
  lhsContracting := [1]
  rhsContracting := [0]
  lhsNonContracting := [0]
  rhsNonContracting := [1]
  lhsBatch := []
  rhsBatch := []
  wf := dot_S1024x256_S256x2048_S1024x2048_1_0_0_1_n_n_wf
def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf
def dot_S128x256_S256x4096_S128x4096_1_0_0_1_n_n : DotDims S128x256 S256x4096 S128x4096 where
  lhsContracting := [1]
  rhsContracting := [0]
  lhsNonContracting := [0]
  rhsNonContracting := [1]
  lhsBatch := []
  rhsBatch := []
  wf := dot_S128x256_S256x4096_S128x4096_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v0) S128x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S4096x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v4) S1x4096.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v2) S128x4096.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v5_0) S128x4096.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v5_1) S128x4096.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S1024x16384 : Shape := ⟨2, ![1024, 16384]⟩
abbrev S16384x256 : Shape := ⟨2, ![16384, 256]⟩
abbrev S4096x16384 : Shape := ⟨2, ![4096, 16384]⟩
abbrev S4096 : Shape := ⟨1, ![4096]⟩
abbrev S256x256 : Shape := ⟨2, ![256, 256]⟩
abbrev S256 : Shape := ⟨1, ![256]⟩
abbrev S4096x256 : Shape := ⟨2, ![4096, 256]⟩
abbrev S1024x256 : Shape := ⟨2, ![1024, 256]⟩
abbrev S_ : Shape := ⟨0, ![]⟩
abbrev S1x256 : Shape := ⟨2, ![1, 256]⟩
abbrev S256x4096 : Shape := ⟨2, ![256, 4096]⟩
abbrev S1024x4096 : Shape := ⟨2, ![1024, 4096]⟩
abbrev S1x4096 : Shape := ⟨2, ![1, 4096]⟩
abbrev S16384x4096 : Shape := ⟨2, ![16384, 4096]⟩

abbrev nBuf : Space → Nat
  | .hbm => 36
  | .vmem => 0
  | .smem => 0
  | _ => 0

abbrev bufTy : (tb : Table) → Fin (tcTables nBuf tb) → BufTy
  | .hbm, ⟨0, _⟩ => ⟨S1024x16384, .f32⟩
  | .hbm, ⟨1, _⟩ => ⟨S16384x256, .f32⟩
  | .hbm, ⟨2, _⟩ => ⟨S4096x16384, .f32⟩
  | .hbm, ⟨3, _⟩ => ⟨S4096, .f32⟩
  | .hbm, ⟨4, _⟩ => ⟨S256x256, .f32⟩
  | .hbm, ⟨5, _⟩ => ⟨S256, .f32⟩
  | .hbm, ⟨6, _⟩ => ⟨S4096x256, .f32⟩
  | .hbm, ⟨7, _⟩ => ⟨S4096, .f32⟩
  | .hbm, ⟨8, _⟩ => ⟨S1024x256, .f32⟩
  | .hbm, ⟨9, _⟩ => ⟨S1024x16384, .f32⟩
  | .hbm, ⟨10, _⟩ => ⟨S16384x256, .f32⟩
  | .hbm, ⟨11, _⟩ => ⟨S1024x256, .f32⟩
  | .hbm, ⟨12, _⟩ => ⟨S1024x256, .f32⟩
  | .hbm, ⟨13, _⟩ => ⟨S1024x256, .f32⟩
  | .hbm, ⟨14, _⟩ => ⟨S_, .f32⟩
  | .hbm, ⟨15, _⟩ => ⟨S1024x256, .f32⟩
  | .hbm, ⟨16, _⟩ => ⟨S1024x256, .f32⟩
  | .hbm, ⟨17, _⟩ => ⟨S256x256, .f32⟩
  | .hbm, ⟨18, _⟩ => ⟨S1024x256, .f32⟩
  | .hbm, ⟨19, _⟩ => ⟨S1x256, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S256x4096, .f32⟩
  | .hbm, ⟨26, _⟩ => ⟨S1024x4096, .f32⟩
  | .hbm, ⟨27, _⟩ => ⟨S1x4096, .f32⟩
  | .hbm, ⟨28, _⟩ => ⟨S1024x4096, .f32⟩
  | .hbm, ⟨29, _⟩ => ⟨S1024x4096, .f32⟩
  | .hbm, ⟨30, _⟩ => ⟨S16384x4096, .f32⟩
  | .hbm, ⟨31, _⟩ => ⟨S1024x4096, .f32⟩
  | .hbm, ⟨32, _⟩ => ⟨S1x4096, .f32⟩
  | .hbm, ⟨33, _⟩ => ⟨S1024x4096, .f32⟩
  | .hbm, ⟨34, _⟩ => ⟨S1024x4096, .f32⟩
  | .hbm, ⟨35, _⟩ => ⟨S1024x4096, .f32⟩
  | _, _ => ⟨S1024x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_cst : Ref sig .tc := ⟨.hbm, 22, rfl⟩
abbrev main_call0_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]

class Facts₀ : Prop where
  bcast_S_S1024x256 : S_.BroadcastsInDim S1024x256 (![] : Fin 0 → Fin S1024x256.rank)
  transposes_S256x256_S256x256_1_0 : S256x256.Transposes [1, 0] S256x256
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  transposes_S4096x256_S256x4096_1_0 : S4096x256.Transposes [1, 0] S256x4096
  bcast_S4096_S1x4096_1 : S4096.BroadcastsInDim S1x4096 (![1] : Fin 1 → Fin S1x4096.rank)
  bcast_S1x4096_S1024x4096_0_1 : S1x4096.BroadcastsInDim S1024x4096 (![0, 1] : Fin 2 → Fin S1024x4096.rank)
  transposes_S4096x16384_S16384x4096_1_0 : S4096x16384.Transposes [1, 0] S16384x4096
  dot_S1024x16384_S16384x256_S1024x256_1_0_0_1_n_n_wf : DotDims.WF S1024x16384 S16384x256 S1024x256 [1] [0] [0] [1] [] []
  dot_S1024x256_S256x256_S1024x256_1_0_0_1_n_n_wf : DotDims.WF S1024x256 S256x256 S1024x256 [1] [0] [0] [1] [] []
  dot_S1024x256_S256x4096_S1024x4096_1_0_0_1_n_n_wf : DotDims.WF S1024x256 S256x4096 S1024x4096 [1] [0] [0] [1] [] []
  dot_S1024x16384_S16384x4096_S1024x4096_1_0_0_1_n_n_wf : DotDims.WF S1024x16384 S16384x4096 S1024x4096 [1] [0] [0] [1] [] []

variable [Facts₀]

def dot_S1024x16384_S16384x256_S1024x256_1_0_0_1_n_n : DotDims S1024x16384 S16384x256 S1024x256 where
  lhsContracting := [1]
  rhsContracting := [0]
  lhsNonContracting := [0]
  rhsNonContracting := [1]
  lhsBatch := []
  rhsBatch := []
  wf := dot_S1024x16384_S16384x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x4096_S1024x4096_1_0_0_1_n_n : DotDims S1024x256 S256x4096 S1024x4096 where
  lhsContracting := [1]
  rhsContracting := [0]
  lhsNonContracting := [0]
  rhsNonContracting := [1]
  lhsBatch := []
  rhsBatch := []
  wf := dot_S1024x256_S256x4096_S1024x4096_1_0_0_1_n_n_wf
def dot_S1024x16384_S16384x4096_S1024x4096_1_0_0_1_n_n : DotDims S1024x16384 S16384x4096 S1024x4096 where
  lhsContracting := [1]
  rhsContracting := [0]
  lhsNonContracting := [0]
  rhsNonContracting := [1]
  lhsBatch := []
  rhsBatch := []
  wf := dot_S1024x16384_S16384x4096_S1024x4096_1_0_0_1_n_n_wf

class Facts : Prop extends Facts₀ where

variable [Facts]
-- ==== Proof.LibWhole2.lean ====
/-
  A rank-2 buffer stored whole and read back.

  A store through the rectangle that starts at the origin `![0, 0]` and has the buffer's own extents `[a, b]`
  replaces every element, so whatever the buffer held and whatever stores came before, the contents read afterwards
  are the stored value; a load through that rectangle reads the contents themselves; and a load through it of what
  one such store left reads that store's value. Stated over the literal origin and a literal rank-2 shape, so
  that each applies by unification to a printed whole-buffer access with nothing left to supply.
-/
import Idealize.ShloMosaic.Lib.Pipeline.Value
import Idealize.ShloMosaic.Lib.Pipeline.FrameBody

noncomputable section

namespace Cert.Whole2

open Idealize.ShloMosaic

variable {Val : EltTy → Type} [∀ e, Nonempty (Val e)] {e : EltTy}
variable {sig : RefSig} {κ : Kind} {sp : Space} {a b : ℕ}

/-- The origin of a rank-2 shape, however it is spelt. -/
theorem origin2 : (![0, 0] : Fin 2 → ℕ) = fun _ => 0 := by
  funext a; fin_cases a <;> rfl

/-- After a list of stores whose LAST one (the head of the list) fills the whole buffer, the buffer reads as that
    store's value. -/
theorem read_head2 (v : View sig κ sp ⟨2, ![a, b]⟩ e) (f : v.ty.Contents Val)
    (inb : ∀ x, (![0, 0] : Fin 2 → ℕ) x + (⟨2, ![a, b]⟩ : Shape).size x ≤ (⟨2, ![a, b]⟩ : Shape).size x)
    (w : (⟨2, ![a, b]⟩ : Shape).Idx → Val e) (L : List (View.Piece Val ⟨2, ![a, b]⟩ e)) :
    v.read Val (v.writes Val f ((⟨Rect.unit ![0, 0] (⟨2, ![a, b]⟩ : Shape).size inb, w⟩ : View.Piece Val ⟨2, ![a, b]⟩ e) :: L)) = w := by
  rw [View.read_writes_eq_canon _ _ _ (fun y => ⟨_, List.mem_cons_self, View.mem_set_unit_zero origin2 inb y⟩)]
  exact View.canon_cons_unit_zero origin2 inb w L

/-- A load through the whole-buffer rectangle reads the contents. -/
theorem readAt2 (v : View sig κ sp ⟨2, ![a, b]⟩ e) (f : v.ty.Contents Val)
    (inb : ∀ x, (![0, 0] : Fin 2 → ℕ) x + (⟨2, ![a, b]⟩ : Shape).size x ≤ (⟨2, ![a, b]⟩ : Shape).size x) :
    v.readAt Val (Rect.unit ![0, 0] (⟨2, ![a, b]⟩ : Shape).size inb).toLoadRect f = v.read Val f := by
  rw [View.readAt_eq_ld]; exact View.ld_unit_zero origin2 inb _

/-- A load through it of what one store through it left reads that store's value. -/
theorem readCov2 (v : View sig κ sp ⟨2, ![a, b]⟩ e)
    (inb : ∀ x, (![0, 0] : Fin 2 → ℕ) x + (⟨2, ![a, b]⟩ : Shape).size x ≤ (⟨2, ![a, b]⟩ : Shape).size x)
    (w : (⟨2, ![a, b]⟩ : Shape).Idx → Val e) :
    v.readCov [(⟨Rect.unit ![0, 0] (⟨2, ![a, b]⟩ : Shape).size inb, w⟩ : View.Piece Val ⟨2, ![a, b]⟩ e)]
      (Rect.unit ![0, 0] (⟨2, ![a, b]⟩ : Shape).size inb).toLoadRect = w :=
  View.readCov_unit_zero v origin2 inb w

end Cert.Whole2

end
-- ==== Proof.K_Body0.lean ====
/-
  Region 0, the interaction kernel, run once at a grid point (b, f) on whole staging buffers, in each of the three
  situations the grid meets. The body keeps two accumulators in scratch: the running sum over the feature blocks
  of x·e and of x²·e². At the first feature block (f = 0) it zeroes both and then adds the block's two products;
  at a later block it adds them to what the block before left; at the last block (f = 15) it moreover stores
  0.5·(S·S − Q) of the two finished sums S, Q into the output block. Each theorem says what the five buffers hold
  afterwards as the skeleton's payloads of what they held before; the output block is left untouched where the
  body does not store into it.
-/
import proofs.«165164_j35055523070100_1_alg».proof.Proof.Gen.Kernel.Launch
import proofs.«165164_j35055523070100_1_alg».proof.Proof.Gen.Kernel.Skeleton
import proofs.«165164_j35055523070100_1_alg».proof.Proof.Gen.Kernel.Points
import proofs.«165164_j35055523070100_1_alg».proof.Proof.LibWhole2
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Whole2

variable {F : FTy → Type} [FloatOps F]

local notation "𝕄" => MT nD τ sig Unit (Elt F) ℕ (UR sig nD τ) ℕ

/-- "This is the first feature block": the condition of the body's first `scf.if`, from the grid coordinates. -/
abbrev cond0_0 (i : grid0.Coords) : Prop := (Scalar.cmpi .ne (Scalar.extui (Scalar.cmpi .eq (BitVec.ofNat 32 (i 1).val) 0#32)) 0#32) = 1#1
/-- "This is the last feature block": the condition of its second. -/
abbrev cond0_1 (i : grid0.Coords) : Prop := k0_cond2 i = 1#1

/-- One accumulation step: the two scratch accumulators after the body, from the point's input blocks and what the
    accumulators held when the two products were added. -/
def step0 (x : Vec F S512x1024 .f32) (e : Vec F S1024x256 .f32) (s : Vec F S512x256 .f32 × Vec F S512x256 .f32) :
    Vec F S512x256 .f32 × Vec F S512x256 .f32 :=
  (k0_pay3 x e s.1, k0_pay4 x e s.2)

/-- The accumulators as the reset leaves them: both zero. -/
def zero0 : Vec F S512x256 .f32 × Vec F S512x256 .f32 := (k0_pay1, k0_pay2)

set_option maxHeartbeats 1000000 in
/-- First feature block, not the last: both accumulators are reset and hold the block's products added to zero. -/
theorem run0_first (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole)
    (hc0 : cond0_0 i) (hc1 : ¬cond0_1 i)
    (x0 : Vec F S512x1024 .f32) (x1 : Vec F S1024x256 .f32) (xi2 : Vec F S512x256 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare xi2
            ∗ owns (c : Thread nD τ) arg5 fullShare (step0 x0 x1 (zero0 (F := F))).1 ∗ owns (c : Thread nD τ) arg6 fullShare (step0 x0 x1 (zero0 (F := F))).2) -∗ K ⟨⟩))
      ⊢ wp frame (wpE (defs₀ (F := F)) Variants.none c none) E (cc0__interaction_kernel i arg2 harg2 arg3 harg3 arg4 harg4 arg5 harg5 arg6 harg6) K := by
  simp only [cc0__interaction_kernel_eq_skeleton]; unfold cc0__interaction_kernel_skel
  unfold owns
  iintro ⟨⟨%f0, %hf0, H0⟩, ⟨%f1, %hf1, H1⟩, ⟨%f2, %hf2, H2⟩, ⟨%d5, %f5, -, H5⟩, ⟨%d6, %f6, -, H6⟩, Hk⟩
  obtain rfl := harg2.eq_unread hf0; obtain rfl := harg3.eq_unread hf1; obtain rfl := harg4.eq_unread hf2
  sl_exec (disch := first | exact hc0 | exact hc1)
  sl_step
  iapply Hk
  sl_unfold_words
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr
    swap; · iexact H5
    ipureintro
    rw [read_head2]
    exact congr (congr (congrArg k0_pay3 ((readAt2 _ _ _).trans (harg2.read_unread _))) ((readAt2 _ _ _).trans (harg3.read_unread _))) (readCov2 _ _ _)
  · iexists _; isplitr
    swap; · iexact H6
    ipureintro
    rw [read_head2]
    exact congr (congr (congrArg k0_pay4 ((readAt2 _ _ _).trans (harg2.read_unread _))) ((readAt2 _ _ _).trans (harg3.read_unread _))) (readCov2 _ _ _)

set_option maxHeartbeats 1000000 in
/-- A middle feature block: both accumulators grow by the block's products. -/
theorem run0_mid (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole)
    (hc0 : ¬cond0_0 i) (hc1 : ¬cond0_1 i)
    (x0 : Vec F S512x1024 .f32) (x1 : Vec F S1024x256 .f32) (xi2 : Vec F S512x256 .f32) (s : Vec F S512x256 .f32 × Vec F S512x256 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare s.1 ∗ owns (c : Thread nD τ) arg6 fullShare s.2
        ∗ (iprop(owns (c : Thread nD τ) arg2 fullShare x0 ∗ owns (c : Thread nD τ) arg3 fullShare x1 ∗ owns (c : Thread nD τ) arg4 fullShare xi2
            ∗ owns (c : Thread nD τ) arg5 fullShare (step0 x0 x1 s).1 ∗ owns (c : Thread nD τ) arg6 fullShare (step0 x0 x1 s).2) -∗ K ⟨⟩))
      ⊢ wp frame (wpE (defs₀ (F := F)) Variants.none c none) E (cc0__interaction_kernel i arg2 harg2 arg3 harg3 arg4 harg4 arg5 harg5 arg6 harg6) K := by
  simp only [cc0__interaction_kernel_eq_skeleton]; unfold cc0__interaction_kernel_skel
  unfold owns
  iintro ⟨⟨%f0, %hf0, H0⟩, ⟨%f1, %hf1, H1⟩, ⟨%f2, %hf2, H2⟩, ⟨%f5, %hf5, H5⟩, ⟨%f6, %hf6, H6⟩, Hk⟩
  obtain rfl := harg2.eq_unread hf0; obtain rfl := harg3.eq_unread hf1; obtain rfl := harg4.eq_unread hf2
  obtain rfl := harg5.eq_unread hf5; obtain rfl := harg6.eq_unread hf6
  sl_exec (disch := first | exact hc0 | exact hc1)
  sl_step
  iapply Hk
  sl_unfold_words
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr
    swap; · iexact H5
    ipureintro
    rw [read_head2]
    exact congr (congr (congrArg k0_pay3 ((readAt2 _ _ _).trans (harg2.read_unread _))) ((readAt2 _ _ _).trans (harg3.read_unread _))) ((readAt2 _ _ _).trans (harg5.read_unread _))
  · iexists _; isplitr
    swap; · iexact H6
    ipureintro
    rw [read_head2]
    exact congr (congr (congrArg k0_pay4 ((readAt2 _ _ _).trans (harg2.read_unread _))) ((readAt2 _ _ _).trans (harg3.read_unread _))) ((readAt2 _ _ _).trans (harg6.read_unread _))

set_option maxHeartbeats 1000000 in
/-- The last feature block: both accumulators grow by the block's products, and the output block takes
    0.5·(S·S − Q) of the two finished sums. -/
theorem run0_last (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole)
    (hc0 : ¬cond0_0 i) (hc1 : cond0_1 i)
    (x0 : Vec F S512x1024 .f32) (x1 : Vec F S1024x256 .f32) (s : Vec F S512x256 .f32 × Vec F S512x256 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare s.1 ∗ owns (c : Thread nD τ) arg6 fullShare s.2
        ∗ (iprop(owns (c : Thread nD τ) arg2 fullShare x0 ∗ owns (c : Thread nD τ) arg3 fullShare x1 ∗ owns (c : Thread nD τ) arg4 fullShare (k0_pay5 (step0 x0 x1 s).1 (step0 x0 x1 s).2)
            ∗ owns (c : Thread nD τ) arg5 fullShare (step0 x0 x1 s).1 ∗ owns (c : Thread nD τ) arg6 fullShare (step0 x0 x1 s).2) -∗ K ⟨⟩))
      ⊢ wp frame (wpE (defs₀ (F := F)) Variants.none c none) E (cc0__interaction_kernel i arg2 harg2 arg3 harg3 arg4 harg4 arg5 harg5 arg6 harg6) K := by
  simp only [cc0__interaction_kernel_eq_skeleton]; unfold cc0__interaction_kernel_skel
  unfold owns
  iintro ⟨⟨%f0, %hf0, H0⟩, ⟨%f1, %hf1, H1⟩, ⟨%d2, %f2, -, H2⟩, ⟨%f5, %hf5, H5⟩, ⟨%f6, %hf6, H6⟩, Hk⟩
  obtain rfl := harg2.eq_unread hf0; obtain rfl := harg3.eq_unread hf1
  obtain rfl := harg5.eq_unread hf5; obtain rfl := harg6.eq_unread hf6
  sl_exec (disch := first | exact hc0 | exact hc1)
  sl_step
  iapply Hk
  sl_unfold_words
  have e5 : k0_pay3 (View.readAt (Elt F) arg2.view (Rect.unit ![0, 0] S512x1024.size inb_S512x1024_S512x1024_0_0).toLoadRect (harg2.unread x0))
      (View.readAt (Elt F) arg3.view (Rect.unit ![0, 0] S1024x256.size inb_S1024x256_S1024x256_0_0).toLoadRect (harg3.unread x1))
      (View.readAt (Elt F) arg5.view (Rect.unit ![0, 0] S512x256.size inb_S512x256_S512x256_0_0).toLoadRect (harg5.unread s.1)) = (step0 x0 x1 s).1 :=
    congr (congr (congrArg k0_pay3 ((readAt2 _ _ _).trans (harg2.read_unread _))) ((readAt2 _ _ _).trans (harg3.read_unread _))) ((readAt2 _ _ _).trans (harg5.read_unread _))
  have e6 : k0_pay4 (View.readAt (Elt F) arg2.view (Rect.unit ![0, 0] S512x1024.size inb_S512x1024_S512x1024_0_0).toLoadRect (harg2.unread x0))
      (View.readAt (Elt F) arg3.view (Rect.unit ![0, 0] S1024x256.size inb_S1024x256_S1024x256_0_0).toLoadRect (harg3.unread x1))
      (View.readAt (Elt F) arg6.view (Rect.unit ![0, 0] S512x256.size inb_S512x256_S512x256_0_0).toLoadRect (harg6.unread s.2)) = (step0 x0 x1 s).2 :=
    congr (congr (congrArg k0_pay4 ((readAt2 _ _ _).trans (harg2.read_unread _))) ((readAt2 _ _ _).trans (harg3.read_unread _))) ((readAt2 _ _ _).trans (harg6.read_unread _))
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    rw [read_head2]
    exact congr (congrArg k0_pay5 ((readCov2 _ _ _).trans e5)) ((readCov2 _ _ _).trans e6)
  isplitl [H5]
  · iexists _; isplitr
    swap; · iexact H5
    ipureintro
    rw [read_head2]
    exact e5
  · iexists _; isplitr
    swap; · iexact H6
    ipureintro
    rw [read_head2]
    exact e6

end Cert.Kernel.Hand

end
-- ==== Proof.K_Dat0.lean ====
/-
  Region 0's proof data at a parameter `V`, the buffer contents when the region is entered, and its body
  obligation. The grid is 2 row blocks × 16 feature blocks, point t = 16·b + f. After the body at point t the two
  scratch accumulators hold the sums, over the feature blocks 0 … f of row block b, of the blocks' products x·e and
  x²·e² (`acc0`: reset at f = 0, grown by one block's products at every point); the output block is stored only at
  f = 15, where it takes 0.5·(S·S − Q) of the finished sums, and is idle — neither stored nor written back — at
  every other point. The region's invariant between points is: the two accumulators at `acc0` of the point
  before, the core's other scoped buffers at anything, the generator register at some state.
-/
import proofs.«165164_j35055523070100_1_alg».proof.Proof.Gen.Kernel.Launch
import proofs.«165164_j35055523070100_1_alg».proof.Proof.Gen.Kernel.Skeleton
import proofs.«165164_j35055523070100_1_alg».proof.Proof.Gen.Kernel.Points
import proofs.«165164_j35055523070100_1_alg».proof.Proof.LibWhole2
import proofs.«165164_j35055523070100_1_alg».proof.Proof.K_Body0
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Whole2

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The conditions over the grid, and where the output is idle -/

/-- The first feature block is the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)
/-- The last feature block is the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)
/-- Away from the last feature block the output window is idle … -/
theorem idleAt0_2 : ∀ t : Fin cfg0.N, ¬t.val % 16 = 15 → cfg0.idle 2 (grid0.coords t) = true :=
  (by decide +kernel : ∀ t : Fin grid0.N, ¬t.val % 16 = 15 → cfg0.idle 2 (grid0.coords t) = true)
/-- … and not written back; -/
theorem noFlush0_2 (t : Fin cfg0.N) (h : ¬t.val % 16 = 15) : (cfg0.win 2).flush t = false := by
  cases hf : (cfg0.win 2).flush t
  · rfl
  · exact absurd ((flush0_2 t).mp hf) h
/-- at the last feature block it is live. -/
theorem liveAt0_2 : ∀ t : Fin cfg0.N, t.val % 16 = 15 → cfg0.idle 2 (grid0.coords t) = false :=
  (by decide +kernel : ∀ t : Fin grid0.N, t.val % 16 = 15 → cfg0.idle 2 (grid0.coords t) = false)

/-! ## The staging and scratch memrefs at a point -/

abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x256 .f32 := win0_2.stage (cfg0.slots t 2)
abbrev hs0_2 (t : Fin cfg0.N) : (ms0_2 t).IsWhole := hstage0_2 ((cfg0.slots t 2).cast nbuf0_2)
/-- The two scratch accumulators: whole scoped buffers of the kernel's own. -/
abbrev scM0_0 : Memref sig .tc .vmem S512x256 .f32 := Memref.whole cc0_scratch0
abbrev scM0_1 : Memref sig .tc .vmem S512x256 .f32 := Memref.whole cc0_scratch1

/-! ## The accumulators after each point -/

/-- The two accumulators after the body at position `n`: one step over zero at the first feature block of a row
    block, one step over what the point before left elsewhere. -/
def acc0 (c : Dev nD) : (n : ℕ) → n < cfg0.N → Vec F S512x256 .f32 × Vec F S512x256 .f32
  | 0, hn => step0 (iblk0 V c 0 ⟨0, hn⟩) (iblk0 V c 1 ⟨0, hn⟩) zero0
  | n + 1, hn => step0 (iblk0 V c 0 ⟨n + 1, hn⟩) (iblk0 V c 1 ⟨n + 1, hn⟩)
      (if (n + 1) % 16 = 0 then zero0 else acc0 c n (Nat.lt_of_succ_lt hn))

/-- At a first feature block: one step over zero. -/
theorem acc0_first (c : Dev nD) (t : Fin cfg0.N) (h : t.val % 16 = 0) :
    acc0 V c t.val t.isLt = step0 (iblk0 V c 0 t) (iblk0 V c 1 t) zero0 := by
  obtain ⟨n, hn⟩ := t
  cases n with
  | zero => rfl
  | succ n => exact congrArg (step0 _ _) (if_pos h)

/-- Elsewhere: one step over what the point before left. -/
theorem acc0_next (c : Dev nD) (t : Fin cfg0.N) (h : ¬t.val % 16 = 0) :
    acc0 V c t.val t.isLt = step0 (iblk0 V c 0 t) (iblk0 V c 1 t) (acc0 V c (t.val - 1) (Nat.lt_of_le_of_lt (Nat.sub_le _ _) t.isLt)) := by
  obtain ⟨n, hn⟩ := t
  cases n with
  | zero => exact absurd (Nat.zero_mod _) h
  | succ n => exact congrArg (step0 _ _) (if_neg h)

/-! ## The invariant between points -/

/-- The class invariant with the two accumulators split off the scoped rest. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA
  rw [Pipeline.scopedRest_split_of_list spec0 c [cc0_scratch0, cc0_scratch1] (by decide) (by decide)]
  simp only [bigSepL_cons_cons, bigSepL_singleton, scM0_0, scM0_1, owns_whole]
  try rfl

/-- Before position `n`: the class invariant before the first point; afterwards the two accumulators at what the
    point before left, the other scoped buffers at anything, the generator register at some state. -/
def Phi0 (c : Dev nD) : (n : ℕ) → n ≤ cfg0.N → sProp 𝕄
  | 0, _ => Pipeline.ΦA spec0 c
  | n + 1, hn => iprop(iprop(iprop(owns (c : Thread nD τ) scM0_0 fullShare (acc0 V c n hn).1 ∗ owns (c : Thread nD τ) scM0_1 fullShare (acc0 V c n hn).2)
      ∗ Pipeline.scopedRestBut (Ix := Unit) (Name := ℕ) (U := UR sig nD τ) (Lvl := ℕ) (Val := Elt F) spec0 c [cc0_scratch0, cc0_scratch1]) ∗ (∃ r, prngReg c r))

theorem Phi0_zero (c : Dev nD) (n : ℕ) (h : n ≤ cfg0.N) (hz : n = 0) : Phi0 V c n h = Pipeline.ΦA spec0 c := by
  subst hz; rfl
theorem Phi0_succ (c : Dev nD) (n : ℕ) (hn : n < cfg0.N) :
    Phi0 V c (n + 1) hn = iprop(iprop(iprop(owns (c : Thread nD τ) scM0_0 fullShare (acc0 V c n hn).1 ∗ owns (c : Thread nD τ) scM0_1 fullShare (acc0 V c n hn).2)
      ∗ Pipeline.scopedRestBut (Ix := Unit) (Name := ℕ) (U := UR sig nD τ) (Lvl := ℕ) (Val := Elt F) spec0 c [cc0_scratch0, cc0_scratch1]) ∗ (∃ r, prngReg c r)) := rfl
theorem Phi0_pos (c : Dev nD) (n : ℕ) (h : n ≤ cfg0.N) (hz : n ≠ 0) :
    Phi0 V c n h = iprop(iprop(iprop(owns (c : Thread nD τ) scM0_0 fullShare (acc0 V c (n - 1) (by omega)).1 ∗ owns (c : Thread nD τ) scM0_1 fullShare (acc0 V c (n - 1) (by omega)).2)
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## The proof data -/

/-- Region 0's proof data on core `c`: the arrays as the region finds them; after the body each input's buffer at
    its block and the output's at 0.5·(S·S − Q) of the point's accumulators (consulted at the last feature block
    only); the invariant `Phi0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay5 (acc0 V c t.val t.isLt).1 (acc0 V c t.val t.isLt).2
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem Phi0_castSucc (c : Dev nD) (t : Fin cfg0.N) :
    (dat0 V c).Φ t.castSucc = Phi0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = k0_pay5 (acc0 V c t.val t.isLt).1 (acc0 V c t.val t.isLt).2 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (ms0_0 t) fullShare ((dat0 V c).after 0 t) from rfl, after0_0]
  rw [show (dat0 V c).leavesExact 1 t = owns (c : Thread nD τ) (ms0_1 t) fullShare ((dat0 V c).after 1 t) from rfl, after0_1]
  have hN : t.val < 32 := lt_of_lt_of_eq t.isLt (show cfg0.N = 32 from N_0)
  by_cases h0 : t.val % 16 = 0
  · have h1 : ¬t.val % 16 = 15 := by omega
    rw [Dat.leavesExact_idle (dat0 V c) 2 t (idleAt0_2 t h1) (noFlush0_2 t h1)]
    rw [acc0_first V c t h0]
    by_cases hz : t.val = 0
    · rw [Phi0_castSucc V c t, Phi0_zero V c _ _ hz, PhiA0_eq]
      iintro ⟨⟨⟨⟨HS0, HS1⟩, HR⟩, Hg⟩, Ho, ⟨%d0, H0⟩, ⟨%d1, H1⟩, ⟨%d2, H2⟩⟩
      iapply (run0_first c (grid0.coords t) _ _ _ _ _ _ _ _ _ _ ((hcond0_0 t).mpr h0) (fun h => h1 ((hcond0_1 t).mp h)) (iblk0 V c 0 t) (iblk0 V c 1 t) _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitr [Hg]
        · isplitr [HR]
          · isplitl [HS0]; · iexact HS0
            iexact HS1
          iexact HR
        iexact Hg
      isplitl [Ho]; · iexact Ho
      isplitl [H0]; · iexact H0
      isplitl [H1]; · iexact H1
      iexists _; iexact H2
    · rw [Phi0_castSucc V c t, Phi0_pos V c _ _ hz]
      iintro ⟨⟨⟨⟨HS0, HS1⟩, HR⟩, Hg⟩, Ho, ⟨%d0, H0⟩, ⟨%d1, H1⟩, ⟨%d2, H2⟩⟩
      iapply (run0_first c (grid0.coords t) _ _ _ _ _ _ _ _ _ _ ((hcond0_0 t).mpr h0) (fun h => h1 ((hcond0_1 t).mp h)) (iblk0 V c 0 t) (iblk0 V c 1 t) _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, HS0, HS1⟩
      isplitl [HS0 HS1 HR Hg]
      · isplitr [Hg]
        · isplitr [HR]
          · isplitl [HS0]; · iexact HS0
            iexact HS1
          iexact HR
        iexact Hg
      isplitl [Ho]; · iexact Ho
      isplitl [H0]; · iexact H0
      isplitl [H1]; · iexact H1
      iexists _; iexact H2
  · have hz : t.val ≠ 0 := fun h => h0 (by rw [h])
    rw [acc0_next V c t h0]
    rw [Phi0_castSucc V c t, Phi0_pos V c _ _ hz]
    by_cases h1 : t.val % 16 = 15
    · rw [show (dat0 V c).leavesExact 2 t = owns (c : Thread nD τ) (ms0_2 t) fullShare ((dat0 V c).after 2 t) from by
        unfold Dat.leavesExact; rw [liveAt0_2 t h1], after0_2, acc0_next V c t h0]
      iintro ⟨⟨⟨⟨HS0, HS1⟩, HR⟩, Hg⟩, Ho, ⟨%d0, H0⟩, ⟨%d1, H1⟩, ⟨%d2, H2⟩⟩
      iapply (run0_last c (grid0.coords t) _ _ _ _ _ _ _ _ _ _ (fun h => h0 ((hcond0_0 t).mp h)) ((hcond0_1 t).mpr h1) (iblk0 V c 0 t) (iblk0 V c 1 t) _ Set.univ _)
      isplitl [H0]; · iexact H0
      isplitl [H1]; · iexact H1
      isplitl [H2]; · iexists _; iexact H2
      isplitl [HS0]; · iexact HS0
      isplitl [HS1]; · iexact HS1
      iintro ⟨H0, H1, H2, HS0, HS1⟩
      isplitl [HS0 HS1 HR Hg]
      · isplitr [Hg]
        · isplitr [HR]
          · isplitl [HS0]; · iexact HS0
            iexact HS1
          iexact HR
        iexact Hg
      isplitl [Ho]; · iexact Ho
      isplitl [H0]; · iexact H0
      isplitl [H1]; · iexact H1
      iexact H2
    · rw [Dat.leavesExact_idle (dat0 V c) 2 t (idleAt0_2 t h1) (noFlush0_2 t h1)]
      iintro ⟨⟨⟨⟨HS0, HS1⟩, HR⟩, Hg⟩, Ho, ⟨%d0, H0⟩, ⟨%d1, H1⟩, ⟨%d2, H2⟩⟩
      iapply (run0_mid c (grid0.coords t) _ _ _ _ _ _ _ _ _ _ (fun h => h0 ((hcond0_0 t).mp h)) (fun h => h1 ((hcond0_1 t).mp h)) (iblk0 V c 0 t) (iblk0 V c 1 t) _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitr [Hg]
        · isplitr [HR]
          · isplitl [HS0]; · iexact HS0
            iexact HS1
          iexact HR
        iexact Hg
      isplitl [Ho]; · iexact Ho
      isplitl [H0]; · iexact H0
      isplitl [H1]; · iexact H1
      iexists _; iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- After the last point the invariant gives the class invariant back: the accumulators' contents are forgotten. -/
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 32 := N_0; omega), PhiA0_eq]
  iintro ⟨⟨⟨HS0, HS1⟩, HR⟩, Hg⟩
  isplitr [Hg]
  · isplitr [HR]
    · isplitl [HS0]; · iexists _; iexact HS0
      iexists _; iexact HS1
    iexact HR
  iexact Hg

end Cert.Kernel.Hand

end
-- ==== Proof.K_Body1.lean ====
/-
  Region 1, the linear kernel, run once at a grid point (o, f) on whole staging buffers, in each of the three
  situations the grid meets. The body keeps one accumulator in scratch: the running sum over the feature blocks of
  x·Wᵀ for the point's block of output columns. At the first feature block (f = 0) it zeroes the accumulator and
  adds the block's product; at a later block it adds the product to what the block before left; at the last block
  (f = 63) it moreover stores the finished sum plus the bias row into the output block. Each theorem says what the
  five buffers hold afterwards as the skeleton's payloads of what they held before.
-/
import proofs.«165164_j35055523070100_1_alg».proof.Proof.Gen.Kernel.Launch
import proofs.«165164_j35055523070100_1_alg».proof.Proof.Gen.Kernel.Skeleton
import proofs.«165164_j35055523070100_1_alg».proof.Proof.Gen.Kernel.Points
import proofs.«165164_j35055523070100_1_alg».proof.Proof.LibWhole2
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Whole2

variable {F : FTy → Type} [FloatOps F]

local notation "𝕄" => MT nD τ sig Unit (Elt F) ℕ (UR sig nD τ) ℕ

/-- "This is the first feature block": the condition of the body's first `scf.if`, from the grid coordinates. -/
abbrev cond1_0 (i : grid1.Coords) : Prop := (Scalar.cmpi .ne (Scalar.extui (Scalar.cmpi .eq (BitVec.ofNat 32 (i 1).val) 0#32)) 0#32) = 1#1
/-- "This is the last feature block": the condition of its second. -/
abbrev cond1_1 (i : grid1.Coords) : Prop := k1_cond2 i = 1#1

set_option maxHeartbeats 1000000 in
/-- First feature block, not the last: the accumulator is reset and holds the block's product added to zero. -/
theorem run1_first (c : Dev nD) (i : grid1.Coords) (arg2 : Memref sig .tc .vmem S1024x256 .f32) (harg2 : arg2.IsWhole) (arg3 : Memref sig .tc .vmem S2048x256 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole)
    (hc0 : cond1_0 i) (hc1 : ¬cond1_1 i)
    (x0 : Vec F S1024x256 .f32) (x1 : Vec F S2048x256 .f32) (x2 : Vec F S1x2048 .f32) (xi3 : Vec F S1024x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3
        ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare (k1_pay2 x0 x1 (k1_pay1 (F := F)))) -∗ K ⟨⟩))
      ⊢ wp frame (wpE (defs₀ (F := F)) Variants.none c none) E (cc1__linear_kernel i arg2 harg2 arg3 harg3 arg4 harg4 arg5 harg5 arg6 harg6) K := by
  simp only [cc1__linear_kernel_eq_skeleton]; unfold cc1__linear_kernel_skel
  unfold owns
  iintro ⟨⟨%f0, %hf0, H0⟩, ⟨%f1, %hf1, H1⟩, ⟨%f2, %hf2, H2⟩, ⟨%f3, %hf3, H3⟩, ⟨%d6, %f6, -, H6⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  sl_unfold_words
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H6
  ipureintro
  rw [read_head2]
  exact congr (congr (congrArg k1_pay2 ((readAt2 _ _ _).trans (harg2.read_unread _))) ((readAt2 _ _ _).trans (harg3.read_unread _))) (readCov2 _ _ _)

set_option maxHeartbeats 1000000 in
/-- A middle feature block: the accumulator grows by the block's product. -/
theorem run1_mid (c : Dev nD) (i : grid1.Coords) (arg2 : Memref sig .tc .vmem S1024x256 .f32) (harg2 : arg2.IsWhole) (arg3 : Memref sig .tc .vmem S2048x256 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole)
    (hc0 : ¬cond1_0 i) (hc1 : ¬cond1_1 i)
    (x0 : Vec F S1024x256 .f32) (x1 : Vec F S2048x256 .f32) (x2 : Vec F S1x2048 .f32) (xi3 : Vec F S1024x2048 .f32) (s : Vec F S1024x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3
        ∗ owns (c : Thread nD τ) arg6 fullShare s
        ∗ (iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare (k1_pay2 x0 x1 s)) -∗ K ⟨⟩))
      ⊢ wp frame (wpE (defs₀ (F := F)) Variants.none c none) E (cc1__linear_kernel i arg2 harg2 arg3 harg3 arg4 harg4 arg5 harg5 arg6 harg6) K := by
  simp only [cc1__linear_kernel_eq_skeleton]; unfold cc1__linear_kernel_skel
  unfold owns
  iintro ⟨⟨%f0, %hf0, H0⟩, ⟨%f1, %hf1, H1⟩, ⟨%f2, %hf2, H2⟩, ⟨%f3, %hf3, H3⟩, ⟨%f6, %hf6, H6⟩, Hk⟩
  obtain rfl := harg2.eq_unread hf0; obtain rfl := harg3.eq_unread hf1; obtain rfl := harg4.eq_unread hf2; obtain rfl := harg5.eq_unread hf3
  obtain rfl := harg6.eq_unread hf6
  sl_exec (disch := first | exact hc0 | exact hc1)
  sl_step
  iapply Hk
  sl_unfold_words
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H6
  ipureintro
  rw [read_head2]
  exact congr (congr (congrArg k1_pay2 ((readAt2 _ _ _).trans (harg2.read_unread _))) ((readAt2 _ _ _).trans (harg3.read_unread _))) ((readAt2 _ _ _).trans (harg6.read_unread _))

set_option maxHeartbeats 1000000 in
/-- The last feature block: the accumulator grows by the block's product, and the output block takes the finished
    sum plus the bias row. -/
theorem run1_last (c : Dev nD) (i : grid1.Coords) (arg2 : Memref sig .tc .vmem S1024x256 .f32) (harg2 : arg2.IsWhole) (arg3 : Memref sig .tc .vmem S2048x256 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole)
    (hc0 : ¬cond1_0 i) (hc1 : cond1_1 i)
    (x0 : Vec F S1024x256 .f32) (x1 : Vec F S2048x256 .f32) (x2 : Vec F S1x2048 .f32) (s : Vec F S1024x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ owns (c : Thread nD τ) arg6 fullShare s
        ∗ (iprop(owns (c : Thread nD τ) arg2 fullShare x0 ∗ owns (c : Thread nD τ) arg3 fullShare x1 ∗ owns (c : Thread nD τ) arg4 fullShare x2 ∗ owns (c : Thread nD τ) arg5 fullShare (k1_pay3 (k1_pay2 x0 x1 s) x2)
            ∗ owns (c : Thread nD τ) arg6 fullShare (k1_pay2 x0 x1 s)) -∗ K ⟨⟩))
      ⊢ wp frame (wpE (defs₀ (F := F)) Variants.none c none) E (cc1__linear_kernel i arg2 harg2 arg3 harg3 arg4 harg4 arg5 harg5 arg6 harg6) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, ⟨%f6, %hf6, H6⟩, Hk⟩
  obtain rfl := harg2.eq_unread hf0; obtain rfl := harg3.eq_unread hf1; obtain rfl := harg4.eq_unread hf2
  obtain rfl := harg6.eq_unread hf6
  sl_exec (disch := first | exact hc0 | exact hc1)
  sl_step
  iapply Hk
  sl_unfold_words
  have e6 : k1_pay2 (View.readAt (Elt F) arg2.view (Rect.unit ![0, 0] S1024x256.size inb_S1024x256_S1024x256_0_0).toLoadRect (harg2.unread x0))
      (View.readAt (Elt F) arg3.view (Rect.unit ![0, 0] S2048x256.size inb_S2048x256_S2048x256_0_0).toLoadRect (harg3.unread x1))
      (View.readAt (Elt F) arg6.view (Rect.unit ![0, 0] S1024x2048.size inb_S1024x2048_S1024x2048_0_0).toLoadRect (harg6.unread s)) = k1_pay2 x0 x1 s :=
    congr (congr (congrArg k1_pay2 ((readAt2 _ _ _).trans (harg2.read_unread _))) ((readAt2 _ _ _).trans (harg3.read_unread _))) ((readAt2 _ _ _).trans (harg6.read_unread _))
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    rw [read_head2]
    exact congr (congrArg k1_pay3 ((readCov2 _ _ _).trans e6)) ((readAt2 _ _ _).trans (harg4.read_unread _))
  · iexists _; isplitr
    swap; · iexact H6
    ipureintro
    rw [read_head2]
    exact e6

end Cert.Kernel.Hand

end
-- ==== Proof.K_Dat1.lean ====
/-
  Region 1's proof data at a parameter `V`, the buffer contents when the region is entered, and its body
  obligation. The grid is 2 blocks of output columns × 64 feature blocks, point t = 64·o + f. After the body at
  point t the scratch accumulator holds the sum, over the feature blocks 0 … f, of the blocks' products x·Wᵀ for
  column block o (`acc1`: reset at f = 0, grown by one block's product at every point); the output block is stored
  only at f = 63, where it takes the finished sum plus the bias row, and is idle at every other point. The region's
  invariant between points is: the accumulator at `acc1` of the point before, the core's other scoped buffers at
  anything, the generator register at some state.
-/
import proofs.«165164_j35055523070100_1_alg».proof.Proof.Gen.Kernel.Launch
import proofs.«165164_j35055523070100_1_alg».proof.Proof.Gen.Kernel.Skeleton
import proofs.«165164_j35055523070100_1_alg».proof.Proof.Gen.Kernel.Points
import proofs.«165164_j35055523070100_1_alg».proof.Proof.LibWhole2
import proofs.«165164_j35055523070100_1_alg».proof.Proof.K_Body1
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Whole2

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not, for any proof data whose
    array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The conditions over the grid, and where the output is idle -/

/-- The first feature block is the points ≡ 0 (mod 64). -/
theorem hcond1_0 : ∀ t : Fin cfg1.N, cond1_0 (grid1.coords t) ↔ t.val % 64 = 0 :=
  (by decide +kernel : ∀ t : Fin grid1.N, cond1_0 (grid1.coords t) ↔ t.val % 64 = 0)
/-- The last feature block is the points ≡ 63 (mod 64). -/
theorem hcond1_1 : ∀ t : Fin cfg1.N, cond1_1 (grid1.coords t) ↔ t.val % 64 = 63 :=
  (by decide +kernel : ∀ t : Fin grid1.N, cond1_1 (grid1.coords t) ↔ t.val % 64 = 63)
/-- Away from the last feature block the output window is idle … -/
theorem idleAt1_3 : ∀ t : Fin cfg1.N, ¬t.val % 64 = 63 → cfg1.idle 3 (grid1.coords t) = true :=
  (by decide +kernel : ∀ t : Fin grid1.N, ¬t.val % 64 = 63 → cfg1.idle 3 (grid1.coords t) = true)
/-- … and not written back; -/
theorem noFlush1_3 (t : Fin cfg1.N) (h : ¬t.val % 64 = 63) : (cfg1.win 3).flush t = false := by
  cases hf : (cfg1.win 3).flush t
  · rfl
  · exact absurd ((flush1_3 t).mp hf) h
/-- at the last feature block it is live. -/
theorem liveAt1_3 : ∀ t : Fin cfg1.N, t.val % 64 = 63 → cfg1.idle 3 (grid1.coords t) = false :=
  (by decide +kernel : ∀ t : Fin grid1.N, t.val % 64 = 63 → cfg1.idle 3 (grid1.coords t) = false)

/-! ## The staging and scratch memrefs at a point -/

abbrev ms1_0 (t : Fin cfg1.N) : Memref sig .tc .vmem S1024x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .f32 := win1_3.stage (cfg1.slots t 3)
abbrev hs1_3 (t : Fin cfg1.N) : (ms1_3 t).IsWhole := hstage1_3 ((cfg1.slots t 3).cast nbuf1_3)
/-- The scratch accumulator: a whole scoped buffer of the kernel's own. -/
abbrev scM1_0 : Memref sig .tc .vmem S1024x2048 .f32 := Memref.whole cc1_scratch0

/-! ## The accumulator after each point -/

/-- The accumulator after the body at position `n`: the block's product added to zero at the first feature block of
    a column block, to what the point before left elsewhere. -/
def acc1 (c : Dev nD) : (n : ℕ) → n < cfg1.N → Vec F S1024x2048 .f32
  | 0, hn => k1_pay2 (iblk1 V c 0 ⟨0, hn⟩) (iblk1 V c 1 ⟨0, hn⟩) k1_pay1
  | n + 1, hn => k1_pay2 (iblk1 V c 0 ⟨n + 1, hn⟩) (iblk1 V c 1 ⟨n + 1, hn⟩)
      (if (n + 1) % 64 = 0 then k1_pay1 else acc1 c n (Nat.lt_of_succ_lt hn))

/-- At a first feature block: the block's product added to zero. -/
theorem acc1_first (c : Dev nD) (t : Fin cfg1.N) (h : t.val % 64 = 0) :
    acc1 V c t.val t.isLt = k1_pay2 (iblk1 V c 0 t) (iblk1 V c 1 t) k1_pay1 := by
  obtain ⟨n, hn⟩ := t
  cases n with
  | zero => rfl
  | succ n => exact congrArg (k1_pay2 _ _) (if_pos h)

/-- Elsewhere: the block's product added to what the point before left. -/
theorem acc1_next (c : Dev nD) (t : Fin cfg1.N) (h : ¬t.val % 64 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h
  | succ n => exact congrArg (k1_pay2 _ _) (if_neg h)

/-! ## The invariant between points -/

/-- The class invariant with the accumulator split off the scoped rest. -/
theorem PhiA1_eq (c : Dev nD) :
    (Pipeline.ΦA spec1 c : sProp 𝕄)
      = iprop(iprop((∃ d, owns (c : Thread nD τ) scM1_0 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [bigSepL_singleton, scM1_0, owns_whole]
  try rfl

/-- Before position `n`: the class invariant before the first point; afterwards the accumulator at what the point
    before left, the other scoped buffers at anything, the generator register at some state. -/
def Phi1 (c : Dev nD) : (n : ℕ) → n ≤ cfg1.N → sProp 𝕄
  | 0, _ => Pipeline.ΦA spec1 c
  | n + 1, hn => iprop(iprop(owns (c : Thread nD τ) scM1_0 fullShare (acc1 V c n hn)
      ∗ Pipeline.scopedRestBut (Ix := Unit) (Name := ℕ) (U := UR sig nD τ) (Lvl := ℕ) (Val := Elt F) spec1 c [cc1_scratch0]) ∗ (∃ r, prngReg c r))

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop(iprop(owns (c : Thread nD τ) scM1_0 fullShare (acc1 V c n hn)
      ∗ Pipeline.scopedRestBut (Ix := Unit) (Name := ℕ) (U := UR sig nD τ) (Lvl := ℕ) (Val := Elt F) spec1 c [cc1_scratch0]) ∗ (∃ r, prngReg c r)) := rfl
theorem Phi1_pos (c : Dev nD) (n : ℕ) (h : n ≤ cfg1.N) (hz : n ≠ 0) :
    Phi1 V c n h = iprop(iprop(owns (c : Thread nD τ) scM1_0 fullShare (acc1 V c (n - 1) (by omega))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- Region 1's proof data on core `c`: the arrays as the region finds them; after the body each input's buffer at
    its block and the output's at the point's accumulator plus the bias row (consulted at the last feature block
    only); the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 2 t)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Phi1_castSucc (c : Dev nD) (t : Fin cfg1.N) :
    (dat1 V c).Φ t.castSucc = Phi1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (acc1 V c t.val t.isLt) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from rfl, after1_0]
  rw [show (dat1 V c).leavesExact 1 t = owns (c : Thread nD τ) (ms1_1 t) fullShare ((dat1 V c).after 1 t) from rfl, after1_1]
  rw [show (dat1 V c).leavesExact 2 t = owns (c : Thread nD τ) (ms1_2 t) fullShare ((dat1 V c).after 2 t) from rfl, after1_2]
  have hN : t.val < 128 := lt_of_lt_of_eq t.isLt (show cfg1.N = 128 from N_1)
  by_cases h0 : t.val % 64 = 0
  · have h1 : ¬t.val % 64 = 63 := by omega
    rw [Dat.leavesExact_idle (dat1 V c) 3 t (idleAt1_3 t h1) (noFlush1_3 t h1)]
    rw [acc1_first V c t h0]
    by_cases hz : t.val = 0
    · rw [Phi1_castSucc V c t, Phi1_zero V c _ _ hz, PhiA1_eq]
      iintro ⟨⟨⟨HS0, HR⟩, Hg⟩, Ho, ⟨%d0, H0⟩, ⟨%d1, H1⟩, ⟨%d2, H2⟩, ⟨%d3, H3⟩⟩
      iapply (run1_first c (grid1.coords t) _ _ _ _ _ _ _ _ _ _ ((hcond1_0 t).mpr h0) (fun h => h1 ((hcond1_1 t).mp h)) (iblk1 V c 0 t) (iblk1 V c 1 t) (iblk1 V c 2 t) _ Set.univ _)
      isplitl [H0]; · iexact H0
      isplitl [H1]; · iexact H1
      isplitl [H2]; · iexact H2
      isplitl [H3]; · iexact H3
      isplitl [HS0]; · iexact HS0
      iintro ⟨H0, H1, H2, H3, HS0⟩
      isplitl [HS0 HR Hg]
      · isplitr [Hg]
        · isplitl [HS0]; · iexact HS0
          iexact HR
        iexact Hg
      isplitl [Ho]; · iexact Ho
      isplitl [H0]; · iexact H0
      isplitl [H1]; · iexact H1
      isplitl [H2]; · iexact H2
      iexists _; iexact H3
    · rw [Phi1_castSucc V c t, Phi1_pos V c _ _ hz]
      iintro ⟨⟨⟨HS0, HR⟩, Hg⟩, Ho, ⟨%d0, H0⟩, ⟨%d1, H1⟩, ⟨%d2, H2⟩, ⟨%d3, H3⟩⟩
      iapply (run1_first c (grid1.coords t) _ _ _ _ _ _ _ _ _ _ ((hcond1_0 t).mpr h0) (fun h => h1 ((hcond1_1 t).mp h)) (iblk1 V c 0 t) (iblk1 V c 1 t) (iblk1 V c 2 t) _ Set.univ _)
      isplitl [H0]; · iexact H0
      isplitl [H1]; · iexact H1
      isplitl [H2]; · iexact H2
      isplitl [H3]; · iexact H3
      isplitl [HS0]; · iexists _; iexact HS0
      iintro ⟨H0, H1, H2, H3, HS0⟩
      isplitl [HS0 HR Hg]
      · isplitr [Hg]
        · isplitl [HS0]; · iexact HS0
          iexact HR
        iexact Hg
      isplitl [Ho]; · iexact Ho
      isplitl [H0]; · iexact H0
      isplitl [H1]; · iexact H1
      isplitl [H2]; · iexact H2
      iexists _; iexact H3
  · have hz : t.val ≠ 0 := fun h => h0 (by rw [h])
    rw [acc1_next V c t h0]
    rw [Phi1_castSucc V c t, Phi1_pos V c _ _ hz]
    by_cases h1 : t.val % 64 = 63
    · rw [show (dat1 V c).leavesExact 3 t = owns (c : Thread nD τ) (ms1_3 t) fullShare ((dat1 V c).after 3 t) from by
        unfold Dat.leavesExact; rw [liveAt1_3 t h1], after1_3, acc1_next V c t h0]
      iintro ⟨⟨⟨HS0, HR⟩, Hg⟩, Ho, ⟨%d0, H0⟩, ⟨%d1, H1⟩, ⟨%d2, H2⟩, ⟨%d3, H3⟩⟩
      iapply (run1_last c (grid1.coords t) _ _ _ _ _ _ _ _ _ _ (fun h => h0 ((hcond1_0 t).mp h)) ((hcond1_1 t).mpr h1) (iblk1 V c 0 t) (iblk1 V c 1 t) (iblk1 V c 2 t) _ Set.univ _)
      isplitl [H0]; · iexact H0
      isplitl [H1]; · iexact H1
      isplitl [H2]; · iexact H2
      isplitl [H3]; · iexists _; iexact H3
      isplitl [HS0]; · iexact HS0
      iintro ⟨H0, H1, H2, H3, HS0⟩
      isplitl [HS0 HR Hg]
      · isplitr [Hg]
        · isplitl [HS0]; · iexact HS0
          iexact HR
        iexact Hg
      isplitl [Ho]; · iexact Ho
      isplitl [H0]; · iexact H0
      isplitl [H1]; · iexact H1
      isplitl [H2]; · iexact H2
      iexact H3
    · rw [Dat.leavesExact_idle (dat1 V c) 3 t (idleAt1_3 t h1) (noFlush1_3 t h1)]
      iintro ⟨⟨⟨HS0, HR⟩, Hg⟩, Ho, ⟨%d0, H0⟩, ⟨%d1, H1⟩, ⟨%d2, H2⟩, ⟨%d3, H3⟩⟩
      iapply (run1_mid c (grid1.coords t) _ _ _ _ _ _ _ _ _ _ (fun h => h0 ((hcond1_0 t).mp h)) (fun h => h1 ((hcond1_1 t).mp h)) (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS0]; · iexact HS0
      iintro ⟨H0, H1, H2, H3, HS0⟩
      isplitl [HS0 HR Hg]
      · isplitr [Hg]
        · isplitl [HS0]; · iexact HS0
          iexact HR
        iexact Hg
      isplitl [Ho]; · iexact Ho
      isplitl [H0]; · iexact H0
      isplitl [H1]; · iexact H1
      isplitl [H2]; · iexact H2
      iexists _; iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After the last point the invariant gives the class invariant back: the accumulator's contents are forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 128 := N_1; omega), PhiA1_eq]
  iintro ⟨⟨HS0, HR⟩, Hg⟩
  isplitr [Hg]
  · isplitl [HS0]; · iexists _; iexact HS0
    iexact HR
  iexact Hg

end Cert.Kernel.Hand

end
-- ==== Proof.K_Body2.lean ====
/-
  Region 2, the kernel of the interaction network, run once at a grid point on whole staging buffers. It has one
  situation only: it loads its six input blocks — a row block of the interaction vector, the two weight matrices,
  the two bias rows, the row block of the linear term —, stores the network's output for the row block into one
  output block and the linear term plus that output into the other, and keeps nothing between points.
-/
import proofs.«165164_j35055523070100_1_alg».proof.Proof.Gen.Kernel.Launch
import proofs.«165164_j35055523070100_1_alg».proof.Proof.Gen.Kernel.Skeleton
import proofs.«165164_j35055523070100_1_alg».proof.Proof.Gen.Kernel.Points
import proofs.«165164_j35055523070100_1_alg».proof.Proof.LibWhole2
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Whole2

variable {F : FTy → Type} [FloatOps F]

local notation "𝕄" => MT nD τ sig Unit (Elt F) ℕ (UR sig nD τ) ℕ

set_option maxHeartbeats 1000000 in
/-- The body on whole staging buffers, the inputs' at contents `x0 … x5` and the outputs' at anything, leaves the
    inputs' as they were, the network's output for the row block in the last buffer and its sum with the linear
    term in the one before it. -/
theorem run2 (c : Dev nD) (i : grid2.Coords) (arg1 : Memref sig .tc .vmem S128x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S4096x256 .f32) (harg4 : arg4.IsWhole) (arg5 : Memref sig .tc .vmem S1x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole)
    (x0 : Vec F S128x256 .f32) (x1 : Vec F S256x256 .f32) (x2 : Vec F S1x256 .f32) (x3 : Vec F S4096x256 .f32) (x4 : Vec F S1x4096 .f32) (x5 : Vec F S128x4096 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (k2_pay2 x0 x1 x2 x3 x4 x5) ∗ owns (c : Thread nD τ) arg8 fullShare (k2_pay1 x0 x1 x2 x3 x4)) -∗ K ⟨⟩))
      ⊢ wp frame (wpE (defs₀ (F := F)) Variants.none c none) E (cc2__mlp_kernel i arg1 harg1 arg2 harg2 arg3 harg3 arg4 harg4 arg5 harg5 arg6 harg6 arg7 harg7 arg8 harg8) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  sl_exec
  sl_step
  iapply Hk
  sl_unfold_words
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    rw [read_head2]
    exact congr (congr (congr (congr (congr (congrArg k2_pay2 ((readAt2 _ _ _).trans (harg1.read_unread _))) ((readAt2 _ _ _).trans (harg2.read_unread _))) ((readAt2 _ _ _).trans (harg3.read_unread _))) ((readAt2 _ _ _).trans (harg4.read_unread _))) ((readAt2 _ _ _).trans (harg5.read_unread _))) ((readAt2 _ _ _).trans (harg6.read_unread _))
  · iexists _; isplitr
    swap; · iexact H7
    ipureintro
    rw [read_head2]
    exact congr (congr (congr (congr (congrArg k2_pay1 ((readAt2 _ _ _).trans (harg1.read_unread _))) ((readAt2 _ _ _).trans (harg2.read_unread _))) ((readAt2 _ _ _).trans (harg3.read_unread _))) ((readAt2 _ _ _).trans (harg4.read_unread _))) ((readAt2 _ _ _).trans (harg5.read_unread _))

end Cert.Kernel.Hand

end
-- ==== Proof.K_Dat2.lean ====
/-
  Region 2's proof data at a parameter `V`, the buffer contents when the region is entered, and its body
  obligation. The grid is 8 row blocks of 128 rows. At every point the body reads its six input blocks and stores
  both output blocks whole, so after the body each input's buffer holds its block and the two outputs' hold the
  interaction network's output for the row block, and its sum with the linear term; nothing is carried between
  points, and the region's invariant is the class's: the core's other scoped buffers at anything, the generator
  register at some state.
-/
import proofs.«165164_j35055523070100_1_alg».proof.Proof.Gen.Kernel.Launch
import proofs.«165164_j35055523070100_1_alg».proof.Proof.Gen.Kernel.Skeleton
import proofs.«165164_j35055523070100_1_alg».proof.Proof.Gen.Kernel.Points
import proofs.«165164_j35055523070100_1_alg».proof.Proof.LibWhole2
import proofs.«165164_j35055523070100_1_alg».proof.Proof.K_Body2
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Whole2

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The staging memrefs at a point -/

abbrev ms2_0 (t : Fin cfg2.N) : Memref sig .tc .vmem S128x256 .f32 := win2_0.stage (cfg2.slots t 0)
abbrev ms2_1 (t : Fin cfg2.N) : Memref sig .tc .vmem S256x256 .f32 := win2_1.stage (cfg2.slots t 1)
abbrev ms2_2 (t : Fin cfg2.N) : Memref sig .tc .vmem S1x256 .f32 := win2_2.stage (cfg2.slots t 2)
abbrev ms2_3 (t : Fin cfg2.N) : Memref sig .tc .vmem S4096x256 .f32 := win2_3.stage (cfg2.slots t 3)
abbrev ms2_4 (t : Fin cfg2.N) : Memref sig .tc .vmem S1x4096 .f32 := win2_4.stage (cfg2.slots t 4)
abbrev ms2_5 (t : Fin cfg2.N) : Memref sig .tc .vmem S128x4096 .f32 := win2_5.stage (cfg2.slots t 5)
abbrev ms2_6 (t : Fin cfg2.N) : Memref sig .tc .vmem S128x4096 .f32 := win2_6.stage (cfg2.slots t 6)
abbrev ms2_7 (t : Fin cfg2.N) : Memref sig .tc .vmem S128x4096 .f32 := win2_7.stage (cfg2.slots t 7)

/-! ## The proof data -/

/-- The network's output for row block `t`, from the point's input blocks. -/
def interBlk (c : Dev nD) (t : Fin cfg2.N) : Vec F S128x4096 .f32 :=
  k2_pay1 (iblk2 V c 0 t) (iblk2 V c 1 t) (iblk2 V c 2 t) (iblk2 V c 3 t) (iblk2 V c 4 t)
/-- Its sum with the linear term's row block. -/
def totalBlk (c : Dev nD) (t : Fin cfg2.N) : Vec F S128x4096 .f32 :=
  k2_pay2 (iblk2 V c 0 t) (iblk2 V c 1 t) (iblk2 V c 2 t) (iblk2 V c 3 t) (iblk2 V c 4 t) (iblk2 V c 5 t)

/-- Region 2's proof data on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => totalBlk V c t
    | ⟨7, _⟩ => interBlk V c t
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = totalBlk V c t := by dsimp only [dat2]
theorem after2_7 (c : Dev nD) (t : Fin cfg2.N) : (dat2 V c).after 7 t = interBlk V c t := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t))

set_option maxHeartbeats 4000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  unfold totalBlk interBlk
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run2 c (grid2.coords t) _ _ _ _ _ _ _ _ _ _ _ _ _ _ _ _ (iblk2 V c 0 t) (iblk2 V c 1 t) (iblk2 V c 2 t) (iblk2 V c 3 t) (iblk2 V c 4 t) (iblk2 V c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K_Segs.lean ====
/-
  The whole run of @main: region 0, one host reshape, region 1, two host reshapes, region 2. The buffer contents at
  each boundary are a fold from the launch memory: a host stretch leaves its operations' results, a region leaves
  its arrays at what its write-backs fold to and every other buffer as it found it. Each region is entered from
  "every unscoped buffer at the boundary's contents, the generator register at some state, nothing owed" and left
  at the same with the next contents, so the regions and the host stretches chain, and every execution ends with
  every unscoped buffer at the last contents `W5`. Read there: no item writes an argument, so each argument ends as
  launched; the three results are what regions 1 and 2 left.
-/
import proofs.«165164_j35055523070100_1_alg».proof.Proof.Gen.Kernel.Launch
import proofs.«165164_j35055523070100_1_alg».proof.Proof.Gen.Kernel.Skeleton
import proofs.«165164_j35055523070100_1_alg».proof.Proof.Gen.Kernel.Points
import proofs.«165164_j35055523070100_1_alg».proof.Proof.Gen.Kernel.Regions
import proofs.«165164_j35055523070100_1_alg».proof.Proof.K_Dat0
import proofs.«165164_j35055523070100_1_alg».proof.Proof.K_Dat1
import proofs.«165164_j35055523070100_1_alg».proof.Proof.K_Dat2
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Whole2

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (region 0's entry: no host operation comes before it). -/
abbrev W0 : Dev nD → Valuation τ sig (Elt F) := fun c b => m ((c : Dev nD), b)
/-- The same read at the TensorCore's references. -/
abbrev VV0 : (c : Dev nD) → (b : Ref sig .tc) → Buf (Elt F) ((c : Thread nD τ).loc b) := fun c b => W0 m c b

/-- At region 0's exit: its arrays at what the pipeline leaves (the inputs as entered, each output's write-backs
    folded), every other buffer as entered. -/
def W1 (c : Dev nD) : Valuation τ sig (Elt F) :=
  Pipeline.withArrays spec0 c (W0 m c) fun w => (dat0 (VV0 m) c).arrAt w cfg0.N
theorem W1_arr (c : Dev nD) (w : Fin cfg0.W) :
    W1 m c (Proc.devRef .tc (Pipeline.arrRef spec0 w)) = (dat0 (VV0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references. -/
abbrev VV1 : (c : Dev nD) → (b : Ref sig .tc) → Buf (Elt F) ((c : Thread nD τ).loc b) := fun c b => W1 m c b
theorem hF0 (c : Dev nD) (w : Fin cfg0.W) : (dat0 (VV0 m) c).arrAt w cfg0.N = VV1 m c (Pipeline.arrRef spec0 w) :=
  (W1_arr m c w).symm
theorem hrest0 (c : Dev nD) : ∀ b, b ∉ Finset.univ.image (Pipeline.arrRef spec0) → VV1 m c b = VV0 m c b :=
  fun b hb => W1_of_ne m c b fun w e => hb (Finset.mem_image.mpr ⟨w, Finset.mem_univ _, e⟩)
/-- A buffer that is no output of region 0 leaves it as it entered: an input window's array by the library's
    fold over the write-backs, any other buffer because the region does not touch it. -/
theorem W1_keep (c : Dev nD) (b : Ref sig .tc) (hb : ∀ w, Pipeline.arrRef spec0 w = b → (cfg0.win w).isOut = false) :
    W1 m c (Proc.devRef .tc b) = W0 m c (Proc.devRef .tc b) := by
  by_cases h : ∃ w, Pipeline.arrRef spec0 w = b
  · obtain ⟨w, rfl⟩ := h
    exact (W1_arr m c w).trans (((dat0 (VV0 m) c).arrAt_in w (hb w rfl) _).trans (A_eq0 (VV0 m) c w))
  · exact W1_of_ne m c b (fun w e => h ⟨w, e⟩)

/-- After the first host stretch (region 1's entry). -/
abbrev W2 : Dev nD → Valuation τ sig (Elt F) := fun c => StableHlo.after hostOps1 (W1 m c)
abbrev VV2 : (c : Dev nD) → (b : Ref sig .tc) → Buf (Elt F) ((c : Thread nD τ).loc b) := fun c b => W2 m c b
/-- The first host stretch writes `main_v1` only. -/
theorem W2_host (c : Dev nD) (r : Ref sig .tc) (h : r ∉ hostOps1_W) : W2 m c (Proc.devRef .tc r) = W1 m c (Proc.devRef .tc r) :=
  StableHlo.after_of_writes_sub hostOps1 _ hostOps1_writes h

/-- At region 1's exit: its arrays at what the pipeline leaves (the inputs as entered, each output's write-backs
    folded), every other buffer as entered. -/
def W3 (c : Dev nD) : Valuation τ sig (Elt F) :=
  Pipeline.withArrays spec1 c (W2 m c) fun w => (dat1 (VV2 m) c).arrAt w cfg1.N
theorem W3_arr (c : Dev nD) (w : Fin cfg1.W) :
    W3 m c (Proc.devRef .tc (Pipeline.arrRef spec1 w)) = (dat1 (VV2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references. -/
abbrev VV3 : (c : Dev nD) → (b : Ref sig .tc) → Buf (Elt F) ((c : Thread nD τ).loc b) := fun c b => W3 m c b
theorem hF1 (c : Dev nD) (w : Fin cfg1.W) : (dat1 (VV2 m) c).arrAt w cfg1.N = VV3 m c (Pipeline.arrRef spec1 w) :=
  (W3_arr m c w).symm
theorem hrest1 (c : Dev nD) : ∀ b, b ∉ Finset.univ.image (Pipeline.arrRef spec1) → VV3 m c b = VV2 m c b :=
  fun b hb => W3_of_ne m c b fun w e => hb (Finset.mem_image.mpr ⟨w, Finset.mem_univ _, e⟩)
/-- A buffer that is no output of region 1 leaves it as it entered: an input window's array by the library's
    fold over the write-backs, any other buffer because the region does not touch it. -/
theorem W3_keep (c : Dev nD) (b : Ref sig .tc) (hb : ∀ w, Pipeline.arrRef spec1 w = b → (cfg1.win w).isOut = false) :
    W3 m c (Proc.devRef .tc b) = W2 m c (Proc.devRef .tc b) := by
  by_cases h : ∃ w, Pipeline.arrRef spec1 w = b
  · obtain ⟨w, rfl⟩ := h
    exact (W3_arr m c w).trans (((dat1 (VV2 m) c).arrAt_in w (hb w rfl) _).trans (A_eq1 (VV2 m) c w))
  · exact W3_of_ne m c b (fun w e => h ⟨w, e⟩)

/-- After the second host stretch (region 2's entry). -/
abbrev W4 : Dev nD → Valuation τ sig (Elt F) := fun c => StableHlo.after hostOps2 (W3 m c)
abbrev VV4 : (c : Dev nD) → (b : Ref sig .tc) → Buf (Elt F) ((c : Thread nD τ).loc b) := fun c b => W4 m c b
/-- The second host stretch writes `main_v3` and `main_v4` only. -/
theorem W4_host (c : Dev nD) (r : Ref sig .tc) (h : r ∉ hostOps2_W) : W4 m c (Proc.devRef .tc r) = W3 m c (Proc.devRef .tc r) :=
  StableHlo.after_of_writes_sub hostOps2 _ hostOps2_writes h

/-- At region 2's exit: its arrays at what the pipeline leaves (the inputs as entered, each output's write-backs
    folded), every other buffer as entered. -/
def W5 (c : Dev nD) : Valuation τ sig (Elt F) :=
  Pipeline.withArrays spec2 c (W4 m c) fun w => (dat2 (VV4 m) c).arrAt w cfg2.N
theorem W5_arr (c : Dev nD) (w : Fin cfg2.W) :
    W5 m c (Proc.devRef .tc (Pipeline.arrRef spec2 w)) = (dat2 (VV4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
/-- The same read at the TensorCore's references. -/
abbrev VV5 : (c : Dev nD) → (b : Ref sig .tc) → Buf (Elt F) ((c : Thread nD τ).loc b) := fun c b => W5 m c b
theorem hF2 (c : Dev nD) (w : Fin cfg2.W) : (dat2 (VV4 m) c).arrAt w cfg2.N = VV5 m c (Pipeline.arrRef spec2 w) :=
  (W5_arr m c w).symm
theorem hrest2 (c : Dev nD) : ∀ b, b ∉ Finset.univ.image (Pipeline.arrRef spec2) → VV5 m c b = VV4 m c b :=
  fun b hb => W5_of_ne m c b fun w e => hb (Finset.mem_image.mpr ⟨w, Finset.mem_univ _, e⟩)
/-- A buffer that is no output of region 2 leaves it as it entered: an input window's array by the library's
    fold over the write-backs, any other buffer because the region does not touch it. -/
theorem W5_keep (c : Dev nD) (b : Ref sig .tc) (hb : ∀ w, Pipeline.arrRef spec2 w = b → (cfg2.win w).isOut = false) :
    W5 m c (Proc.devRef .tc b) = W4 m c (Proc.devRef .tc b) := by
  by_cases h : ∃ w, Pipeline.arrRef spec2 w = b
  · obtain ⟨w, rfl⟩ := h
    exact (W5_arr m c w).trans (((dat2 (VV4 m) c).arrAt_in w (hb w rfl) _).trans (A_eq2 (VV4 m) c w))
  · exact W5_of_ne m c b (fun w e => h ⟨w, e⟩)

/-! ## No item writes an argument -/

theorem W5_main_arg0 (c : Dev nD) : W5 m c (Proc.devRef .tc main_arg0) = m ((c : Thread nD τ).loc main_arg0) :=
  (W5_keep m c main_arg0 (by decide)).trans <| (W4_host m c main_arg0 (by decide)).trans <| (W3_keep m c main_arg0 (by decide)).trans <|
    (W2_host m c main_arg0 (by decide)).trans <| (W1_keep m c main_arg0 (by decide)).trans rfl
theorem W5_main_arg1 (c : Dev nD) : W5 m c (Proc.devRef .tc main_arg1) = m ((c : Thread nD τ).loc main_arg1) :=
  (W5_keep m c main_arg1 (by decide)).trans <| (W4_host m c main_arg1 (by decide)).trans <| (W3_keep m c main_arg1 (by decide)).trans <|
    (W2_host m c main_arg1 (by decide)).trans <| (W1_keep m c main_arg1 (by decide)).trans rfl
theorem W5_main_arg2 (c : Dev nD) : W5 m c (Proc.devRef .tc main_arg2) = m ((c : Thread nD τ).loc main_arg2) :=
  (W5_keep m c main_arg2 (by decide)).trans <| (W4_host m c main_arg2 (by decide)).trans <| (W3_keep m c main_arg2 (by decide)).trans <|
    (W2_host m c main_arg2 (by decide)).trans <| (W1_keep m c main_arg2 (by decide)).trans rfl
theorem W5_main_arg3 (c : Dev nD) : W5 m c (Proc.devRef .tc main_arg3) = m ((c : Thread nD τ).loc main_arg3) :=
  (W5_keep m c main_arg3 (by decide)).trans <| (W4_host m c main_arg3 (by decide)).trans <| (W3_keep m c main_arg3 (by decide)).trans <|
    (W2_host m c main_arg3 (by decide)).trans <| (W1_keep m c main_arg3 (by decide)).trans rfl
theorem W5_main_arg4 (c : Dev nD) : W5 m c (Proc.devRef .tc main_arg4) = m ((c : Thread nD τ).loc main_arg4) :=
  (W5_keep m c main_arg4 (by decide)).trans <| (W4_host m c main_arg4 (by decide)).trans <| (W3_keep m c main_arg4 (by decide)).trans <|
    (W2_host m c main_arg4 (by decide)).trans <| (W1_keep m c main_arg4 (by decide)).trans rfl
theorem W5_main_arg5 (c : Dev nD) : W5 m c (Proc.devRef .tc main_arg5) = m ((c : Thread nD τ).loc main_arg5) :=
  (W5_keep m c main_arg5 (by decide)).trans <| (W4_host m c main_arg5 (by decide)).trans <| (W3_keep m c main_arg5 (by decide)).trans <|
    (W2_host m c main_arg5 (by decide)).trans <| (W1_keep m c main_arg5 (by decide)).trans rfl
theorem W5_main_arg6 (c : Dev nD) : W5 m c (Proc.devRef .tc main_arg6) = m ((c : Thread nD τ).loc main_arg6) :=
  (W5_keep m c main_arg6 (by decide)).trans <| (W4_host m c main_arg6 (by decide)).trans <| (W3_keep m c main_arg6 (by decide)).trans <|
    (W2_host m c main_arg6 (by decide)).trans <| (W1_keep m c main_arg6 (by decide)).trans rfl
theorem W5_main_arg7 (c : Dev nD) : W5 m c (Proc.devRef .tc main_arg7) = m ((c : Thread nD τ).loc main_arg7) :=
  (W5_keep m c main_arg7 (by decide)).trans <| (W4_host m c main_arg7 (by decide)).trans <| (W3_keep m c main_arg7 (by decide)).trans <|
    (W2_host m c main_arg7 (by decide)).trans <| (W1_keep m c main_arg7 (by decide)).trans rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (VV0 m) c
  | ⟨1, _⟩ => fun c => dat1 (VV2 m) c
  | ⟨2, _⟩ => fun c => dat2 (VV4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m c) ∗ ∃ r, prngReg c r)

theorem hin0' (c : Dev nD) : Pipeline.ΦA spec0 c ⊢ (pdats m 0 c).Φ 0 := hin0 (VV0 m) c
theorem hout0' (c : Dev nD) : (pdats m 0 c).Φ (Fin.last cfg0.N) ⊢ Pipeline.ΦA spec0 c := hout0 (VV0 m) c
theorem hin1' (c : Dev nD) : Pipeline.ΦA spec1 c ⊢ (pdats m 1 c).Φ 0 := hin1 (VV2 m) c
theorem hout1' (c : Dev nD) : (pdats m 1 c).Φ (Fin.last cfg1.N) ⊢ Pipeline.ΦA spec1 c := hout1 (VV2 m) c
theorem hin2' (c : Dev nD) : Pipeline.ΦA spec2 c ⊢ (pdats m 2 c).Φ 0 := .rfl
theorem hout2' (c : Dev nD) : (pdats m 2 c).Φ (Fin.last cfg2.N) ⊢ Pipeline.ΦA spec2 c := .rfl

/-! ## The regions as segments -/

-- a library lemma stated over the pinned configuration unifies with the printed one only when unification may unfold
-- plain definitions in a metavariable's type
set_option backward.isDefEq.respectTransparency.types false in
/-- Region 0 over the thread state: entered with every unscoped buffer at the contents before it, left with them at
    the contents after it. Its arrays are split out of the unscoped buffers and put back at what the write-backs
    leave; the generator register goes into the region's invariant and comes back; nothing is owed; the kernel has
    no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VV0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (VV0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VV0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0' m c)
    unfold Pipeline.ΦA
    iintro ⟨Hp, -, Hr⟩
    isplitl [Hr]; · iexact Hr
    iexact Hp
  hout c := by
    rw [Pipeline.ownSems0_none]
    refine BIBase.Entails.trans (hout0' m c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VV0 m c) (VV1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered with every unscoped buffer at the contents before it, left with them at
    the contents after it. Its arrays are split out of the unscoped buffers and put back at what the write-backs
    leave; the generator register goes into the region's invariant and comes back; nothing is owed; the kernel has
    no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VV2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (VV2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VV2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1' m c)
    unfold Pipeline.ΦA
    iintro ⟨Hp, -, Hr⟩
    isplitl [Hr]; · iexact Hr
    iexact Hp
  hout c := by
    rw [Pipeline.ownSems0_none]
    refine BIBase.Entails.trans (hout1' m c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VV2 m c) (VV3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered with every unscoped buffer at the contents before it, left with them at
    the contents after it. Its arrays are split out of the unscoped buffers and put back at what the write-backs
    leave; the generator register goes into the region's invariant and comes back; nothing is owed; the kernel has
    no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VV4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (VV4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (VV4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2' m c)
    unfold Pipeline.ΦA
    iintro ⟨Hp, -, Hr⟩
    isplitl [Hr]; · iexact Hr
    iexact Hp
  hout c := by
    rw [Pipeline.ownSems0_none]
    refine BIBase.Entails.trans (hout2' m c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (VV4 m c) (VV5 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 5 segments in order. -/
abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)),
    .region (reg2 m) ]
/-- @main is the run of the segments. -/
theorem main_run (c : Dev nD) : main (F := F) c = Pipeline.Seg.run (segs m) := (main_chain c).trans (by chain_rfl)

set_option backward.isDefEq.respectTransparency.types false in
/-- THE RUN. From any memory with zero counters every weakly fair execution of @main terminates, nothing faulting,
    and in every final state every unscoped buffer holds the last boundary's contents `W5`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)) :=
  (θ_run defs _ _).mono (fun _ h c => ⟨(h c _ (mem_uc main_arg0 (by decide))).trans (W5_main_arg0 m c),
    (h c _ (mem_uc main_arg1 (by decide))).trans (W5_main_arg1 m c),
    (h c _ (mem_uc main_arg2 (by decide))).trans (W5_main_arg2 m c),
    (h c _ (mem_uc main_arg3 (by decide))).trans (W5_main_arg3 m c),
    (h c _ (mem_uc main_arg4 (by decide))).trans (W5_main_arg4 m c),
    (h c _ (mem_uc main_arg5 (by decide))).trans (W5_main_arg5 m c),
    (h c _ (mem_uc main_arg6 (by decide))).trans (W5_main_arg6 m c),
    (h c _ (mem_uc main_arg7 (by decide))).trans (W5_main_arg7 m c)⟩) (run_all m ρ)

end Cert.Kernel.Hand

end
-- ==== Proof.KI_Body0.lean ====
/-
  Region 0, the interaction kernel, run once at a grid point (b, f) on whole staging buffers, in each of the three
  situations the grid meets. The body keeps two accumulators in scratch: the running sum over the feature blocks
  of x·e and of x²·e². At the first feature block (f = 0) it zeroes both and then adds the block's two products;
  at a later block it adds them to what the block before left; at the last block (f = 15) it moreover stores
  0.5·(S·S − Q) of the two finished sums S, Q into the output block. Each theorem says what the five buffers hold
  afterwards as the skeleton's payloads of what they held before; the output block is left untouched where the
  body does not store into it.
-/
import proofs.«165164_j35055523070100_1_alg».proof.Proof.Gen.KernelIdeal.Launch
import proofs.«165164_j35055523070100_1_alg».proof.Proof.Gen.KernelIdeal.Skeleton
import proofs.«165164_j35055523070100_1_alg».proof.Proof.Gen.KernelIdeal.Points
import proofs.«165164_j35055523070100_1_alg».proof.Proof.LibWhole2
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Whole2

variable {F : FTy → Type} [FloatOps F]

local notation "𝕄" => MT nD τ sig Unit (Elt F) ℕ (UR sig nD τ) ℕ

/-- "This is the first feature block": the condition of the body's first `scf.if`, from the grid coordinates. -/
abbrev cond0_0 (i : grid0.Coords) : Prop := (Scalar.cmpi .ne (Scalar.extui (Scalar.cmpi .eq (BitVec.ofNat 32 (i 1).val) 0#32)) 0#32) = 1#1
/-- "This is the last feature block": the condition of its second. -/
abbrev cond0_1 (i : grid0.Coords) : Prop := k0_cond2 i = 1#1

/-- One accumulation step: the two scratch accumulators after the body, from the point's input blocks and what the
    accumulators held when the two products were added. -/
def step0 (x : Vec F S512x1024 .f32) (e : Vec F S1024x256 .f32) (s : Vec F S512x256 .f32 × Vec F S512x256 .f32) :
    Vec F S512x256 .f32 × Vec F S512x256 .f32 :=
  (k0_pay3 x e s.1, k0_pay4 x e s.2)

/-- The accumulators as the reset leaves them: both zero. -/
def zero0 : Vec F S512x256 .f32 × Vec F S512x256 .f32 := (k0_pay1, k0_pay2)

set_option maxHeartbeats 1000000 in
/-- First feature block, not the last: both accumulators are reset and hold the block's products added to zero. -/
theorem run0_first (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole)
    (hc0 : cond0_0 i) (hc1 : ¬cond0_1 i)
    (x0 : Vec F S512x1024 .f32) (x1 : Vec F S1024x256 .f32) (xi2 : Vec F S512x256 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare xi2
            ∗ owns (c : Thread nD τ) arg5 fullShare (step0 x0 x1 (zero0 (F := F))).1 ∗ owns (c : Thread nD τ) arg6 fullShare (step0 x0 x1 (zero0 (F := F))).2) -∗ K ⟨⟩))
      ⊢ wp frame (wpE (defs₀ (F := F)) Variants.none c none) E (cc0__interaction_kernel i arg2 harg2 arg3 harg3 arg4 harg4 arg5 harg5 arg6 harg6) K := by
  simp only [cc0__interaction_kernel_eq_skeleton]; unfold cc0__interaction_kernel_skel
  unfold owns
  iintro ⟨⟨%f0, %hf0, H0⟩, ⟨%f1, %hf1, H1⟩, ⟨%f2, %hf2, H2⟩, ⟨%d5, %f5, -, H5⟩, ⟨%d6, %f6, -, H6⟩, Hk⟩
  obtain rfl := harg2.eq_unread hf0; obtain rfl := harg3.eq_unread hf1; obtain rfl := harg4.eq_unread hf2
  sl_exec (disch := first | exact hc0 | exact hc1)
  sl_step
  iapply Hk
  sl_unfold_words
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr
    swap; · iexact H5
    ipureintro
    rw [read_head2]
    exact congr (congr (congrArg k0_pay3 ((readAt2 _ _ _).trans (harg2.read_unread _))) ((readAt2 _ _ _).trans (harg3.read_unread _))) (readCov2 _ _ _)
  · iexists _; isplitr
    swap; · iexact H6
    ipureintro
    rw [read_head2]
    exact congr (congr (congrArg k0_pay4 ((readAt2 _ _ _).trans (harg2.read_unread _))) ((readAt2 _ _ _).trans (harg3.read_unread _))) (readCov2 _ _ _)

set_option maxHeartbeats 1000000 in
/-- A middle feature block: both accumulators grow by the block's products. -/
theorem run0_mid (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole)
    (hc0 : ¬cond0_0 i) (hc1 : ¬cond0_1 i)
    (x0 : Vec F S512x1024 .f32) (x1 : Vec F S1024x256 .f32) (xi2 : Vec F S512x256 .f32) (s : Vec F S512x256 .f32 × Vec F S512x256 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare s.1 ∗ owns (c : Thread nD τ) arg6 fullShare s.2
        ∗ (iprop(owns (c : Thread nD τ) arg2 fullShare x0 ∗ owns (c : Thread nD τ) arg3 fullShare x1 ∗ owns (c : Thread nD τ) arg4 fullShare xi2
            ∗ owns (c : Thread nD τ) arg5 fullShare (step0 x0 x1 s).1 ∗ owns (c : Thread nD τ) arg6 fullShare (step0 x0 x1 s).2) -∗ K ⟨⟩))
      ⊢ wp frame (wpE (defs₀ (F := F)) Variants.none c none) E (cc0__interaction_kernel i arg2 harg2 arg3 harg3 arg4 harg4 arg5 harg5 arg6 harg6) K := by
  simp only [cc0__interaction_kernel_eq_skeleton]; unfold cc0__interaction_kernel_skel
  unfold owns
  iintro ⟨⟨%f0, %hf0, H0⟩, ⟨%f1, %hf1, H1⟩, ⟨%f2, %hf2, H2⟩, ⟨%f5, %hf5, H5⟩, ⟨%f6, %hf6, H6⟩, Hk⟩
  obtain rfl := harg2.eq_unread hf0; obtain rfl := harg3.eq_unread hf1; obtain rfl := harg4.eq_unread hf2
  obtain rfl := harg5.eq_unread hf5; obtain rfl := harg6.eq_unread hf6
  sl_exec (disch := first | exact hc0 | exact hc1)
  sl_step
  iapply Hk
  sl_unfold_words
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr
    swap; · iexact H5
    ipureintro
    rw [read_head2]
    exact congr (congr (congrArg k0_pay3 ((readAt2 _ _ _).trans (harg2.read_unread _))) ((readAt2 _ _ _).trans (harg3.read_unread _))) ((readAt2 _ _ _).trans (harg5.read_unread _))
  · iexists _; isplitr
    swap; · iexact H6
    ipureintro
    rw [read_head2]
    exact congr (congr (congrArg k0_pay4 ((readAt2 _ _ _).trans (harg2.read_unread _))) ((readAt2 _ _ _).trans (harg3.read_unread _))) ((readAt2 _ _ _).trans (harg6.read_unread _))

set_option maxHeartbeats 1000000 in
/-- The last feature block: both accumulators grow by the block's products, and the output block takes
    0.5·(S·S − Q) of the two finished sums. -/
theorem run0_last (c : Dev nD) (i : grid0.Coords) (arg2 : Memref sig .tc .vmem S512x1024 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole)
    (hc0 : ¬cond0_0 i) (hc1 : cond0_1 i)
    (x0 : Vec F S512x1024 .f32) (x1 : Vec F S1024x256 .f32) (s : Vec F S512x256 .f32 × Vec F S512x256 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare s.1 ∗ owns (c : Thread nD τ) arg6 fullShare s.2
        ∗ (iprop(owns (c : Thread nD τ) arg2 fullShare x0 ∗ owns (c : Thread nD τ) arg3 fullShare x1 ∗ owns (c : Thread nD τ) arg4 fullShare (k0_pay5 (step0 x0 x1 s).1 (step0 x0 x1 s).2)
            ∗ owns (c : Thread nD τ) arg5 fullShare (step0 x0 x1 s).1 ∗ owns (c : Thread nD τ) arg6 fullShare (step0 x0 x1 s).2) -∗ K ⟨⟩))
      ⊢ wp frame (wpE (defs₀ (F := F)) Variants.none c none) E (cc0__interaction_kernel i arg2 harg2 arg3 harg3 arg4 harg4 arg5 harg5 arg6 harg6) K := by
  simp only [cc0__interaction_kernel_eq_skeleton]; unfold cc0__interaction_kernel_skel
  unfold owns
  iintro ⟨⟨%f0, %hf0, H0⟩, ⟨%f1, %hf1, H1⟩, ⟨%d2, %f2, -, H2⟩, ⟨%f5, %hf5, H5⟩, ⟨%f6, %hf6, H6⟩, Hk⟩
  obtain rfl := harg2.eq_unread hf0; obtain rfl := harg3.eq_unread hf1
  obtain rfl := harg5.eq_unread hf5; obtain rfl := harg6.eq_unread hf6
  sl_exec (disch := first | exact hc0 | exact hc1)
  sl_step
  iapply Hk
  sl_unfold_words
  have e5 : k0_pay3 (View.readAt (Elt F) arg2.view (Rect.unit ![0, 0] S512x1024.size inb_S512x1024_S512x1024_0_0).toLoadRect (harg2.unread x0))
      (View.readAt (Elt F) arg3.view (Rect.unit ![0, 0] S1024x256.size inb_S1024x256_S1024x256_0_0).toLoadRect (harg3.unread x1))
      (View.readAt (Elt F) arg5.view (Rect.unit ![0, 0] S512x256.size inb_S512x256_S512x256_0_0).toLoadRect (harg5.unread s.1)) = (step0 x0 x1 s).1 :=
    congr (congr (congrArg k0_pay3 ((readAt2 _ _ _).trans (harg2.read_unread _))) ((readAt2 _ _ _).trans (harg3.read_unread _))) ((readAt2 _ _ _).trans (harg5.read_unread _))
  have e6 : k0_pay4 (View.readAt (Elt F) arg2.view (Rect.unit ![0, 0] S512x1024.size inb_S512x1024_S512x1024_0_0).toLoadRect (harg2.unread x0))
      (View.readAt (Elt F) arg3.view (Rect.unit ![0, 0] S1024x256.size inb_S1024x256_S1024x256_0_0).toLoadRect (harg3.unread x1))
      (View.readAt (Elt F) arg6.view (Rect.unit ![0, 0] S512x256.size inb_S512x256_S512x256_0_0).toLoadRect (harg6.unread s.2)) = (step0 x0 x1 s).2 :=
    congr (congr (congrArg k0_pay4 ((readAt2 _ _ _).trans (harg2.read_unread _))) ((readAt2 _ _ _).trans (harg3.read_unread _))) ((readAt2 _ _ _).trans (harg6.read_unread _))
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    rw [read_head2]
    exact congr (congrArg k0_pay5 ((readCov2 _ _ _).trans e5)) ((readCov2 _ _ _).trans e6)
  isplitl [H5]
  · iexists _; isplitr
    swap; · iexact H5
    ipureintro
    rw [read_head2]
    exact e5
  · iexists _; isplitr
    swap; · iexact H6
    ipureintro
    rw [read_head2]
    exact e6

end Cert.KernelIdeal.Hand

end
-- ==== Proof.KI_Dat0.lean ====
/-
  Region 0's proof data at a parameter `V`, the buffer contents when the region is entered, and its body
  obligation. The grid is 2 row blocks × 16 feature blocks, point t = 16·b + f. After the body at point t the two
  scratch accumulators hold the sums, over the feature blocks 0 … f of row block b, of the blocks' products x·e and
  x²·e² (`acc0`: reset at f = 0, grown by one block's products at every point); the output block is stored only at
  f = 15, where it takes 0.5·(S·S − Q) of the finished sums, and is idle — neither stored nor written back — at
  every other point. The region's invariant between points is: the two accumulators at `acc0` of the point
  before, the core's other scoped buffers at anything, the generator register at some state.
-/
import proofs.«165164_j35055523070100_1_alg».proof.Proof.Gen.KernelIdeal.Launch
import proofs.«165164_j35055523070100_1_alg».proof.Proof.Gen.KernelIdeal.Skeleton
import proofs.«165164_j35055523070100_1_alg».proof.Proof.Gen.KernelIdeal.Points
import proofs.«165164_j35055523070100_1_alg».proof.Proof.LibWhole2
import proofs.«165164_j35055523070100_1_alg».proof.Proof.KI_Body0
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Whole2

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The conditions over the grid, and where the output is idle -/

/-- The first feature block is the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)
/-- The last feature block is the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)
/-- Away from the last feature block the output window is idle … -/
theorem idleAt0_2 : ∀ t : Fin cfg0.N, ¬t.val % 16 = 15 → cfg0.idle 2 (grid0.coords t) = true :=
  (by decide +kernel : ∀ t : Fin grid0.N, ¬t.val % 16 = 15 → cfg0.idle 2 (grid0.coords t) = true)
/-- … and not written back; -/
theorem noFlush0_2 (t : Fin cfg0.N) (h : ¬t.val % 16 = 15) : (cfg0.win 2).flush t = false := by
  cases hf : (cfg0.win 2).flush t
  · rfl
  · exact absurd ((flush0_2 t).mp hf) h
/-- at the last feature block it is live. -/
theorem liveAt0_2 : ∀ t : Fin cfg0.N, t.val % 16 = 15 → cfg0.idle 2 (grid0.coords t) = false :=
  (by decide +kernel : ∀ t : Fin grid0.N, t.val % 16 = 15 → cfg0.idle 2 (grid0.coords t) = false)

/-! ## The staging and scratch memrefs at a point -/

abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x256 .f32 := win0_2.stage (cfg0.slots t 2)
abbrev hs0_2 (t : Fin cfg0.N) : (ms0_2 t).IsWhole := hstage0_2 ((cfg0.slots t 2).cast nbuf0_2)
/-- The two scratch accumulators: whole scoped buffers of the kernel's own. -/
abbrev scM0_0 : Memref sig .tc .vmem S512x256 .f32 := Memref.whole cc0_scratch0
abbrev scM0_1 : Memref sig .tc .vmem S512x256 .f32 := Memref.whole cc0_scratch1

/-! ## The accumulators after each point -/

/-- The two accumulators after the body at position `n`: one step over zero at the first feature block of a row
    block, one step over what the point before left elsewhere. -/
def acc0 (c : Dev nD) : (n : ℕ) → n < cfg0.N → Vec F S512x256 .f32 × Vec F S512x256 .f32
  | 0, hn => step0 (iblk0 V c 0 ⟨0, hn⟩) (iblk0 V c 1 ⟨0, hn⟩) zero0
  | n + 1, hn => step0 (iblk0 V c 0 ⟨n + 1, hn⟩) (iblk0 V c 1 ⟨n + 1, hn⟩)
      (if (n + 1) % 16 = 0 then zero0 else acc0 c n (Nat.lt_of_succ_lt hn))

/-- At a first feature block: one step over zero. -/
theorem acc0_first (c : Dev nD) (t : Fin cfg0.N) (h : t.val % 16 = 0) :
    acc0 V c t.val t.isLt = step0 (iblk0 V c 0 t) (iblk0 V c 1 t) zero0 := by
  obtain ⟨n, hn⟩ := t
  cases n with
  | zero => rfl
  | succ n => exact congrArg (step0 _ _) (if_pos h)

/-- Elsewhere: one step over what the point before left. -/
theorem acc0_next (c : Dev nD) (t : Fin cfg0.N) (h : ¬t.val % 16 = 0) :
    acc0 V c t.val t.isLt = step0 (iblk0 V c 0 t) (iblk0 V c 1 t) (acc0 V c (t.val - 1) (Nat.lt_of_le_of_lt (Nat.sub_le _ _) t.isLt)) := by
  obtain ⟨n, hn⟩ := t
  cases n with
  | zero => exact absurd (Nat.zero_mod _) h
  | succ n => exact congrArg (step0 _ _) (if_neg h)

/-! ## The invariant between points -/

/-- The class invariant with the two accumulators split off the scoped rest. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA
  rw [Pipeline.scopedRest_split_of_list spec0 c [cc0_scratch0, cc0_scratch1] (by decide) (by decide)]
  simp only [bigSepL_cons_cons, bigSepL_singleton, scM0_0, scM0_1, owns_whole]
  try rfl

/-- Before position `n`: the class invariant before the first point; afterwards the two accumulators at what the
    point before left, the other scoped buffers at anything, the generator register at some state. -/
def Phi0 (c : Dev nD) : (n : ℕ) → n ≤ cfg0.N → sProp 𝕄
  | 0, _ => Pipeline.ΦA spec0 c
  | n + 1, hn => iprop(iprop(iprop(owns (c : Thread nD τ) scM0_0 fullShare (acc0 V c n hn).1 ∗ owns (c : Thread nD τ) scM0_1 fullShare (acc0 V c n hn).2)
      ∗ Pipeline.scopedRestBut (Ix := Unit) (Name := ℕ) (U := UR sig nD τ) (Lvl := ℕ) (Val := Elt F) spec0 c [cc0_scratch0, cc0_scratch1]) ∗ (∃ r, prngReg c r))

theorem Phi0_zero (c : Dev nD) (n : ℕ) (h : n ≤ cfg0.N) (hz : n = 0) : Phi0 V c n h = Pipeline.ΦA spec0 c := by
  subst hz; rfl
theorem Phi0_succ (c : Dev nD) (n : ℕ) (hn : n < cfg0.N) :
    Phi0 V c (n + 1) hn = iprop(iprop(iprop(owns (c : Thread nD τ) scM0_0 fullShare (acc0 V c n hn).1 ∗ owns (c : Thread nD τ) scM0_1 fullShare (acc0 V c n hn).2)
      ∗ Pipeline.scopedRestBut (Ix := Unit) (Name := ℕ) (U := UR sig nD τ) (Lvl := ℕ) (Val := Elt F) spec0 c [cc0_scratch0, cc0_scratch1]) ∗ (∃ r, prngReg c r)) := rfl
theorem Phi0_pos (c : Dev nD) (n : ℕ) (h : n ≤ cfg0.N) (hz : n ≠ 0) :
    Phi0 V c n h = iprop(iprop(iprop(owns (c : Thread nD τ) scM0_0 fullShare (acc0 V c (n - 1) (by omega)).1 ∗ owns (c : Thread nD τ) scM0_1 fullShare (acc0 V c (n - 1) (by omega)).2)
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## The proof data -/

/-- Region 0's proof data on core `c`: the arrays as the region finds them; after the body each input's buffer at
    its block and the output's at 0.5·(S·S − Q) of the point's accumulators (consulted at the last feature block
    only); the invariant `Phi0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay5 (acc0 V c t.val t.isLt).1 (acc0 V c t.val t.isLt).2
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem Phi0_castSucc (c : Dev nD) (t : Fin cfg0.N) :
    (dat0 V c).Φ t.castSucc = Phi0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = k0_pay5 (acc0 V c t.val t.isLt).1 (acc0 V c t.val t.isLt).2 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (ms0_0 t) fullShare ((dat0 V c).after 0 t) from rfl, after0_0]
  rw [show (dat0 V c).leavesExact 1 t = owns (c : Thread nD τ) (ms0_1 t) fullShare ((dat0 V c).after 1 t) from rfl, after0_1]
  have hN : t.val < 32 := lt_of_lt_of_eq t.isLt (show cfg0.N = 32 from N_0)
  by_cases h0 : t.val % 16 = 0
  · have h1 : ¬t.val % 16 = 15 := by omega
    rw [Dat.leavesExact_idle (dat0 V c) 2 t (idleAt0_2 t h1) (noFlush0_2 t h1)]
    rw [acc0_first V c t h0]
    by_cases hz : t.val = 0
    · rw [Phi0_castSucc V c t, Phi0_zero V c _ _ hz, PhiA0_eq]
      iintro ⟨⟨⟨⟨HS0, HS1⟩, HR⟩, Hg⟩, Ho, ⟨%d0, H0⟩, ⟨%d1, H1⟩, ⟨%d2, H2⟩⟩
      iapply (run0_first c (grid0.coords t) _ _ _ _ _ _ _ _ _ _ ((hcond0_0 t).mpr h0) (fun h => h1 ((hcond0_1 t).mp h)) (iblk0 V c 0 t) (iblk0 V c 1 t) _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitr [Hg]
        · isplitr [HR]
          · isplitl [HS0]; · iexact HS0
            iexact HS1
          iexact HR
        iexact Hg
      isplitl [Ho]; · iexact Ho
      isplitl [H0]; · iexact H0
      isplitl [H1]; · iexact H1
      iexists _; iexact H2
    · rw [Phi0_castSucc V c t, Phi0_pos V c _ _ hz]
      iintro ⟨⟨⟨⟨HS0, HS1⟩, HR⟩, Hg⟩, Ho, ⟨%d0, H0⟩, ⟨%d1, H1⟩, ⟨%d2, H2⟩⟩
      iapply (run0_first c (grid0.coords t) _ _ _ _ _ _ _ _ _ _ ((hcond0_0 t).mpr h0) (fun h => h1 ((hcond0_1 t).mp h)) (iblk0 V c 0 t) (iblk0 V c 1 t) _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, HS0, HS1⟩
      isplitl [HS0 HS1 HR Hg]
      · isplitr [Hg]
        · isplitr [HR]
          · isplitl [HS0]; · iexact HS0
            iexact HS1
          iexact HR
        iexact Hg
      isplitl [Ho]; · iexact Ho
      isplitl [H0]; · iexact H0
      isplitl [H1]; · iexact H1
      iexists _; iexact H2
  · have hz : t.val ≠ 0 := fun h => h0 (by rw [h])
    rw [acc0_next V c t h0]
    rw [Phi0_castSucc V c t, Phi0_pos V c _ _ hz]
    by_cases h1 : t.val % 16 = 15
    · rw [show (dat0 V c).leavesExact 2 t = owns (c : Thread nD τ) (ms0_2 t) fullShare ((dat0 V c).after 2 t) from by
        unfold Dat.leavesExact; rw [liveAt0_2 t h1], after0_2, acc0_next V c t h0]
      iintro ⟨⟨⟨⟨HS0, HS1⟩, HR⟩, Hg⟩, Ho, ⟨%d0, H0⟩, ⟨%d1, H1⟩, ⟨%d2, H2⟩⟩
      iapply (run0_last c (grid0.coords t) _ _ _ _ _ _ _ _ _ _ (fun h => h0 ((hcond0_0 t).mp h)) ((hcond0_1 t).mpr h1) (iblk0 V c 0 t) (iblk0 V c 1 t) _ Set.univ _)
      isplitl [H0]; · iexact H0
      isplitl [H1]; · iexact H1
      isplitl [H2]; · iexists _; iexact H2
      isplitl [HS0]; · iexact HS0
      isplitl [HS1]; · iexact HS1
      iintro ⟨H0, H1, H2, HS0, HS1⟩
      isplitl [HS0 HS1 HR Hg]
      · isplitr [Hg]
        · isplitr [HR]
          · isplitl [HS0]; · iexact HS0
            iexact HS1
          iexact HR
        iexact Hg
      isplitl [Ho]; · iexact Ho
      isplitl [H0]; · iexact H0
      isplitl [H1]; · iexact H1
      iexact H2
    · rw [Dat.leavesExact_idle (dat0 V c) 2 t (idleAt0_2 t h1) (noFlush0_2 t h1)]
      iintro ⟨⟨⟨⟨HS0, HS1⟩, HR⟩, Hg⟩, Ho, ⟨%d0, H0⟩, ⟨%d1, H1⟩, ⟨%d2, H2⟩⟩
      iapply (run0_mid c (grid0.coords t) _ _ _ _ _ _ _ _ _ _ (fun h => h0 ((hcond0_0 t).mp h)) (fun h => h1 ((hcond0_1 t).mp h)) (iblk0 V c 0 t) (iblk0 V c 1 t) _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitr [Hg]
        · isplitr [HR]
          · isplitl [HS0]; · iexact HS0
            iexact HS1
          iexact HR
        iexact Hg
      isplitl [Ho]; · iexact Ho
      isplitl [H0]; · iexact H0
      isplitl [H1]; · iexact H1
      iexists _; iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- After the last point the invariant gives the class invariant back: the accumulators' contents are forgotten. -/
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 32 := N_0; omega), PhiA0_eq]
  iintro ⟨⟨⟨HS0, HS1⟩, HR⟩, Hg⟩
  isplitr [Hg]
  · isplitr [HR]
    · isplitl [HS0]; · iexists _; iexact HS0
      iexists _; iexact HS1
    iexact HR
  iexact Hg

end Cert.KernelIdeal.Hand

end
-- ==== Proof.KI_Body1.lean ====
/-
  Region 1, the linear kernel, run once at a grid point (o, f) on whole staging buffers, in each of the three
  situations the grid meets. The body keeps one accumulator in scratch: the running sum over the feature blocks of
  x·Wᵀ for the point's block of output columns. At the first feature block (f = 0) it zeroes the accumulator and
  adds the block's product; at a later block it adds the product to what the block before left; at the last block
  (f = 63) it moreover stores the finished sum plus the bias row into the output block. Each theorem says what the
  five buffers hold afterwards as the skeleton's payloads of what they held before.
-/
import proofs.«165164_j35055523070100_1_alg».proof.Proof.Gen.KernelIdeal.Launch
import proofs.«165164_j35055523070100_1_alg».proof.Proof.Gen.KernelIdeal.Skeleton
import proofs.«165164_j35055523070100_1_alg».proof.Proof.Gen.KernelIdeal.Points
import proofs.«165164_j35055523070100_1_alg».proof.Proof.LibWhole2
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Whole2

variable {F : FTy → Type} [FloatOps F]

local notation "𝕄" => MT nD τ sig Unit (Elt F) ℕ (UR sig nD τ) ℕ

/-- "This is the first feature block": the condition of the body's first `scf.if`, from the grid coordinates. -/
abbrev cond1_0 (i : grid1.Coords) : Prop := (Scalar.cmpi .ne (Scalar.extui (Scalar.cmpi .eq (BitVec.ofNat 32 (i 1).val) 0#32)) 0#32) = 1#1
/-- "This is the last feature block": the condition of its second. -/
abbrev cond1_1 (i : grid1.Coords) : Prop := k1_cond2 i = 1#1

set_option maxHeartbeats 1000000 in
/-- First feature block, not the last: the accumulator is reset and holds the block's product added to zero. -/
theorem run1_first (c : Dev nD) (i : grid1.Coords) (arg2 : Memref sig .tc .vmem S1024x256 .f32) (harg2 : arg2.IsWhole) (arg3 : Memref sig .tc .vmem S2048x256 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole)
    (hc0 : cond1_0 i) (hc1 : ¬cond1_1 i)
    (x0 : Vec F S1024x256 .f32) (x1 : Vec F S2048x256 .f32) (x2 : Vec F S1x2048 .f32) (xi3 : Vec F S1024x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3
        ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare (k1_pay2 x0 x1 (k1_pay1 (F := F)))) -∗ K ⟨⟩))
      ⊢ wp frame (wpE (defs₀ (F := F)) Variants.none c none) E (cc1__linear_kernel i arg2 harg2 arg3 harg3 arg4 harg4 arg5 harg5 arg6 harg6) K := by
  simp only [cc1__linear_kernel_eq_skeleton]; unfold cc1__linear_kernel_skel
  unfold owns
  iintro ⟨⟨%f0, %hf0, H0⟩, ⟨%f1, %hf1, H1⟩, ⟨%f2, %hf2, H2⟩, ⟨%f3, %hf3, H3⟩, ⟨%d6, %f6, -, H6⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  sl_unfold_words
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H6
  ipureintro
  rw [read_head2]
  exact congr (congr (congrArg k1_pay2 ((readAt2 _ _ _).trans (harg2.read_unread _))) ((readAt2 _ _ _).trans (harg3.read_unread _))) (readCov2 _ _ _)

set_option maxHeartbeats 1000000 in
/-- A middle feature block: the accumulator grows by the block's product. -/
theorem run1_mid (c : Dev nD) (i : grid1.Coords) (arg2 : Memref sig .tc .vmem S1024x256 .f32) (harg2 : arg2.IsWhole) (arg3 : Memref sig .tc .vmem S2048x256 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole)
    (hc0 : ¬cond1_0 i) (hc1 : ¬cond1_1 i)
    (x0 : Vec F S1024x256 .f32) (x1 : Vec F S2048x256 .f32) (x2 : Vec F S1x2048 .f32) (xi3 : Vec F S1024x2048 .f32) (s : Vec F S1024x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3
        ∗ owns (c : Thread nD τ) arg6 fullShare s
        ∗ (iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare (k1_pay2 x0 x1 s)) -∗ K ⟨⟩))
      ⊢ wp frame (wpE (defs₀ (F := F)) Variants.none c none) E (cc1__linear_kernel i arg2 harg2 arg3 harg3 arg4 harg4 arg5 harg5 arg6 harg6) K := by
  simp only [cc1__linear_kernel_eq_skeleton]; unfold cc1__linear_kernel_skel
  unfold owns
  iintro ⟨⟨%f0, %hf0, H0⟩, ⟨%f1, %hf1, H1⟩, ⟨%f2, %hf2, H2⟩, ⟨%f3, %hf3, H3⟩, ⟨%f6, %hf6, H6⟩, Hk⟩
  obtain rfl := harg2.eq_unread hf0; obtain rfl := harg3.eq_unread hf1; obtain rfl := harg4.eq_unread hf2; obtain rfl := harg5.eq_unread hf3
  obtain rfl := harg6.eq_unread hf6
  sl_exec (disch := first | exact hc0 | exact hc1)
  sl_step
  iapply Hk
  sl_unfold_words
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H6
  ipureintro
  rw [read_head2]
  exact congr (congr (congrArg k1_pay2 ((readAt2 _ _ _).trans (harg2.read_unread _))) ((readAt2 _ _ _).trans (harg3.read_unread _))) ((readAt2 _ _ _).trans (harg6.read_unread _))

set_option maxHeartbeats 1000000 in
/-- The last feature block: the accumulator grows by the block's product, and the output block takes the finished
    sum plus the bias row. -/
theorem run1_last (c : Dev nD) (i : grid1.Coords) (arg2 : Memref sig .tc .vmem S1024x256 .f32) (harg2 : arg2.IsWhole) (arg3 : Memref sig .tc .vmem S2048x256 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole)
    (hc0 : ¬cond1_0 i) (hc1 : cond1_1 i)
    (x0 : Vec F S1024x256 .f32) (x1 : Vec F S2048x256 .f32) (x2 : Vec F S1x2048 .f32) (s : Vec F S1024x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ owns (c : Thread nD τ) arg6 fullShare s
        ∗ (iprop(owns (c : Thread nD τ) arg2 fullShare x0 ∗ owns (c : Thread nD τ) arg3 fullShare x1 ∗ owns (c : Thread nD τ) arg4 fullShare x2 ∗ owns (c : Thread nD τ) arg5 fullShare (k1_pay3 (k1_pay2 x0 x1 s) x2)
            ∗ owns (c : Thread nD τ) arg6 fullShare (k1_pay2 x0 x1 s)) -∗ K ⟨⟩))
      ⊢ wp frame (wpE (defs₀ (F := F)) Variants.none c none) E (cc1__linear_kernel i arg2 harg2 arg3 harg3 arg4 harg4 arg5 harg5 arg6 harg6) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, ⟨%f6, %hf6, H6⟩, Hk⟩
  obtain rfl := harg2.eq_unread hf0; obtain rfl := harg3.eq_unread hf1; obtain rfl := harg4.eq_unread hf2
  obtain rfl := harg6.eq_unread hf6
  sl_exec (disch := first | exact hc0 | exact hc1)
  sl_step
  iapply Hk
  sl_unfold_words
  have e6 : k1_pay2 (View.readAt (Elt F) arg2.view (Rect.unit ![0, 0] S1024x256.size inb_S1024x256_S1024x256_0_0).toLoadRect (harg2.unread x0))
      (View.readAt (Elt F) arg3.view (Rect.unit ![0, 0] S2048x256.size inb_S2048x256_S2048x256_0_0).toLoadRect (harg3.unread x1))
      (View.readAt (Elt F) arg6.view (Rect.unit ![0, 0] S1024x2048.size inb_S1024x2048_S1024x2048_0_0).toLoadRect (harg6.unread s)) = k1_pay2 x0 x1 s :=
    congr (congr (congrArg k1_pay2 ((readAt2 _ _ _).trans (harg2.read_unread _))) ((readAt2 _ _ _).trans (harg3.read_unread _))) ((readAt2 _ _ _).trans (harg6.read_unread _))
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    rw [read_head2]
    exact congr (congrArg k1_pay3 ((readCov2 _ _ _).trans e6)) ((readAt2 _ _ _).trans (harg4.read_unread _))
  · iexists _; isplitr
    swap; · iexact H6
    ipureintro
    rw [read_head2]
    exact e6

end Cert.KernelIdeal.Hand

end
-- ==== Proof.KI_Dat1.lean ====
/-
  Region 1's proof data at a parameter `V`, the buffer contents when the region is entered, and its body
  obligation. The grid is 2 blocks of output columns × 64 feature blocks, point t = 64·o + f. After the body at
  point t the scratch accumulator holds the sum, over the feature blocks 0 … f, of the blocks' products x·Wᵀ for
  column block o (`acc1`: reset at f = 0, grown by one block's product at every point); the output block is stored
  only at f = 63, where it takes the finished sum plus the bias row, and is idle at every other point. The region's
  invariant between points is: the accumulator at `acc1` of the point before, the core's other scoped buffers at
  anything, the generator register at some state.
-/
import proofs.«165164_j35055523070100_1_alg».proof.Proof.Gen.KernelIdeal.Launch
import proofs.«165164_j35055523070100_1_alg».proof.Proof.Gen.KernelIdeal.Skeleton
import proofs.«165164_j35055523070100_1_alg».proof.Proof.Gen.KernelIdeal.Points
import proofs.«165164_j35055523070100_1_alg».proof.Proof.LibWhole2
import proofs.«165164_j35055523070100_1_alg».proof.Proof.KI_Body1
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Whole2

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not, for any proof data whose
    array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The conditions over the grid, and where the output is idle -/

/-- The first feature block is the points ≡ 0 (mod 64). -/
theorem hcond1_0 : ∀ t : Fin cfg1.N, cond1_0 (grid1.coords t) ↔ t.val % 64 = 0 :=
  (by decide +kernel : ∀ t : Fin grid1.N, cond1_0 (grid1.coords t) ↔ t.val % 64 = 0)
/-- The last feature block is the points ≡ 63 (mod 64). -/
theorem hcond1_1 : ∀ t : Fin cfg1.N, cond1_1 (grid1.coords t) ↔ t.val % 64 = 63 :=
  (by decide +kernel : ∀ t : Fin grid1.N, cond1_1 (grid1.coords t) ↔ t.val % 64 = 63)
/-- Away from the last feature block the output window is idle … -/
theorem idleAt1_3 : ∀ t : Fin cfg1.N, ¬t.val % 64 = 63 → cfg1.idle 3 (grid1.coords t) = true :=
  (by decide +kernel : ∀ t : Fin grid1.N, ¬t.val % 64 = 63 → cfg1.idle 3 (grid1.coords t) = true)
/-- … and not written back; -/
theorem noFlush1_3 (t : Fin cfg1.N) (h : ¬t.val % 64 = 63) : (cfg1.win 3).flush t = false := by
  cases hf : (cfg1.win 3).flush t
  · rfl
  · exact absurd ((flush1_3 t).mp hf) h
/-- at the last feature block it is live. -/
theorem liveAt1_3 : ∀ t : Fin cfg1.N, t.val % 64 = 63 → cfg1.idle 3 (grid1.coords t) = false :=
  (by decide +kernel : ∀ t : Fin grid1.N, t.val % 64 = 63 → cfg1.idle 3 (grid1.coords t) = false)

/-! ## The staging and scratch memrefs at a point -/

abbrev ms1_0 (t : Fin cfg1.N) : Memref sig .tc .vmem S1024x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .f32 := win1_3.stage (cfg1.slots t 3)
abbrev hs1_3 (t : Fin cfg1.N) : (ms1_3 t).IsWhole := hstage1_3 ((cfg1.slots t 3).cast nbuf1_3)
/-- The scratch accumulator: a whole scoped buffer of the kernel's own. -/
abbrev scM1_0 : Memref sig .tc .vmem S1024x2048 .f32 := Memref.whole cc1_scratch0

/-! ## The accumulator after each point -/

/-- The accumulator after the body at position `n`: the block's product added to zero at the first feature block of
    a column block, to what the point before left elsewhere. -/
def acc1 (c : Dev nD) : (n : ℕ) → n < cfg1.N → Vec F S1024x2048 .f32
  | 0, hn => k1_pay2 (iblk1 V c 0 ⟨0, hn⟩) (iblk1 V c 1 ⟨0, hn⟩) k1_pay1
  | n + 1, hn => k1_pay2 (iblk1 V c 0 ⟨n + 1, hn⟩) (iblk1 V c 1 ⟨n + 1, hn⟩)
      (if (n + 1) % 64 = 0 then k1_pay1 else acc1 c n (Nat.lt_of_succ_lt hn))

/-- At a first feature block: the block's product added to zero. -/
theorem acc1_first (c : Dev nD) (t : Fin cfg1.N) (h : t.val % 64 = 0) :
    acc1 V c t.val t.isLt = k1_pay2 (iblk1 V c 0 t) (iblk1 V c 1 t) k1_pay1 := by
  obtain ⟨n, hn⟩ := t
  cases n with
  | zero => rfl
  | succ n => exact congrArg (k1_pay2 _ _) (if_pos h)

/-- Elsewhere: the block's product added to what the point before left. -/
theorem acc1_next (c : Dev nD) (t : Fin cfg1.N) (h : ¬t.val % 64 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h
  | succ n => exact congrArg (k1_pay2 _ _) (if_neg h)

/-! ## The invariant between points -/

/-- The class invariant with the accumulator split off the scoped rest. -/
theorem PhiA1_eq (c : Dev nD) :
    (Pipeline.ΦA spec1 c : sProp 𝕄)
      = iprop(iprop((∃ d, owns (c : Thread nD τ) scM1_0 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [bigSepL_singleton, scM1_0, owns_whole]
  try rfl

/-- Before position `n`: the class invariant before the first point; afterwards the accumulator at what the point
    before left, the other scoped buffers at anything, the generator register at some state. -/
def Phi1 (c : Dev nD) : (n : ℕ) → n ≤ cfg1.N → sProp 𝕄
  | 0, _ => Pipeline.ΦA spec1 c
  | n + 1, hn => iprop(iprop(owns (c : Thread nD τ) scM1_0 fullShare (acc1 V c n hn)
      ∗ Pipeline.scopedRestBut (Ix := Unit) (Name := ℕ) (U := UR sig nD τ) (Lvl := ℕ) (Val := Elt F) spec1 c [cc1_scratch0]) ∗ (∃ r, prngReg c r))

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop(iprop(owns (c : Thread nD τ) scM1_0 fullShare (acc1 V c n hn)
      ∗ Pipeline.scopedRestBut (Ix := Unit) (Name := ℕ) (U := UR sig nD τ) (Lvl := ℕ) (Val := Elt F) spec1 c [cc1_scratch0]) ∗ (∃ r, prngReg c r)) := rfl
theorem Phi1_pos (c : Dev nD) (n : ℕ) (h : n ≤ cfg1.N) (hz : n ≠ 0) :
    Phi1 V c n h = iprop(iprop(owns (c : Thread nD τ) scM1_0 fullShare (acc1 V c (n - 1) (by omega))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- Region 1's proof data on core `c`: the arrays as the region finds them; after the body each input's buffer at
    its block and the output's at the point's accumulator plus the bias row (consulted at the last feature block
    only); the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 2 t)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Phi1_castSucc (c : Dev nD) (t : Fin cfg1.N) :
    (dat1 V c).Φ t.castSucc = Phi1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (acc1 V c t.val t.isLt) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from rfl, after1_0]
  rw [show (dat1 V c).leavesExact 1 t = owns (c : Thread nD τ) (ms1_1 t) fullShare ((dat1 V c).after 1 t) from rfl, after1_1]
  rw [show (dat1 V c).leavesExact 2 t = owns (c : Thread nD τ) (ms1_2 t) fullShare ((dat1 V c).after 2 t) from rfl, after1_2]
  have hN : t.val < 128 := lt_of_lt_of_eq t.isLt (show cfg1.N = 128 from N_1)
  by_cases h0 : t.val % 64 = 0
  · have h1 : ¬t.val % 64 = 63 := by omega
    rw [Dat.leavesExact_idle (dat1 V c) 3 t (idleAt1_3 t h1) (noFlush1_3 t h1)]
    rw [acc1_first V c t h0]
    by_cases hz : t.val = 0
    · rw [Phi1_castSucc V c t, Phi1_zero V c _ _ hz, PhiA1_eq]
      iintro ⟨⟨⟨HS0, HR⟩, Hg⟩, Ho, ⟨%d0, H0⟩, ⟨%d1, H1⟩, ⟨%d2, H2⟩, ⟨%d3, H3⟩⟩
      iapply (run1_first c (grid1.coords t) _ _ _ _ _ _ _ _ _ _ ((hcond1_0 t).mpr h0) (fun h => h1 ((hcond1_1 t).mp h)) (iblk1 V c 0 t) (iblk1 V c 1 t) (iblk1 V c 2 t) _ Set.univ _)
      isplitl [H0]; · iexact H0
      isplitl [H1]; · iexact H1
      isplitl [H2]; · iexact H2
      isplitl [H3]; · iexact H3
      isplitl [HS0]; · iexact HS0
      iintro ⟨H0, H1, H2, H3, HS0⟩
      isplitl [HS0 HR Hg]
      · isplitr [Hg]
        · isplitl [HS0]; · iexact HS0
          iexact HR
        iexact Hg
      isplitl [Ho]; · iexact Ho
      isplitl [H0]; · iexact H0
      isplitl [H1]; · iexact H1
      isplitl [H2]; · iexact H2
      iexists _; iexact H3
    · rw [Phi1_castSucc V c t, Phi1_pos V c _ _ hz]
      iintro ⟨⟨⟨HS0, HR⟩, Hg⟩, Ho, ⟨%d0, H0⟩, ⟨%d1, H1⟩, ⟨%d2, H2⟩, ⟨%d3, H3⟩⟩
      iapply (run1_first c (grid1.coords t) _ _ _ _ _ _ _ _ _ _ ((hcond1_0 t).mpr h0) (fun h => h1 ((hcond1_1 t).mp h)) (iblk1 V c 0 t) (iblk1 V c 1 t) (iblk1 V c 2 t) _ Set.univ _)
      isplitl [H0]; · iexact H0
      isplitl [H1]; · iexact H1
      isplitl [H2]; · iexact H2
      isplitl [H3]; · iexact H3
      isplitl [HS0]; · iexists _; iexact HS0
      iintro ⟨H0, H1, H2, H3, HS0⟩
      isplitl [HS0 HR Hg]
      · isplitr [Hg]
        · isplitl [HS0]; · iexact HS0
          iexact HR
        iexact Hg
      isplitl [Ho]; · iexact Ho
      isplitl [H0]; · iexact H0
      isplitl [H1]; · iexact H1
      isplitl [H2]; · iexact H2
      iexists _; iexact H3
  · have hz : t.val ≠ 0 := fun h => h0 (by rw [h])
    rw [acc1_next V c t h0]
    rw [Phi1_castSucc V c t, Phi1_pos V c _ _ hz]
    by_cases h1 : t.val % 64 = 63
    · rw [show (dat1 V c).leavesExact 3 t = owns (c : Thread nD τ) (ms1_3 t) fullShare ((dat1 V c).after 3 t) from by
        unfold Dat.leavesExact; rw [liveAt1_3 t h1], after1_3, acc1_next V c t h0]
      iintro ⟨⟨⟨HS0, HR⟩, Hg⟩, Ho, ⟨%d0, H0⟩, ⟨%d1, H1⟩, ⟨%d2, H2⟩, ⟨%d3, H3⟩⟩
      iapply (run1_last c (grid1.coords t) _ _ _ _ _ _ _ _ _ _ (fun h => h0 ((hcond1_0 t).mp h)) ((hcond1_1 t).mpr h1) (iblk1 V c 0 t) (iblk1 V c 1 t) (iblk1 V c 2 t) _ Set.univ _)
      isplitl [H0]; · iexact H0
      isplitl [H1]; · iexact H1
      isplitl [H2]; · iexact H2
      isplitl [H3]; · iexists _; iexact H3
      isplitl [HS0]; · iexact HS0
      iintro ⟨H0, H1, H2, H3, HS0⟩
      isplitl [HS0 HR Hg]
      · isplitr [Hg]
        · isplitl [HS0]; · iexact HS0
          iexact HR
        iexact Hg
      isplitl [Ho]; · iexact Ho
      isplitl [H0]; · iexact H0
      isplitl [H1]; · iexact H1
      isplitl [H2]; · iexact H2
      iexact H3
    · rw [Dat.leavesExact_idle (dat1 V c) 3 t (idleAt1_3 t h1) (noFlush1_3 t h1)]
      iintro ⟨⟨⟨HS0, HR⟩, Hg⟩, Ho, ⟨%d0, H0⟩, ⟨%d1, H1⟩, ⟨%d2, H2⟩, ⟨%d3, H3⟩⟩
      iapply (run1_mid c (grid1.coords t) _ _ _ _ _ _ _ _ _ _ (fun h => h0 ((hcond1_0 t).mp h)) (fun h => h1 ((hcond1_1 t).mp h)) (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS0]; · iexact HS0
      iintro ⟨H0, H1, H2, H3, HS0⟩
      isplitl [HS0 HR Hg]
      · isplitr [Hg]
        · isplitl [HS0]; · iexact HS0
          iexact HR
        iexact Hg
      isplitl [Ho]; · iexact Ho
      isplitl [H0]; · iexact H0
      isplitl [H1]; · iexact H1
      isplitl [H2]; · iexact H2
      iexists _; iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After the last point the invariant gives the class invariant back: the accumulator's contents are forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 128 := N_1; omega), PhiA1_eq]
  iintro ⟨⟨HS0, HR⟩, Hg⟩
  isplitr [Hg]
  · isplitl [HS0]; · iexists _; iexact HS0
    iexact HR
  iexact Hg

end Cert.KernelIdeal.Hand

end
-- ==== Proof.KI_Body2.lean ====
/-
  Region 2, the kernel of the interaction network, run once at a grid point on whole staging buffers. It has one
  situation only: it loads its six input blocks — a row block of the interaction vector, the two weight matrices,
  the two bias rows, the row block of the linear term —, stores the network's output for the row block into one
  output block and the linear term plus that output into the other, and keeps nothing between points.
-/
import proofs.«165164_j35055523070100_1_alg».proof.Proof.Gen.KernelIdeal.Launch
import proofs.«165164_j35055523070100_1_alg».proof.Proof.Gen.KernelIdeal.Skeleton
import proofs.«165164_j35055523070100_1_alg».proof.Proof.Gen.KernelIdeal.Points
import proofs.«165164_j35055523070100_1_alg».proof.Proof.LibWhole2
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Whole2

variable {F : FTy → Type} [FloatOps F]

local notation "𝕄" => MT nD τ sig Unit (Elt F) ℕ (UR sig nD τ) ℕ

set_option maxHeartbeats 1000000 in
/-- The body on whole staging buffers, the inputs' at contents `x0 … x5` and the outputs' at anything, leaves the
    inputs' as they were, the network's output for the row block in the last buffer and its sum with the linear
    term in the one before it. -/
theorem run2 (c : Dev nD) (i : grid2.Coords) (arg1 : Memref sig .tc .vmem S128x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S4096x256 .f32) (harg4 : arg4.IsWhole) (arg5 : Memref sig .tc .vmem S1x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole)
    (x0 : Vec F S128x256 .f32) (x1 : Vec F S256x256 .f32) (x2 : Vec F S1x256 .f32) (x3 : Vec F S4096x256 .f32) (x4 : Vec F S1x4096 .f32) (x5 : Vec F S128x4096 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (k2_pay2 x0 x1 x2 x3 x4 x5) ∗ owns (c : Thread nD τ) arg8 fullShare (k2_pay1 x0 x1 x2 x3 x4)) -∗ K ⟨⟩))
      ⊢ wp frame (wpE (defs₀ (F := F)) Variants.none c none) E (cc2__mlp_kernel i arg1 harg1 arg2 harg2 arg3 harg3 arg4 harg4 arg5 harg5 arg6 harg6 arg7 harg7 arg8 harg8) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  sl_exec
  sl_step
  iapply Hk
  sl_unfold_words
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    rw [read_head2]
    exact congr (congr (congr (congr (congr (congrArg k2_pay2 ((readAt2 _ _ _).trans (harg1.read_unread _))) ((readAt2 _ _ _).trans (harg2.read_unread _))) ((readAt2 _ _ _).trans (harg3.read_unread _))) ((readAt2 _ _ _).trans (harg4.read_unread _))) ((readAt2 _ _ _).trans (harg5.read_unread _))) ((readAt2 _ _ _).trans (harg6.read_unread _))
  · iexists _; isplitr
    swap; · iexact H7
    ipureintro
    rw [read_head2]
    exact congr (congr (congr (congr (congrArg k2_pay1 ((readAt2 _ _ _).trans (harg1.read_unread _))) ((readAt2 _ _ _).trans (harg2.read_unread _))) ((readAt2 _ _ _).trans (harg3.read_unread _))) ((readAt2 _ _ _).trans (harg4.read_unread _))) ((readAt2 _ _ _).trans (harg5.read_unread _))

end Cert.KernelIdeal.Hand

end
-- ==== Proof.KI_Dat2.lean ====
/-
  Region 2's proof data at a parameter `V`, the buffer contents when the region is entered, and its body
  obligation. The grid is 8 row blocks of 128 rows. At every point the body reads its six input blocks and stores
  both output blocks whole, so after the body each input's buffer holds its block and the two outputs' hold the
  interaction network's output for the row block, and its sum with the linear term; nothing is carried between
  points, and the region's invariant is the class's: the core's other scoped buffers at anything, the generator
  register at some state.
-/
import proofs.«165164_j35055523070100_1_alg».proof.Proof.Gen.KernelIdeal.Launch
import proofs.«165164_j35055523070100_1_alg».proof.Proof.Gen.KernelIdeal.Skeleton
import proofs.«165164_j35055523070100_1_alg».proof.Proof.Gen.KernelIdeal.Points
import proofs.«165164_j35055523070100_1_alg».proof.Proof.LibWhole2
import proofs.«165164_j35055523070100_1_alg».proof.Proof.KI_Body2
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Whole2

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The staging memrefs at a point -/

abbrev ms2_0 (t : Fin cfg2.N) : Memref sig .tc .vmem S128x256 .f32 := win2_0.stage (cfg2.slots t 0)
abbrev ms2_1 (t : Fin cfg2.N) : Memref sig .tc .vmem S256x256 .f32 := win2_1.stage (cfg2.slots t 1)
abbrev ms2_2 (t : Fin cfg2.N) : Memref sig .tc .vmem S1x256 .f32 := win2_2.stage (cfg2.slots t 2)
abbrev ms2_3 (t : Fin cfg2.N) : Memref sig .tc .vmem S4096x256 .f32 := win2_3.stage (cfg2.slots t 3)
abbrev ms2_4 (t : Fin cfg2.N) : Memref sig .tc .vmem S1x4096 .f32 := win2_4.stage (cfg2.slots t 4)
abbrev ms2_5 (t : Fin cfg2.N) : Memref sig .tc .vmem S128x4096 .f32 := win2_5.stage (cfg2.slots t 5)
abbrev ms2_6 (t : Fin cfg2.N) : Memref sig .tc .vmem S128x4096 .f32 := win2_6.stage (cfg2.slots t 6)
abbrev ms2_7 (t : Fin cfg2.N) : Memref sig .tc .vmem S128x4096 .f32 := win2_7.stage (cfg2.slots t 7)

/-! ## The proof data -/

/-- The network's output for row block `t`, from the point's input blocks. -/
def interBlk (c : Dev nD) (t : Fin cfg2.N) : Vec F S128x4096 .f32 :=
  k2_pay1 (iblk2 V c 0 t) (iblk2 V c 1 t) (iblk2 V c 2 t) (iblk2 V c 3 t) (iblk2 V c 4 t)
/-- Its sum with the linear term's row block. -/
def totalBlk (c : Dev nD) (t : Fin cfg2.N) : Vec F S128x4096 .f32 :=
  k2_pay2 (iblk2 V c 0 t) (iblk2 V c 1 t) (iblk2 V c 2 t) (iblk2 V c 3 t) (iblk2 V c 4 t) (iblk2 V c 5 t)

/-- Region 2's proof data on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => totalBlk V c t
    | ⟨7, _⟩ => interBlk V c t
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = totalBlk V c t := by dsimp only [dat2]
theorem after2_7 (c : Dev nD) (t : Fin cfg2.N) : (dat2 V c).after 7 t = interBlk V c t := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t))

set_option maxHeartbeats 4000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  unfold totalBlk interBlk
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run2 c (grid2.coords t) _ _ _ _ _ _ _ _ _ _ _ _ _ _ _ _ (iblk2 V c 0 t) (iblk2 V c 1 t) (iblk2 V c 2 t) (iblk2 V c 3 t) (iblk2 V c 4 t) (iblk2 V c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI_Segs.lean ====
/-
  The whole run of @main: region 0, one host reshape, region 1, two host reshapes, region 2. The buffer contents at
  each boundary are a fold from the launch memory: a host stretch leaves its operations' results, a region leaves
  its arrays at what its write-backs fold to and every other buffer as it found it. Each region is entered from
  "every unscoped buffer at the boundary's contents, the generator register at some state, nothing owed" and left
  at the same with the next contents, so the regions and the host stretches chain, and every execution ends with
  every unscoped buffer at the last contents `W5`. Read there: no item writes an argument, so each argument ends as
  launched; the three results are what regions 1 and 2 left.
-/
import proofs.«165164_j35055523070100_1_alg».proof.Proof.Gen.KernelIdeal.Launch
import proofs.«165164_j35055523070100_1_alg».proof.Proof.Gen.KernelIdeal.Skeleton
import proofs.«165164_j35055523070100_1_alg».proof.Proof.Gen.KernelIdeal.Points
import proofs.«165164_j35055523070100_1_alg».proof.Proof.Gen.KernelIdeal.Regions
import proofs.«165164_j35055523070100_1_alg».proof.Proof.KI_Dat0
import proofs.«165164_j35055523070100_1_alg».proof.Proof.KI_Dat1
import proofs.«165164_j35055523070100_1_alg».proof.Proof.KI_Dat2
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Whole2

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (region 0's entry: no host operation comes before it). -/
abbrev W0 : Dev nD → Valuation τ sig (Elt F) := fun c b => m ((c : Dev nD), b)
/-- The same read at the TensorCore's references. -/
abbrev VV0 : (c : Dev nD) → (b : Ref sig .tc) → Buf (Elt F) ((c : Thread nD τ).loc b) := fun c b => W0 m c b

/-- At region 0's exit: its arrays at what the pipeline leaves (the inputs as entered, each output's write-backs
    folded), every other buffer as entered. -/
def W1 (c : Dev nD) : Valuation τ sig (Elt F) :=
  Pipeline.withArrays spec0 c (W0 m c) fun w => (dat0 (VV0 m) c).arrAt w cfg0.N
theorem W1_arr (c : Dev nD) (w : Fin cfg0.W) :
    W1 m c (Proc.devRef .tc (Pipeline.arrRef spec0 w)) = (dat0 (VV0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references. -/
abbrev VV1 : (c : Dev nD) → (b : Ref sig .tc) → Buf (Elt F) ((c : Thread nD τ).loc b) := fun c b => W1 m c b
theorem hF0 (c : Dev nD) (w : Fin cfg0.W) : (dat0 (VV0 m) c).arrAt w cfg0.N = VV1 m c (Pipeline.arrRef spec0 w) :=
  (W1_arr m c w).symm
theorem hrest0 (c : Dev nD) : ∀ b, b ∉ Finset.univ.image (Pipeline.arrRef spec0) → VV1 m c b = VV0 m c b :=
  fun b hb => W1_of_ne m c b fun w e => hb (Finset.mem_image.mpr ⟨w, Finset.mem_univ _, e⟩)
/-- A buffer that is no output of region 0 leaves it as it entered: an input window's array by the library's
    fold over the write-backs, any other buffer because the region does not touch it. -/
theorem W1_keep (c : Dev nD) (b : Ref sig .tc) (hb : ∀ w, Pipeline.arrRef spec0 w = b → (cfg0.win w).isOut = false) :
    W1 m c (Proc.devRef .tc b) = W0 m c (Proc.devRef .tc b) := by
  by_cases h : ∃ w, Pipeline.arrRef spec0 w = b
  · obtain ⟨w, rfl⟩ := h
    exact (W1_arr m c w).trans (((dat0 (VV0 m) c).arrAt_in w (hb w rfl) _).trans (A_eq0 (VV0 m) c w))
  · exact W1_of_ne m c b (fun w e => h ⟨w, e⟩)

/-- After the first host stretch (region 1's entry). -/
abbrev W2 : Dev nD → Valuation τ sig (Elt F) := fun c => StableHlo.after hostOps1 (W1 m c)
abbrev VV2 : (c : Dev nD) → (b : Ref sig .tc) → Buf (Elt F) ((c : Thread nD τ).loc b) := fun c b => W2 m c b
/-- The first host stretch writes `main_v1` only. -/
theorem W2_host (c : Dev nD) (r : Ref sig .tc) (h : r ∉ hostOps1_W) : W2 m c (Proc.devRef .tc r) = W1 m c (Proc.devRef .tc r) :=
  StableHlo.after_of_writes_sub hostOps1 _ hostOps1_writes h

/-- At region 1's exit: its arrays at what the pipeline leaves (the inputs as entered, each output's write-backs
    folded), every other buffer as entered. -/
def W3 (c : Dev nD) : Valuation τ sig (Elt F) :=
  Pipeline.withArrays spec1 c (W2 m c) fun w => (dat1 (VV2 m) c).arrAt w cfg1.N
theorem W3_arr (c : Dev nD) (w : Fin cfg1.W) :
    W3 m c (Proc.devRef .tc (Pipeline.arrRef spec1 w)) = (dat1 (VV2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references. -/
abbrev VV3 : (c : Dev nD) → (b : Ref sig .tc) → Buf (Elt F) ((c : Thread nD τ).loc b) := fun c b => W3 m c b
theorem hF1 (c : Dev nD) (w : Fin cfg1.W) : (dat1 (VV2 m) c).arrAt w cfg1.N = VV3 m c (Pipeline.arrRef spec1 w) :=
  (W3_arr m c w).symm
theorem hrest1 (c : Dev nD) : ∀ b, b ∉ Finset.univ.image (Pipeline.arrRef spec1) → VV3 m c b = VV2 m c b :=
  fun b hb => W3_of_ne m c b fun w e => hb (Finset.mem_image.mpr ⟨w, Finset.mem_univ _, e⟩)
/-- A buffer that is no output of region 1 leaves it as it entered: an input window's array by the library's
    fold over the write-backs, any other buffer because the region does not touch it. -/
theorem W3_keep (c : Dev nD) (b : Ref sig .tc) (hb : ∀ w, Pipeline.arrRef spec1 w = b → (cfg1.win w).isOut = false) :
    W3 m c (Proc.devRef .tc b) = W2 m c (Proc.devRef .tc b) := by
  by_cases h : ∃ w, Pipeline.arrRef spec1 w = b
  · obtain ⟨w, rfl⟩ := h
    exact (W3_arr m c w).trans (((dat1 (VV2 m) c).arrAt_in w (hb w rfl) _).trans (A_eq1 (VV2 m) c w))
  · exact W3_of_ne m c b (fun w e => h ⟨w, e⟩)

/-- After the second host stretch (region 2's entry). -/
abbrev W4 : Dev nD → Valuation τ sig (Elt F) := fun c => StableHlo.after hostOps2 (W3 m c)
abbrev VV4 : (c : Dev nD) → (b : Ref sig .tc) → Buf (Elt F) ((c : Thread nD τ).loc b) := fun c b => W4 m c b
/-- The second host stretch writes `main_v3` and `main_v4` only. -/
theorem W4_host (c : Dev nD) (r : Ref sig .tc) (h : r ∉ hostOps2_W) : W4 m c (Proc.devRef .tc r) = W3 m c (Proc.devRef .tc r) :=
  StableHlo.after_of_writes_sub hostOps2 _ hostOps2_writes h

/-- At region 2's exit: its arrays at what the pipeline leaves (the inputs as entered, each output's write-backs
    folded), every other buffer as entered. -/
def W5 (c : Dev nD) : Valuation τ sig (Elt F) :=
  Pipeline.withArrays spec2 c (W4 m c) fun w => (dat2 (VV4 m) c).arrAt w cfg2.N
theorem W5_arr (c : Dev nD) (w : Fin cfg2.W) :
    W5 m c (Proc.devRef .tc (Pipeline.arrRef spec2 w)) = (dat2 (VV4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
/-- The same read at the TensorCore's references. -/
abbrev VV5 : (c : Dev nD) → (b : Ref sig .tc) → Buf (Elt F) ((c : Thread nD τ).loc b) := fun c b => W5 m c b
theorem hF2 (c : Dev nD) (w : Fin cfg2.W) : (dat2 (VV4 m) c).arrAt w cfg2.N = VV5 m c (Pipeline.arrRef spec2 w) :=
  (W5_arr m c w).symm
theorem hrest2 (c : Dev nD) : ∀ b, b ∉ Finset.univ.image (Pipeline.arrRef spec2) → VV5 m c b = VV4 m c b :=
  fun b hb => W5_of_ne m c b fun w e => hb (Finset.mem_image.mpr ⟨w, Finset.mem_univ _, e⟩)
/-- A buffer that is no output of region 2 leaves it as it entered: an input window's array by the library's
    fold over the write-backs, any other buffer because the region does not touch it. -/
theorem W5_keep (c : Dev nD) (b : Ref sig .tc) (hb : ∀ w, Pipeline.arrRef spec2 w = b → (cfg2.win w).isOut = false) :
    W5 m c (Proc.devRef .tc b) = W4 m c (Proc.devRef .tc b) := by
  by_cases h : ∃ w, Pipeline.arrRef spec2 w = b
  · obtain ⟨w, rfl⟩ := h
    exact (W5_arr m c w).trans (((dat2 (VV4 m) c).arrAt_in w (hb w rfl) _).trans (A_eq2 (VV4 m) c w))
  · exact W5_of_ne m c b (fun w e => h ⟨w, e⟩)

/-! ## No item writes an argument -/

theorem W5_main_arg0 (c : Dev nD) : W5 m c (Proc.devRef .tc main_arg0) = m ((c : Thread nD τ).loc main_arg0) :=
  (W5_keep m c main_arg0 (by decide)).trans <| (W4_host m c main_arg0 (by decide)).trans <| (W3_keep m c main_arg0 (by decide)).trans <|
    (W2_host m c main_arg0 (by decide)).trans <| (W1_keep m c main_arg0 (by decide)).trans rfl
theorem W5_main_arg1 (c : Dev nD) : W5 m c (Proc.devRef .tc main_arg1) = m ((c : Thread nD τ).loc main_arg1) :=
  (W5_keep m c main_arg1 (by decide)).trans <| (W4_host m c main_arg1 (by decide)).trans <| (W3_keep m c main_arg1 (by decide)).trans <|
    (W2_host m c main_arg1 (by decide)).trans <| (W1_keep m c main_arg1 (by decide)).trans rfl
theorem W5_main_arg2 (c : Dev nD) : W5 m c (Proc.devRef .tc main_arg2) = m ((c : Thread nD τ).loc main_arg2) :=
  (W5_keep m c main_arg2 (by decide)).trans <| (W4_host m c main_arg2 (by decide)).trans <| (W3_keep m c main_arg2 (by decide)).trans <|
    (W2_host m c main_arg2 (by decide)).trans <| (W1_keep m c main_arg2 (by decide)).trans rfl
theorem W5_main_arg3 (c : Dev nD) : W5 m c (Proc.devRef .tc main_arg3) = m ((c : Thread nD τ).loc main_arg3) :=
  (W5_keep m c main_arg3 (by decide)).trans <| (W4_host m c main_arg3 (by decide)).trans <| (W3_keep m c main_arg3 (by decide)).trans <|
    (W2_host m c main_arg3 (by decide)).trans <| (W1_keep m c main_arg3 (by decide)).trans rfl
theorem W5_main_arg4 (c : Dev nD) : W5 m c (Proc.devRef .tc main_arg4) = m ((c : Thread nD τ).loc main_arg4) :=
  (W5_keep m c main_arg4 (by decide)).trans <| (W4_host m c main_arg4 (by decide)).trans <| (W3_keep m c main_arg4 (by decide)).trans <|
    (W2_host m c main_arg4 (by decide)).trans <| (W1_keep m c main_arg4 (by decide)).trans rfl
theorem W5_main_arg5 (c : Dev nD) : W5 m c (Proc.devRef .tc main_arg5) = m ((c : Thread nD τ).loc main_arg5) :=
  (W5_keep m c main_arg5 (by decide)).trans <| (W4_host m c main_arg5 (by decide)).trans <| (W3_keep m c main_arg5 (by decide)).trans <|
    (W2_host m c main_arg5 (by decide)).trans <| (W1_keep m c main_arg5 (by decide)).trans rfl
theorem W5_main_arg6 (c : Dev nD) : W5 m c (Proc.devRef .tc main_arg6) = m ((c : Thread nD τ).loc main_arg6) :=
  (W5_keep m c main_arg6 (by decide)).trans <| (W4_host m c main_arg6 (by decide)).trans <| (W3_keep m c main_arg6 (by decide)).trans <|
    (W2_host m c main_arg6 (by decide)).trans <| (W1_keep m c main_arg6 (by decide)).trans rfl
theorem W5_main_arg7 (c : Dev nD) : W5 m c (Proc.devRef .tc main_arg7) = m ((c : Thread nD τ).loc main_arg7) :=
  (W5_keep m c main_arg7 (by decide)).trans <| (W4_host m c main_arg7 (by decide)).trans <| (W3_keep m c main_arg7 (by decide)).trans <|
    (W2_host m c main_arg7 (by decide)).trans <| (W1_keep m c main_arg7 (by decide)).trans rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (VV0 m) c
  | ⟨1, _⟩ => fun c => dat1 (VV2 m) c
  | ⟨2, _⟩ => fun c => dat2 (VV4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m c) ∗ ∃ r, prngReg c r)

theorem hin0' (c : Dev nD) : Pipeline.ΦA spec0 c ⊢ (pdats m 0 c).Φ 0 := hin0 (VV0 m) c
theorem hout0' (c : Dev nD) : (pdats m 0 c).Φ (Fin.last cfg0.N) ⊢ Pipeline.ΦA spec0 c := hout0 (VV0 m) c
theorem hin1' (c : Dev nD) : Pipeline.ΦA spec1 c ⊢ (pdats m 1 c).Φ 0 := hin1 (VV2 m) c
theorem hout1' (c : Dev nD) : (pdats m 1 c).Φ (Fin.last cfg1.N) ⊢ Pipeline.ΦA spec1 c := hout1 (VV2 m) c
theorem hin2' (c : Dev nD) : Pipeline.ΦA spec2 c ⊢ (pdats m 2 c).Φ 0 := .rfl
theorem hout2' (c : Dev nD) : (pdats m 2 c).Φ (Fin.last cfg2.N) ⊢ Pipeline.ΦA spec2 c := .rfl

/-! ## The regions as segments -/

-- a library lemma stated over the pinned configuration unifies with the printed one only when unification may unfold
-- plain definitions in a metavariable's type
set_option backward.isDefEq.respectTransparency.types false in
/-- Region 0 over the thread state: entered with every unscoped buffer at the contents before it, left with them at
    the contents after it. Its arrays are split out of the unscoped buffers and put back at what the write-backs
    leave; the generator register goes into the region's invariant and comes back; nothing is owed; the kernel has
    no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VV0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (VV0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VV0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0' m c)
    unfold Pipeline.ΦA
    iintro ⟨Hp, -, Hr⟩
    isplitl [Hr]; · iexact Hr
    iexact Hp
  hout c := by
    rw [Pipeline.ownSems0_none]
    refine BIBase.Entails.trans (hout0' m c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VV0 m c) (VV1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered with every unscoped buffer at the contents before it, left with them at
    the contents after it. Its arrays are split out of the unscoped buffers and put back at what the write-backs
    leave; the generator register goes into the region's invariant and comes back; nothing is owed; the kernel has
    no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VV2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (VV2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VV2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1' m c)
    unfold Pipeline.ΦA
    iintro ⟨Hp, -, Hr⟩
    isplitl [Hr]; · iexact Hr
    iexact Hp
  hout c := by
    rw [Pipeline.ownSems0_none]
    refine BIBase.Entails.trans (hout1' m c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VV2 m c) (VV3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered with every unscoped buffer at the contents before it, left with them at
    the contents after it. Its arrays are split out of the unscoped buffers and put back at what the write-backs
    leave; the generator register goes into the region's invariant and comes back; nothing is owed; the kernel has
    no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VV4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (VV4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (VV4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2' m c)
    unfold Pipeline.ΦA
    iintro ⟨Hp, -, Hr⟩
    isplitl [Hr]; · iexact Hr
    iexact Hp
  hout c := by
    rw [Pipeline.ownSems0_none]
    refine BIBase.Entails.trans (hout2' m c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (VV4 m c) (VV5 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 5 segments in order. -/
abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)),
    .region (reg2 m) ]
/-- @main is the run of the segments. -/
theorem main_run (c : Dev nD) : main (F := F) c = Pipeline.Seg.run (segs m) := (main_chain c).trans (by chain_rfl)

set_option backward.isDefEq.respectTransparency.types false in
/-- THE RUN. From any memory with zero counters every weakly fair execution of @main terminates, nothing faulting,
    and in every final state every unscoped buffer holds the last boundary's contents `W5`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)) :=
  (θ_run defs _ _).mono (fun _ h c => ⟨(h c _ (mem_uc main_arg0 (by decide))).trans (W5_main_arg0 m c),
    (h c _ (mem_uc main_arg1 (by decide))).trans (W5_main_arg1 m c),
    (h c _ (mem_uc main_arg2 (by decide))).trans (W5_main_arg2 m c),
    (h c _ (mem_uc main_arg3 (by decide))).trans (W5_main_arg3 m c),
    (h c _ (mem_uc main_arg4 (by decide))).trans (W5_main_arg4 m c),
    (h c _ (mem_uc main_arg5 (by decide))).trans (W5_main_arg5 m c),
    (h c _ (mem_uc main_arg6 (by decide))).trans (W5_main_arg6 m c),
    (h c _ (mem_uc main_arg7 (by decide))).trans (W5_main_arg7 m c)⟩) (run_all m ρ)

end Cert.KernelIdeal.Hand

end
-- ==== Proof.Spec.lean ====
/-
  What the two programs compute, as functions of the eight argument arrays over the extended reals, entry by entry.

  With x the features [1024, 16384], e the embedding table [16384, 256], W the linear weights [4096, 16384] and b
  their bias, w1 [256, 256], b1, w2 [4096, 256], b2 the two layers of the interaction network:
    S(p, d)     = Σ_f x(p, f) · e(f, d)                      the sum of the weighted embeddings
    Q(p, d)     = Σ_f x(p, f)² · e(f, d)²                    the sum of their squares
    v(p, d)     = ½ · (S(p, d)² − Q(p, d))                   the pairwise interaction vector
    lin(p, o)   = Σ_f x(p, f) · W(o, f) + b(o)               the linear term
    h(p, j)     = max(Σ_d v(p, d) · w1(j, d) + b1(j), 0)     the hidden layer
    inter(p, o) = Σ_j h(p, j) · w2(o, j) + b2(o)             the interaction network's output
    out(p, o)   = lin(p, o) + inter(p, o).
  The constant ½ is kept as the f32 pattern both programs print; sums are plain finite sums, so that how a program
  groups or orders them does not show.
-/
import Idealize.ShloMosaic.Lib.ValueIdx
import Idealize.ShloMosaic.PureOps.Ideal.Laws

noncomputable section

open scoped BigOperators

namespace Cert.Spec

open Idealize.ShloMosaic Idealize.ShloMosaic.ValueIdx

/-- A rank-2 array of extended reals. -/
abbrev Arr2 (a b : ℕ) : Type := (⟨2, ![a, b]⟩ : Shape).Idx → EReal
/-- A rank-1 array of extended reals. -/
abbrev Arr1 (a : ℕ) : Type := (⟨1, ![a]⟩ : Shape).Idx → EReal

/-- The constant ½, as the f32 pattern 0x3F000000. -/
def half : EReal := Ideal.ofBits .f32 0x3F000000#32

/-- S(p, d): the sum over the features of x(p, f) · e(f, d). -/
def sumEmb (x : Arr2 1024 16384) (e : Arr2 16384 256) (p : Fin 1024) (d : Fin 256) : EReal :=
  ∑ f : Fin 16384, x (ix2 p f) * e (ix2 f d)

/-- Q(p, d): the sum over the features of x(p, f)² · e(f, d)². -/
def sumSq (x : Arr2 1024 16384) (e : Arr2 16384 256) (p : Fin 1024) (d : Fin 256) : EReal :=
  ∑ f : Fin 16384, (x (ix2 p f) * x (ix2 p f)) * (e (ix2 f d) * e (ix2 f d))

/-- The interaction vector's entry, ½ · (S² − Q). -/
def ivAt (x : Arr2 1024 16384) (e : Arr2 16384 256) (p : Fin 1024) (d : Fin 256) : EReal :=
  half * (sumEmb x e p d * sumEmb x e p d - sumSq x e p d)

/-- The interaction vector. -/
def iv (x : Arr2 1024 16384) (e : Arr2 16384 256) : Arr2 1024 256 := fun i => ivAt x e (i 0) (i 1)

/-- The linear term's entry. -/
def linAt (x : Arr2 1024 16384) (W : Arr2 4096 16384) (b : Arr1 4096) (p : Fin 1024) (o : Fin 4096) : EReal :=
  (∑ f : Fin 16384, x (ix2 p f) * W (ix2 o f)) + b (ix1 o)

/-- The linear term. -/
def lin (x : Arr2 1024 16384) (W : Arr2 4096 16384) (b : Arr1 4096) : Arr2 1024 4096 := fun i => linAt x W b (i 0) (i 1)

/-- The hidden layer's entry over any interaction vector `v`. -/
def hidAt (v : Arr2 1024 256) (w1 : Arr2 256 256) (b1 : Arr1 256) (p : Fin 1024) (j : Fin 256) : EReal :=
  max ((∑ d : Fin 256, v (ix2 p d) * w1 (ix2 j d)) + b1 (ix1 j)) 0

/-- The interaction network's output entry over any interaction vector `v`. -/
def interAt (v : Arr2 1024 256) (w1 : Arr2 256 256) (b1 : Arr1 256) (w2 : Arr2 4096 256) (b2 : Arr1 4096) (p : Fin 1024) (o : Fin 4096) : EReal :=
  (∑ j : Fin 256, hidAt v w1 b1 p j * w2 (ix2 o j)) + b2 (ix1 o)

/-- The interaction network's output over any interaction vector `v`. -/
def inter (v : Arr2 1024 256) (w1 : Arr2 256 256) (b1 : Arr1 256) (w2 : Arr2 4096 256) (b2 : Arr1 4096) : Arr2 1024 4096 :=
  fun i => interAt v w1 b1 w2 b2 (i 0) (i 1)

/-- The sum of a linear term `l` and the interaction network's output over `v`. -/
def total (l : Arr2 1024 4096) (v : Arr2 1024 256) (w1 : Arr2 256 256) (b1 : Arr1 256) (w2 : Arr2 4096 256) (b2 : Arr1 4096) : Arr2 1024 4096 :=
  fun i => l i + interAt v w1 b1 w2 b2 (i 0) (i 1)

theorem iv_apply (x : Arr2 1024 16384) (e : Arr2 16384 256) (p : Fin 1024) (d : Fin 256) : iv x e (ix2 p d) = ivAt x e p d := rfl
theorem lin_apply (x : Arr2 1024 16384) (W : Arr2 4096 16384) (b : Arr1 4096) (p : Fin 1024) (o : Fin 4096) :
    lin x W b (ix2 p o) = linAt x W b p o := rfl
theorem inter_apply (v : Arr2 1024 256) (w1 : Arr2 256 256) (b1 : Arr1 256) (w2 : Arr2 4096 256) (b2 : Arr1 4096) (p : Fin 1024) (o : Fin 4096) :
    inter v w1 b1 w2 b2 (ix2 p o) = interAt v w1 b1 w2 b2 p o := rfl
theorem total_apply (l : Arr2 1024 4096) (v : Arr2 1024 256) (w1 : Arr2 256 256) (b1 : Arr1 256) (w2 : Arr2 4096 256) (b2 : Arr1 4096) (p : Fin 1024) (o : Fin 4096) :
    total l v w1 b1 w2 b2 (ix2 p o) = l (ix2 p o) + interAt v w1 b1 w2 b2 p o := rfl

end Cert.Spec

end
-- ==== Proof.LibSums.lean ====
/-
  Finite sums regrouped: a sum over `a + b` indices split at `a`; a sum over `T * R` indices as `T` blocks of
  `R` consecutive indices (index `R * t + r`: the position `r` inside a block is the fast coordinate); and the
  block-by-block partial sums an induction over the blocks needs. Everything holds in any additive commutative
  monoid, so in particular on the extended reals with no finiteness side condition.
-/
import Mathlib.Algebra.BigOperators.Fin
import Mathlib.Algebra.BigOperators.Group.Finset.Basic
import Mathlib.Logic.Equiv.Fin.Basic

namespace Cert.Sums

open scoped BigOperators

variable {M : Type*} [AddCommMonoid M]

/-! ## A sum split in two -/

/-- A sum over `a + b` indices is the sum over the first `a` of them plus the sum over the last `b`. -/
theorem sum_split (a b : ℕ) (f : Fin (a + b) → M) :
    ∑ k, f k = ∑ k : Fin a, f (Fin.castAdd b k) + ∑ k : Fin b, f (Fin.natAdd a k) :=
  Fin.sum_univ_add f

/-- A sum over 256 indices is the sum over the indices `k < 128` plus the sum over the indices `128 + k`. -/
theorem sum_split_128_128 (f : Fin 256 → M) :
    ∑ k, f k = ∑ k : Fin 128, f ⟨k.val, by omega⟩ + ∑ k : Fin 128, f ⟨128 + k.val, by omega⟩ :=
  sum_split 128 128 f

/-! ## A sum cut into blocks -/

/-- Position `r < R` of block `t < T` is an index below `T * R`. -/
theorem block_index_lt {T R t r : ℕ} (ht : t < T) (hr : r < R) : R * t + r < T * R := by
  calc R * t + r < R * t + R := by omega
    _ = R * (t + 1) := (Nat.mul_succ R t).symm
    _ ≤ R * T := Nat.mul_le_mul_left _ ht
    _ = T * R := Nat.mul_comm _ _

/-- A sum over `T * R` indices is the sum over the `T` blocks of the sum over the `R` positions of each block;
position `r` of block `t` is the index `R * t + r`. -/
theorem sum_blocks (T R : ℕ) (f : Fin (T * R) → M) :
    ∑ n, f n = ∑ t : Fin T, ∑ r : Fin R, f ⟨R * t.val + r.val, block_index_lt t.isLt r.isLt⟩ := by
  rw [← (finProdFinEquiv (m := T) (n := R)).sum_comp f, Fintype.sum_prod_type]
  refine Finset.sum_congr rfl fun t _ => Finset.sum_congr rfl fun r _ => ?_
  congr 1
  apply Fin.ext
  simp only [finProdFinEquiv_apply_val]
  omega

/-- A sum over 50000 indices is the sum over 25 blocks of 2000: position `r` of block `t` is `2000 * t + r`. -/
theorem sum_blocks_25_2000 (f : Fin 50000 → M) :
    ∑ n, f n = ∑ t : Fin 25, ∑ r : Fin 2000, f ⟨2000 * t.val + r.val, by omega⟩ :=
  sum_blocks 25 2000 f

/-! ## Partial sums, block by block -/

/-- The sum of the first `n` blocks (`n ≤ T`) of a family over `T * R` indices. -/
def prefixBlocks (T R : ℕ) (f : Fin (T * R) → M) (n : ℕ) (hn : n ≤ T) : M :=
  ∑ t : Fin n, ∑ r : Fin R, f ⟨R * t.val + r.val, block_index_lt (lt_of_lt_of_le t.isLt hn) r.isLt⟩

/-- No block: the partial sum is zero. -/
theorem prefixBlocks_zero (T R : ℕ) (f : Fin (T * R) → M) : prefixBlocks T R f 0 (Nat.zero_le T) = 0 := by
  simp [prefixBlocks]

/-- The sum of the first `n + 1` blocks is the sum of the first `n` blocks plus the sum over block `n`. -/
theorem prefixBlocks_succ (T R : ℕ) (f : Fin (T * R) → M) (n : ℕ) (hn : n < T) :
    prefixBlocks T R f (n + 1) hn
      = prefixBlocks T R f n (Nat.le_of_lt hn) + ∑ r : Fin R, f ⟨R * n + r.val, block_index_lt hn r.isLt⟩ := by
  unfold prefixBlocks
  rw [Fin.sum_univ_castSucc]
  rfl

/-- All `T` blocks: the partial sum is the whole sum. -/
theorem prefixBlocks_all (T R : ℕ) (f : Fin (T * R) → M) : prefixBlocks T R f T (Nat.le_refl T) = ∑ n, f n := by
  rw [sum_blocks T R f]; rfl

/-- A running total that starts at zero and, at block `n`, grows by the sum over block `n`, is after the last
block the sum over all `T * R` indices. -/
theorem sum_of_block_recursion (T R : ℕ) (f : Fin (T * R) → M) (acc : ℕ → M) (h0 : acc 0 = 0)
    (hs : ∀ (n : ℕ) (hn : n < T), acc (n + 1) = acc n + ∑ r : Fin R, f ⟨R * n + r.val, block_index_lt hn r.isLt⟩) :
    acc T = ∑ n, f n := by
  have key : ∀ (n : ℕ) (hn : n ≤ T), acc n = prefixBlocks T R f n hn := by
    intro n
    induction n with
    | zero => intro _; rw [h0, prefixBlocks_zero]
    | succ n ih => intro hn; rw [hs n hn, ih (Nat.le_of_lt hn), prefixBlocks_succ]
  rw [key T (Nat.le_refl T), prefixBlocks_all]

/-- The same over sums indexed by natural numbers: the sum over the first `(n + 1) * R` indices is the sum over the
first `n * R` plus the sum over the `R` indices `R * n + r` of block `n`. -/
theorem sum_range_succ_mul (R n : ℕ) (g : ℕ → M) :
    ∑ i ∈ Finset.range ((n + 1) * R), g i
      = ∑ i ∈ Finset.range (n * R), g i + ∑ r ∈ Finset.range R, g (R * n + r) := by
  rw [Nat.succ_mul, Finset.sum_range_add, Nat.mul_comm n R]

/-- 25 blocks of 2000: a running total that starts at zero and at block `n` grows by the sum over the indices
`2000 * n + r` is, after block 24, the sum over all 50000 indices. -/
theorem sum_of_block_recursion_25_2000 (f : Fin 50000 → M) (acc : ℕ → M) (h0 : acc 0 = 0)
    (hs : ∀ (n : ℕ) (hn : n < 25), acc (n + 1) = acc n + ∑ r : Fin 2000, f ⟨2000 * n + r.val, by omega⟩) :
    acc 25 = ∑ n, f n :=
  sum_of_block_recursion 25 2000 f acc h0 hs

end Cert.Sums
-- ==== Proof.LibPlainProduct.lean ====
/-
  A matrix product with one contracted axis, read at an entry over the extended reals: the kernel's product into a
  zero accumulator and the host's product are both the plain sum, over the contracted coordinate, of the left
  operand's row entry times the right operand's column entry — whatever formats the operands carry.
-/
import Idealize.ShloMosaic.Lib.ValueIdx
import Idealize.ShloMosaic.PureOps.Ideal.Laws

namespace Cert.PlainProduct

open Idealize.ShloMosaic Idealize.ShloMosaic.ValueIdx

variable {M K N : ℕ}

/-- The left operand is read at the output's row … -/
theorem lhs_row (j : (⟨2, ![M, N]⟩ : Shape).Idx) (q : (DotDims.plain M K N).contr.Idx) :
    ((DotDims.plain M K N).lhsIdx j q 0).val = (j 0).val := rfl
/-- … and the contracted coordinate; -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- the right operand at the contracted coordinate … -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the output's column. -/
theorem rhs_col (j : (⟨2, ![M, N]⟩ : Shape).Idx) (q : (DotDims.plain M K N).contr.Idx) :
    ((DotDims.plain M K N).rhsIdx j q 1).val = (j 1).val := rfl

/-- The sum over the contraction's index set is the sum over the K values of its one coordinate. -/
theorem sum_contr {φ₁ φ₂ : FTy} (lhs : FVec Ideal ⟨2, ![M, K]⟩ φ₁) (rhs : FVec Ideal ⟨2, ![K, N]⟩ φ₂) (p : Fin M) (q : Fin N) :
    (∑ k : (DotDims.plain M K N).contr.Idx,
        lhs ((DotDims.plain M K N).lhsIdx (ix2 p q) k) * rhs ((DotDims.plain M K N).rhsIdx (ix2 p q) k))
      = ∑ x : Fin K, lhs (ix2 p x) * rhs (ix2 x q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

/-- The kernel's product into the zero accumulator, at (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) :=
  (Ideal.matmul_constant_zero_apply (DotDims.plain M K N) prec lhs rhs (ix2 p q)).trans (sum_contr lhs rhs p q)

/-- The host's product, at (p, q). -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (F := Ideal) (DotDims.plain M K N) prec lhs rhs (ix2 p q)
      = ∑ x : Fin K, lhs (ix2 p x) * rhs (ix2 x q) := by
  simp only [Host.dotGeneral]
  exact (Ideal.dotGeneral_apply (DotDims.plain M K N) prec _ lhs rhs (ix2 p q)).trans (sum_contr lhs rhs p q)

/-- The product of an [M, K] array by a [K, N] array as one array: entry (p, q) is the sum over x of lhs (p, x) · rhs (x, q). -/
noncomputable def prod {φ₁ φ₂ : FTy} (lhs : FVec Ideal ⟨2, ![M, K]⟩ φ₁) (rhs : FVec Ideal ⟨2, ![K, N]⟩ φ₂) :
    FVec Ideal ⟨2, ![M, N]⟩ .f32 :=
  fun i => ∑ x : Fin K, lhs (ix2 (i 0) x) * rhs (ix2 x (i 1))

theorem prod_apply {φ₁ φ₂ : FTy} (lhs : FVec Ideal ⟨2, ![M, K]⟩ φ₁) (rhs : FVec Ideal ⟨2, ![K, N]⟩ φ₂) (p : Fin M) (q : Fin N) :
    prod lhs rhs (ix2 p q) = ∑ x : Fin K, lhs (ix2 p x) * rhs (ix2 x q) := rfl

/-- The host's product is that array. -/
theorem dotGeneral_eq_prod {φ₁ φ₂ : FTy} (prec : Option ContractPrecision)
    (lhs : FVec Ideal ⟨2, ![M, K]⟩ φ₁) (rhs : FVec Ideal ⟨2, ![K, N]⟩ φ₂) :
    Host.dotGeneral (F := Ideal) (DotDims.plain M K N) prec lhs rhs = prod lhs rhs := by
  funext i
  obtain ⟨p, q, rfl⟩ : ∃ (p : Fin M) (q : Fin N), i = ix2 p q := ⟨i 0, i 1, eq_ix2 i⟩
  exact dotGeneral_apply prec lhs rhs p q

end Cert.PlainProduct
-- ==== Proof.KI_Val0.lean ====
/-
  What region 0, the interaction kernel, leaves in its output array, over the extended reals with every operation
  exact. The grid is 2 row blocks × 16 feature blocks, point t = 16·b + f. At point t the body reads the block
  x[512·b + p, 1024·f + k] of the features and the block e[1024·f + k, q] of the table, and adds to its two
  accumulators the block products Σ_k x·e and Σ_k x²·e². So after point 16·b + f the accumulators' entries (p, q)
  are the sums over the first f + 1 feature blocks of row 512·b + p's products with column q (by induction on f:
  zero plus one block at f = 0, one more block at each later f), and after f = 15 they are the full sums S and Q
  over the 16384 features. The last point of a row block stores ½·(S·S − Q) into the output's block (b, 0) and
  writes it back; the two row blocks' last points cover the 1024 rows, so the array ends as the interaction vector
  of the two arrays as the region finds them.
-/
import proofs.«165164_j35055523070100_1_alg».proof.Proof.Gen.KernelIdeal.Launch
import proofs.«165164_j35055523070100_1_alg».proof.Proof.Gen.KernelIdeal.Skeleton
import proofs.«165164_j35055523070100_1_alg».proof.Proof.Gen.KernelIdeal.Points
import proofs.«165164_j35055523070100_1_alg».proof.Proof.KI_Body0
import proofs.«165164_j35055523070100_1_alg».proof.Proof.KI_Dat0
import proofs.«165164_j35055523070100_1_alg».proof.Proof.Spec
import proofs.«165164_j35055523070100_1_alg».proof.Proof.LibSums
import proofs.«165164_j35055523070100_1_alg».proof.Proof.LibPlainProduct
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.ShloMosaic.Pipeline (Dat)
open scoped BigOperators

/-! ## The payloads at an index -/

/-- The reset's first block is zero everywhere. -/
theorem pay1_apply (p : Fin 512) (q : Fin 256) : (k0_pay1 (F := Ideal)) (ix2 p q) = 0 := by
  unfold k0_pay1
  simp only [shapeCast_self]
  exact Ideal.ofBits_zero_f32

/-- The reset's second block is zero everywhere. -/
theorem pay2_apply (p : Fin 512) (q : Fin 256) : (k0_pay2 (F := Ideal)) (ix2 p q) = 0 := by
  unfold k0_pay2
  simp only [shapeCast_self]
  exact Ideal.ofBits_zero_f32

/-- The first accumulator's step at (p, q): what it held plus the block product's entry. -/
theorem pay3_apply (x : Vec Ideal S512x1024 .f32) (e : Vec Ideal S1024x256 .f32) (s : Vec Ideal S512x256 .f32)
    (p : Fin 512) (q : Fin 256) :
    k0_pay3 (F := Ideal) x e s (ix2 p q) = s (ix2 p q) + ∑ k : Fin 1024, x (ix2 p k) * e (ix2 k q) := by
  unfold k0_pay3
  simp only [shapeCast_self]
  refine (addf_apply _ _ (ix2 p q)).trans ?_
  refine congrArg (s (ix2 p q) + ·) ?_
  exact Cert.PlainProduct.matmul_zero_apply (M := 512) (K := 1024) (N := 256) none _ _ p q

/-- The second accumulator's step at (p, q): what it held plus the entry of the product of the squares. -/
theorem pay4_apply (x : Vec Ideal S512x1024 .f32) (e : Vec Ideal S1024x256 .f32) (s : Vec Ideal S512x256 .f32)
    (p : Fin 512) (q : Fin 256) :
    k0_pay4 (F := Ideal) x e s (ix2 p q)
      = s (ix2 p q) + ∑ k : Fin 1024, (x (ix2 p k) * x (ix2 p k)) * (e (ix2 k q) * e (ix2 k q)) := by
  unfold k0_pay4
  simp only [shapeCast_self]
  refine (addf_apply _ _ (ix2 p q)).trans ?_
  refine congrArg (s (ix2 p q) + ·) ?_
  exact Cert.PlainProduct.matmul_zero_apply (M := 512) (K := 1024) (N := 256) none _ _ p q

/-- The stored block at (p, q): ½ · (S · S − Q) of the two accumulators' entries. -/
theorem pay5_apply (a b : Vec Ideal S512x256 .f32) (p : Fin 512) (q : Fin 256) :
    k0_pay5 (F := Ideal) a b (ix2 p q) = Cert.Spec.half * (a (ix2 p q) * a (ix2 p q) - b (ix2 p q)) := by
  unfold k0_pay5 Cert.Spec.half
  rfl

/-! ## The index maps over the grid, and the blocks read off the arrays -/

/-- Point t = 16·b + f reads the features' block (b, f) and the table's block (f, 0), and owns the output's block (b, 0). -/
theorem idx_facts0 : ∀ t : Fin cfg0.N,
    win0_0.index t (0 : Fin 2) = t.val / 16 ∧ win0_0.index t (1 : Fin 2) = t.val % 16
    ∧ win0_1.index t (0 : Fin 2) = t.val % 16 ∧ win0_1.index t (1 : Fin 2) = 0
    ∧ win0_2.index t (0 : Fin 2) = t.val / 16 ∧ win0_2.index t (1 : Fin 2) = 0 :=
  (by decide +kernel : ∀ t : Fin grid0.N, _)

variable (V : (c : Dev nD) → (b : Ref sig .tc) → Buf (Elt Ideal) ((c : Thread nD τ).loc b))

/-- The features' block at a point, the table's block at a point, and the two arrays, at their literal types. -/
abbrev xblk (c : Dev nD) (t : Fin cfg0.N) : Vec Ideal S512x1024 .f32 := iblk0 V c 0 t
abbrev eblk (c : Dev nD) (t : Fin cfg0.N) : Vec Ideal S1024x256 .f32 := iblk0 V c 1 t
abbrev xarr (c : Dev nD) : Cert.Spec.Arr2 1024 16384 := V c main_arg0
abbrev earr (c : Dev nD) : Cert.Spec.Arr2 16384 256 := V c main_arg1

/-- Entry (p, k) of the features' block at point t is entry (512·(t / 16) + p, 1024·(t % 16) + k) of the features. -/
theorem xblk_apply (c : Dev nD) (t : Fin cfg0.N) (p : Fin 512) (k : Fin 1024) (i : (⟨2, ![1024, 16384]⟩ : Shape).Idx)
    (h0 : (i 0).val = 512 * (t.val / 16) + p.val) (h1 : (i 1).val = 1024 * (t.val % 16) + k.val) :
    xblk V c t (ix2 p k) = xarr V c i := by
  obtain ⟨e0, e1, -, -, -, -⟩ := idx_facts0 t
  unfold xblk iblk0
  rw [View.read_apply]
  show V c main_arg0 _ = V c main_arg0 i
  congr 1
  funext a
  apply Fin.ext
  match a with
  | ⟨0, _⟩ => show win0_0.index t (0 : Fin 2) * 512 + 1 * p.val = (i 0).val; rw [e0, h0]; omega
  | ⟨1, _⟩ => show win0_0.index t (1 : Fin 2) * 1024 + 1 * k.val = (i 1).val; rw [e1, h1]; omega

/-- Entry (k, q) of the table's block at point t is entry (1024·(t % 16) + k, q) of the table. -/
theorem eblk_apply (c : Dev nD) (t : Fin cfg0.N) (k : Fin 1024) (q : Fin 256) (i : (⟨2, ![16384, 256]⟩ : Shape).Idx)
    (h0 : (i 0).val = 1024 * (t.val % 16) + k.val) (h1 : (i 1).val = q.val) :
    eblk V c t (ix2 k q) = earr V c i := by
  obtain ⟨-, -, e0, e1, -, -⟩ := idx_facts0 t
  unfold eblk iblk0
  rw [View.read_apply]
  show V c main_arg1 _ = V c main_arg1 i
  congr 1
  funext a
  apply Fin.ext
  match a with
  | ⟨0, _⟩ => show win0_1.index t (0 : Fin 2) * 1024 + 1 * k.val = (i 0).val; rw [e0, h0]; omega
  | ⟨1, _⟩ => show win0_1.index t (1 : Fin 2) * 256 + 1 * q.val = (i 1).val; rw [e1, h1]; omega

/-! ## The accumulators after each point -/

/-- Row r's products with column q of the table, along all the features. -/
def famS (X : Cert.Spec.Arr2 1024 16384) (E : Cert.Spec.Arr2 16384 256) (r : Fin 1024) (q : Fin 256) : Fin (16 * 1024) → EReal :=
  fun k => X (ix2 r ⟨k.val, k.isLt⟩) * E (ix2 ⟨k.val, k.isLt⟩ q)

/-- The same of the squares. -/
def famQ (X : Cert.Spec.Arr2 1024 16384) (E : Cert.Spec.Arr2 16384 256) (r : Fin 1024) (q : Fin 256) : Fin (16 * 1024) → EReal :=
  fun k => (X (ix2 r ⟨k.val, k.isLt⟩) * X (ix2 r ⟨k.val, k.isLt⟩)) * (E (ix2 ⟨k.val, k.isLt⟩ q) * E (ix2 ⟨k.val, k.isLt⟩ q))

/-- The accumulators at a position do not depend on how the position is written. -/
theorem acc0_congr (c : Dev nD) (n n' : ℕ) (h : n = n') (hn : n < cfg0.N) (hn' : n' < cfg0.N) :
    acc0 V c n hn = acc0 V c n' hn' := by
  subst h; rfl

/-- One block's products: the sum over the block's 1024 features of the entries read off the blocks is the sum
    over positions 1024·f + k of the whole row's family. -/
theorem blockS (c : Dev nD) (t : Fin cfg0.N) (b f : ℕ) (hb : t.val / 16 = b) (hf : t.val % 16 = f) (hf16 : f < 16)
    (p : Fin 512) (q : Fin 256) (r : Fin 1024) (hr : r.val = 512 * b + p.val) :
    ∑ k : Fin 1024, xblk V c t (ix2 p k) * eblk V c t (ix2 k q)
      = ∑ k : Fin 1024, famS (xarr V c) (earr V c) r q ⟨1024 * f + k.val, Cert.Sums.block_index_lt hf16 k.isLt⟩ := by
  refine Finset.sum_congr rfl fun k _ => ?_
  unfold famS
  rw [xblk_apply V c t p k (ix2 r ⟨1024 * f + k.val, Cert.Sums.block_index_lt hf16 k.isLt⟩) (by show r.val = _; rw [hr, hb]) (by show 1024 * f + k.val = _; rw [hf]),
    eblk_apply V c t k q (ix2 ⟨1024 * f + k.val, Cert.Sums.block_index_lt hf16 k.isLt⟩ q) (by show 1024 * f + k.val = _; rw [hf]) rfl]

theorem blockQ (c : Dev nD) (t : Fin cfg0.N) (b f : ℕ) (hb : t.val / 16 = b) (hf : t.val % 16 = f) (hf16 : f < 16)
    (p : Fin 512) (q : Fin 256) (r : Fin 1024) (hr : r.val = 512 * b + p.val) :
    ∑ k : Fin 1024, (xblk V c t (ix2 p k) * xblk V c t (ix2 p k)) * (eblk V c t (ix2 k q) * eblk V c t (ix2 k q))
      = ∑ k : Fin 1024, famQ (xarr V c) (earr V c) r q ⟨1024 * f + k.val, Cert.Sums.block_index_lt hf16 k.isLt⟩ := by
  refine Finset.sum_congr rfl fun k _ => ?_
  unfold famQ
  rw [xblk_apply V c t p k (ix2 r ⟨1024 * f + k.val, Cert.Sums.block_index_lt hf16 k.isLt⟩) (by show r.val = _; rw [hr, hb]) (by show 1024 * f + k.val = _; rw [hf]),
    eblk_apply V c t k q (ix2 ⟨1024 * f + k.val, Cert.Sums.block_index_lt hf16 k.isLt⟩ q) (by show 1024 * f + k.val = _; rw [hf]) rfl]

/-- THE INVARIANT: after point 16·b + f the first accumulator's entry (p, q) is the sum over the first f + 1
    feature blocks of row 512·b + p's products with column q, and the second's the same sum of the squares. -/
theorem acc0_inv (c : Dev nD) (b : ℕ) (hb : b < 2) :
    ∀ (f : ℕ) (hf : f < 16) (hn : 16 * b + f < cfg0.N) (p : Fin 512) (q : Fin 256) (r : Fin 1024) (hr : r.val = 512 * b + p.val),
      (acc0 V c (16 * b + f) hn).1 (ix2 p q) = Cert.Sums.prefixBlocks 16 1024 (famS (xarr V c) (earr V c) r q) (f + 1) hf
      ∧ (acc0 V c (16 * b + f) hn).2 (ix2 p q) = Cert.Sums.prefixBlocks 16 1024 (famQ (xarr V c) (earr V c) r q) (f + 1) hf := by
  intro f
  induction f with
  | zero =>
    intro hf hn p q r hr
    have h0 : (⟨16 * b + 0, hn⟩ : Fin cfg0.N).val % 16 = 0 := by show (16 * b + 0) % 16 = 0; omega
    have hdiv : (⟨16 * b + 0, hn⟩ : Fin cfg0.N).val / 16 = b := by show (16 * b + 0) / 16 = b; omega
    have e : acc0 V c (16 * b + 0) hn = step0 (xblk V c ⟨16 * b + 0, hn⟩) (eblk V c ⟨16 * b + 0, hn⟩) (zero0 (F := Ideal)) :=
      acc0_first V c ⟨16 * b + 0, hn⟩ h0
    rw [e]
    constructor
    · show k0_pay3 (F := Ideal) (xblk V c ⟨16 * b + 0, hn⟩) (eblk V c ⟨16 * b + 0, hn⟩) (k0_pay1 (F := Ideal)) (ix2 p q) = _
      refine (pay3_apply (xblk V c ⟨16 * b + 0, hn⟩) (eblk V c ⟨16 * b + 0, hn⟩) (k0_pay1 (F := Ideal)) p q).trans ?_
      rw [pay1_apply, Cert.Sums.prefixBlocks_succ, Cert.Sums.prefixBlocks_zero,
        blockS V c ⟨16 * b + 0, hn⟩ b 0 hdiv h0 hf p q r hr]
    · show k0_pay4 (F := Ideal) (xblk V c ⟨16 * b + 0, hn⟩) (eblk V c ⟨16 * b + 0, hn⟩) (k0_pay2 (F := Ideal)) (ix2 p q) = _
      refine (pay4_apply (xblk V c ⟨16 * b + 0, hn⟩) (eblk V c ⟨16 * b + 0, hn⟩) (k0_pay2 (F := Ideal)) p q).trans ?_
      rw [pay2_apply, Cert.Sums.prefixBlocks_succ, Cert.Sums.prefixBlocks_zero,
        blockQ V c ⟨16 * b + 0, hn⟩ b 0 hdiv h0 hf p q r hr]
  | succ f ih =>
    intro hf hn p q r hr
    have hf' : f < 16 := Nat.lt_of_succ_lt hf
    have hn' : 16 * b + f < cfg0.N := Nat.lt_of_succ_lt hn
    have hmod : (⟨16 * b + (f + 1), hn⟩ : Fin cfg0.N).val % 16 = f + 1 := by show (16 * b + (f + 1)) % 16 = f + 1; omega
    have h0 : ¬(⟨16 * b + (f + 1), hn⟩ : Fin cfg0.N).val % 16 = 0 := by rw [hmod]; omega
    have hdiv : (⟨16 * b + (f + 1), hn⟩ : Fin cfg0.N).val / 16 = b := by show (16 * b + (f + 1)) / 16 = b; omega
    have e : acc0 V c (16 * b + (f + 1)) hn
        = step0 (xblk V c ⟨16 * b + (f + 1), hn⟩) (eblk V c ⟨16 * b + (f + 1), hn⟩) (acc0 V c (16 * b + f) hn') :=
      (acc0_next V c ⟨16 * b + (f + 1), hn⟩ h0).trans
        (congrArg (step0 (xblk V c ⟨16 * b + (f + 1), hn⟩) (eblk V c ⟨16 * b + (f + 1), hn⟩))
          (acc0_congr V c _ _ (by show 16 * b + (f + 1) - 1 = 16 * b + f; omega) _ hn'))
    obtain ⟨ih1, ih2⟩ := ih hf' hn' p q r hr
    rw [e]
    constructor
    · show k0_pay3 (F := Ideal) (xblk V c ⟨16 * b + (f + 1), hn⟩) (eblk V c ⟨16 * b + (f + 1), hn⟩) (acc0 V c (16 * b + f) hn').1 (ix2 p q) = _
      refine (pay3_apply (xblk V c ⟨16 * b + (f + 1), hn⟩) (eblk V c ⟨16 * b + (f + 1), hn⟩) (acc0 V c (16 * b + f) hn').1 p q).trans ?_
      rw [ih1, Cert.Sums.prefixBlocks_succ 16 1024 _ (f + 1) hf,
        blockS V c ⟨16 * b + (f + 1), hn⟩ b (f + 1) hdiv hmod hf p q r hr]
    · show k0_pay4 (F := Ideal) (xblk V c ⟨16 * b + (f + 1), hn⟩) (eblk V c ⟨16 * b + (f + 1), hn⟩) (acc0 V c (16 * b + f) hn').2 (ix2 p q) = _
      refine (pay4_apply (xblk V c ⟨16 * b + (f + 1), hn⟩) (eblk V c ⟨16 * b + (f + 1), hn⟩) (acc0 V c (16 * b + f) hn').2 p q).trans ?_
      rw [ih2, Cert.Sums.prefixBlocks_succ 16 1024 _ (f + 1) hf,
        blockQ V c ⟨16 * b + (f + 1), hn⟩ b (f + 1) hdiv hmod hf p q r hr]

/-- The whole row's sums: the families over 16·1024 positions sum to the specification's sums over the 16384 features. -/
theorem sum_famS (X : Cert.Spec.Arr2 1024 16384) (E : Cert.Spec.Arr2 16384 256) (r : Fin 1024) (q : Fin 256) :
    ∑ k, famS X E r q k = Cert.Spec.sumEmb X E r q := rfl
theorem sum_famQ (X : Cert.Spec.Arr2 1024 16384) (E : Cert.Spec.Arr2 16384 256) (r : Fin 1024) (q : Fin 256) :
    ∑ k, famQ X E r q k = Cert.Spec.sumSq X E r q := rfl

/-- After a row block's last point the accumulators hold the specification's two sums. -/
theorem acc0_last (c : Dev nD) (t : Fin cfg0.N) (h15 : t.val % 16 = 15) (p : Fin 512) (q : Fin 256) (r : Fin 1024)
    (hr : r.val = 512 * (t.val / 16) + p.val) :
    (acc0 V c t.val t.isLt).1 (ix2 p q) = Cert.Spec.sumEmb (xarr V c) (earr V c) r q
    ∧ (acc0 V c t.val t.isLt).2 (ix2 p q) = Cert.Spec.sumSq (xarr V c) (earr V c) r q := by
  have hN : t.val < 32 := lt_of_lt_of_eq t.isLt (show cfg0.N = 32 from N_0)
  have hb : t.val / 16 < 2 := by omega
  have ht : t.val = 16 * (t.val / 16) + 15 := by omega
  have hn : 16 * (t.val / 16) + 15 < cfg0.N := lt_of_eq_of_lt ht.symm t.isLt
  obtain ⟨i1, i2⟩ := acc0_inv V c (t.val / 16) hb 15 (by decide) hn p q r hr
  rw [acc0_congr V c t.val _ ht t.isLt hn, i1, i2, Cert.Sums.prefixBlocks_all, Cert.Sums.prefixBlocks_all, sum_famS, sum_famQ]
  exact ⟨rfl, rfl⟩

/-! ## From the blocks to the array -/

/-- WHAT A ROW BLOCK'S LAST POINT WRITES BACK is its block of the interaction vector of the two arrays. -/
theorem flushed0_2_eq (c : Dev nD) (t : Fin cfg0.N) (hfl : (cfg0.win 2).flush t = true) :
    (dat0 (F := Ideal) V c).flushed 2 t
      = ((cfg0.win 2).blk t).view.read (Elt Ideal) (Cert.Spec.iv (xarr V c) (earr V c)) := by
  have h15 : t.val % 16 = 15 := (flush0_2 t).mp hfl
  have hN : t.val < 32 := lt_of_lt_of_eq t.isLt (show cfg0.N = 32 from N_0)
  obtain ⟨-, -, -, -, e0, e1⟩ := idx_facts0 t
  show (cfg0.win 2).cut (grid0.coords t) ((dat0 (F := Ideal) V c).after 2 t) = _
  rw [after0_2]
  funext j
  obtain ⟨p, q, rfl⟩ : ∃ (p : Fin 512) (q : Fin 256), j = ix2 p q := ⟨j 0, j 1, eq_ix2 j⟩
  show k0_pay5 (F := Ideal) (acc0 V c t.val t.isLt).1 (acc0 V c t.val t.isLt).2 (ix2 p q)
    = Cert.Spec.iv (xarr V c) (earr V c) (((cfg0.win 2).blk t).view.emb (ix2 p q))
  have hemb : ((cfg0.win 2).blk t).view.emb (ix2 p q)
      = ix2 (⟨512 * (t.val / 16) + p.val, by omega⟩ : Fin 1024) q := by
    funext a
    apply Fin.ext
    match a with
    | ⟨0, _⟩ => show win0_2.index t (0 : Fin 2) * 512 + 1 * p.val = 512 * (t.val / 16) + p.val; rw [e0]; omega
    | ⟨1, _⟩ => show win0_2.index t (1 : Fin 2) * 256 + 1 * q.val = q.val; rw [e1]; omega
  obtain ⟨a1, a2⟩ := acc0_last V c t h15 p q ⟨512 * (t.val / 16) + p.val, by omega⟩ rfl
  rw [hemb, Cert.Spec.iv_apply]
  refine (pay5_apply (acc0 V c t.val t.isLt).1 (acc0 V c t.val t.isLt).2 p q).trans ?_
  rw [a1, a2]
  rfl

/-- An index of the output is in point t's block iff each coordinate is in the block's range on its axis. -/
theorem mem_blk0_2 (t : Fin cfg0.N) (i : S1024x256.Idx) :
    i ∈ ((cfg0.win 2).blk t).view.set
      ↔ ∀ a : Fin 2, win0_2.index t a * S512x256.size a ≤ (i a).val ∧ (i a).val < win0_2.index t a * S512x256.size a + S512x256.size a := by
  show i ∈ ((View.whole main_v0).slice (win0_2.rect t)).set ↔ _
  rw [View.set_slice_whole, Rect.mem_set_unit]
  exact Iff.rfl

/-- Every index of the output is in the block some row block's last point writes back: row r is in row block r / 512. -/
theorem cover0_2 (i : S1024x256.Idx) :
    ∃ t : Fin cfg0.N, (cfg0.win 2).flush t = true ∧ i ∈ ((cfg0.win 2).blk t).view.set := by
  have hi0 : (i 0).val < 1024 := (i 0).isLt
  have hi1 : (i 1).val < 256 := (i 1).isLt
  have hN : cfg0.N = 32 := N_0
  refine ⟨⟨16 * ((i 0).val / 512) + 15, by rw [hN]; omega⟩, (flush0_2 _).mpr (by show (16 * ((i 0).val / 512) + 15) % 16 = 15; omega), ?_⟩
  obtain ⟨-, -, -, -, e0, e1⟩ := idx_facts0 ⟨16 * ((i 0).val / 512) + 15, by rw [hN]; omega⟩
  have d : (16 * ((i 0).val / 512) + 15) / 16 = (i 0).val / 512 := by omega
  rw [mem_blk0_2]
  intro a
  match a with
  | ⟨0, _⟩ =>
    show win0_2.index _ (0 : Fin 2) * 512 ≤ (i 0).val ∧ (i 0).val < win0_2.index _ (0 : Fin 2) * 512 + 512
    rw [e0]; show (16 * ((i 0).val / 512) + 15) / 16 * 512 ≤ (i 0).val ∧ (i 0).val < (16 * ((i 0).val / 512) + 15) / 16 * 512 + 512
    rw [d]; omega
  | ⟨1, _⟩ =>
    show win0_2.index _ (1 : Fin 2) * 256 ≤ (i 1).val ∧ (i 1).val < win0_2.index _ (1 : Fin 2) * 256 + 256
    rw [e1]; omega

/-- THE OUTPUT ARRAY after region 0: the interaction vector of the features and the table as the region finds them. -/
theorem iv_final (c : Dev nD) :
    (dat0 (F := Ideal) V c).arrAt 2 cfg0.N = Cert.Spec.iv (V c main_arg0) (V c main_arg1) :=
  (dat0 (F := Ideal) V c).arrAt_eq_of_cover 2 (Cert.Spec.iv (xarr V c) (earr V c)) (flushed0_2_eq V c) cover0_2

end Cert.KernelIdeal.HandVal

end
-- ==== Proof.KI_Val1.lean ====
/-
  Region 1, the linear kernel: what its output array holds afterwards, over the extended reals.

  The grid is 2 blocks of 2048 output columns × 64 blocks of 256 features, point t = 64·o + f. At point t the body
  reads the features' block x[0:1024, 256f : 256f+256], the weights' block W[2048o : 2048o+2048, 256f : 256f+256] and
  the bias row's block b[2048o : 2048o+2048], and adds to its accumulator (zero at f = 0) the block's product
      Σ_{k<256} x(r, 256f + k) · W(2048o + q, 256f + k)        at entry (r, q).
  So after point 64·o + f the accumulator's entry (r, q) is the sum of the products x(r, k) · W(2048o + q, k) over
  the first (f + 1)·256 features k (by induction on f), and after f = 63 the sum over all 16384 features. The point
  f = 63 stores the accumulator plus the bias row into the output's block of columns 2048o … 2048o + 2047; the two
  such points cover the output. Hence the output array is the linear term
      lin(r, j) = Σ_k x(r, k) · W(j, k) + b(j)
  of the arrays as the region finds them. Sums over the extended reals are regrouped freely (addition is
  commutative and associative there); nothing is distributed or cancelled.
-/
import proofs.«165164_j35055523070100_1_alg».proof.Proof.KI_Dat1
import proofs.«165164_j35055523070100_1_alg».proof.Proof.Spec
import proofs.«165164_j35055523070100_1_alg».proof.Proof.LibSums
import proofs.«165164_j35055523070100_1_alg».proof.Proof.LibPlainProduct
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Group.Finset.Basic

set_option maxRecDepth 16384

noncomputable section

open scoped BigOperators

namespace Cert.KernelIdeal.HandVal.Lin

open Cert.KernelIdeal Cert.KernelIdeal.Gen Cert.KernelIdeal.Hand
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The printed product record is the plain [1024, 256] · [256, 2048] product. -/
theorem dot_eq_plain : dot_S1024x256_S256x2048_S1024x2048_1_0_0_1_n_n = DotDims.plain 1024 256 2048 := rfl

/-- The printed index maps over the grid: at point t the feature block is t % 64 and the block of output
    columns t / 64. -/
theorem blockIndices : ∀ t : Fin cfg1.N,
    win1_0.index t (0 : Fin 2) = 0 ∧ win1_0.index t (1 : Fin 2) = t.val % 64
    ∧ win1_1.index t (0 : Fin 2) = t.val / 64 ∧ win1_1.index t (1 : Fin 2) = t.val % 64
    ∧ win1_2.index t (0 : Fin 2) = 0 ∧ win1_2.index t (1 : Fin 2) = t.val / 64
    ∧ win1_3.index t (0 : Fin 2) = 0 ∧ win1_3.index t (1 : Fin 2) = t.val / 64 :=
  (by decide +kernel : ∀ t : Fin grid1.N, _)

theorem pointCount : cfg1.N = 128 := N_1

/-- The feature block read at point t: rows as they are, features 256·(t % 64) + k. -/
theorem xblk_apply (c : Dev nD) (t : Fin cfg1.N) (p : Fin 1024) (k : Fin 256) (i : S1024x16384.Idx)
    (h0 : (i 0).val = p.val) (h1 : (i 1).val = 256 * (t.val % 64) + k.val) :
    (iblk1 V c 0 t : Vec Ideal S1024x256 .f32) (ix2 p k) = V c main_arg0 i := by
  obtain ⟨e0, e1, -⟩ := blockIndices t
  unfold iblk1
  rw [View.read_apply]
  show V c main_arg0 _ = V c main_arg0 i
  congr 1
  funext a
  apply Fin.ext
  match a with
  | ⟨0, _⟩ => show win1_0.index t (0 : Fin 2) * 1024 + 1 * p.val = (i 0).val; rw [e0, h0]; omega
  | ⟨1, _⟩ => show win1_0.index t (1 : Fin 2) * 256 + 1 * k.val = (i 1).val; rw [e1, h1]; omega

/-- The weight block read at point t: rows 2048·(t / 64) + q, features 256·(t % 64) + k. -/
theorem wblk_apply (c : Dev nD) (t : Fin cfg1.N) (q : Fin 2048) (k : Fin 256) (i : S4096x16384.Idx)
    (h0 : (i 0).val = 2048 * (t.val / 64) + q.val) (h1 : (i 1).val = 256 * (t.val % 64) + k.val) :
    (iblk1 V c 1 t : Vec Ideal S2048x256 .f32) (ix2 q k) = V c main_arg2 i := by
  obtain ⟨-, -, e0, e1, -⟩ := blockIndices t
  unfold iblk1
  rw [View.read_apply]
  show V c main_arg2 _ = V c main_arg2 i
  congr 1
  funext a
  apply Fin.ext
  match a with
  | ⟨0, _⟩ => show win1_1.index t (0 : Fin 2) * 2048 + 1 * q.val = (i 0).val; rw [e0, h0]; omega
  | ⟨1, _⟩ => show win1_1.index t (1 : Fin 2) * 256 + 1 * k.val = (i 1).val; rw [e1, h1]; omega

/-- The bias block read at point t: the one row, columns 2048·(t / 64) + q. -/
theorem bblk_apply (c : Dev nD) (t : Fin cfg1.N) (q : Fin 2048) (i : S1x4096.Idx)
    (h1 : (i 1).val = 2048 * (t.val / 64) + q.val) :
    (iblk1 V c 2 t : Vec Ideal S1x2048 .f32) (ix2 (0 : Fin 1) q) = V c main_v1 i := by
  obtain ⟨-, -, -, -, e0, e1, -⟩ := blockIndices t
  unfold iblk1
  rw [View.read_apply]
  show V c main_v1 _ = V c main_v1 i
  congr 1
  funext a
  apply Fin.ext
  match a with
  | ⟨0, _⟩ => show win1_2.index t (0 : Fin 2) * 1 + 1 * 0 = (i 0).val; rw [e0]; have h : (i 0).val < 1 := (i 0).isLt; omega
  | ⟨1, _⟩ => show win1_2.index t (1 : Fin 2) * 2048 + 1 * q.val = (i 1).val; rw [e1, h1]; omega

/-! ## The payloads at an entry -/

/-- The reset value is zero everywhere. -/
theorem pay1_apply (r : Fin 1024) (q : Fin 2048) : (k1_pay1 (F := Ideal)) (ix2 r q) = 0 := by
  unfold k1_pay1
  rw [shapeCast_self]
  exact (broadcast_apply _ _).trans Ideal.ofBits_zero_f32

/-- One step of the accumulator: what was there plus the block's product, the sum over the block's 256 features of
    x(r, k) · w(q, k). -/
theorem pay2_apply (x : Vec Ideal S1024x256 .f32) (w : Vec Ideal S2048x256 .f32) (s : Vec Ideal S1024x2048 .f32)
    (r : Fin 1024) (q : Fin 2048) :
    k1_pay2 x w s (ix2 r q) = s (ix2 r q) + ∑ k : Fin 256, x (ix2 r k) * w (ix2 q k) := by
  unfold k1_pay2
  rw [shapeCast_self]
  refine (addf_apply _ _ _).trans ?_
  refine congrArg (fun z => s (ix2 r q) + z) ?_
  rw [dot_eq_plain]
  refine (Cert.PlainProduct.matmul_zero_apply (M := 1024) (K := 256) (N := 2048) none _ _ r q).trans ?_
  refine Finset.sum_congr rfl fun k _ => ?_
  refine congr (congrArg _ (truncf_apply x bitsLt_bf16_f32 (ix2 r k))) ?_
  exact (transpose_ix2_apply _ transposes_S2048x256_p1_0_S256x2048 k q).trans (truncf_apply w bitsLt_bf16_f32 (ix2 q k))

/-- The stored output: the accumulator plus the bias row's entry of the column. -/
theorem pay3_apply (a : Vec Ideal S1024x2048 .f32) (b : Vec Ideal S1x2048 .f32) (r : Fin 1024) (q : Fin 2048) :
    k1_pay3 a b (ix2 r q) = a (ix2 r q) + b (ix2 (0 : Fin 1) q) := by
  unfold k1_pay3
  rw [shapeCast_self]
  refine (addf_apply _ _ _).trans ?_
  exact congrArg (fun z => a (ix2 r q) + z) (broadcastTo_1b_ab_apply b broadcasts_S1x2048_S1024x2048 r q)

/-! ## The accumulator between points -/

/-- The features, the weights and the bias row as the region finds them. -/
abbrev xarr (c : Dev nD) : Cert.Spec.Arr2 1024 16384 := V c main_arg0
abbrev warr (c : Dev nD) : Cert.Spec.Arr2 4096 16384 := V c main_arg2
abbrev brow (c : Dev nD) : Cert.Spec.Arr2 1 4096 := V c main_v1

/-- The products the linear term of entry (r, j) sums, one per feature. -/
def terms (c : Dev nD) (r : Fin 1024) (j : Fin 4096) : Fin 16384 → EReal :=
  fun k => xarr V c (ix2 r k) * warr V c (ix2 j k)

theorem terms_apply (c : Dev nD) (r : Fin 1024) (j : Fin 4096) (k : Fin 16384) :
    terms V c r j k = xarr V c (ix2 r k) * warr V c (ix2 j k) := rfl

/-- The accumulator does not depend on how its position is written. -/
theorem acc1_congr (c : Dev nD) (n n' : ℕ) (h : n = n') (hn : n < cfg1.N) (hn' : n' < cfg1.N) :
    acc1 V c n hn = acc1 V c n' hn' := by subst h; rfl

/-- The feature block and the weight block at a point, as vectors of their literal shapes. -/
abbrev xblk (c : Dev nD) (t : Fin cfg1.N) : Vec Ideal S1024x256 .f32 := iblk1 V c 0 t
abbrev wblk (c : Dev nD) (t : Fin cfg1.N) : Vec Ideal S2048x256 .f32 := iblk1 V c 1 t

/-- The product of the blocks at point t = 64·o + f, at (r, q): the sum over feature block f of the products of
    entry (r, 2048·o + q). -/
theorem blockProduct (c : Dev nD) (o : Fin 2) (f : ℕ) (hf : f < 64) (hn : 64 * o.val + f < cfg1.N)
    (r : Fin 1024) (q : Fin 2048) (j : Fin 4096) (hj : j.val = 2048 * o.val + q.val) :
    (∑ k : Fin 256, xblk V c ⟨64 * o.val + f, hn⟩ (ix2 r k) * wblk V c ⟨64 * o.val + f, hn⟩ (ix2 q k))
      = ∑ k : Fin 256, (terms V c r j : Fin (64 * 256) → EReal) ⟨256 * f + k.val, Cert.Sums.block_index_lt hf k.isLt⟩ := by
  refine Finset.sum_congr rfl fun k _ => ?_
  have hk := k.isLt
  have ho := o.isLt
  refine congr (congrArg _ ?_) ?_
  · exact xblk_apply V c ⟨64 * o.val + f, hn⟩ r k (ix2 r ⟨256 * f + k.val, by omega⟩) rfl
      (by show 256 * f + k.val = 256 * ((64 * o.val + f) % 64) + k.val; omega)
  · exact wblk_apply V c ⟨64 * o.val + f, hn⟩ q k (ix2 j ⟨256 * f + k.val, by omega⟩)
      (by show j.val = 2048 * ((64 * o.val + f) / 64) + q.val; omega)
      (by show 256 * f + k.val = 256 * ((64 * o.val + f) % 64) + k.val; omega)

/-- THE INVARIANT: after point 64·o + f the accumulator's entry (r, q) is the sum, over the feature blocks 0 … f, of
    the products of entry (r, 2048·o + q). -/
theorem acc_inv (c : Dev nD) (o : Fin 2) (r : Fin 1024) (q : Fin 2048) (j : Fin 4096) (hj : j.val = 2048 * o.val + q.val) :
    ∀ (f : ℕ) (hf : f < 64) (hn : 64 * o.val + f < cfg1.N),
      acc1 V c (64 * o.val + f) hn (ix2 r q) = Cert.Sums.prefixBlocks 64 256 (terms V c r j) (f + 1) hf := by
  intro f
  induction f with
  | zero =>
    intro hf hn
    have h0 : (⟨64 * o.val + 0, hn⟩ : Fin cfg1.N).val % 64 = 0 := by show (64 * o.val + 0) % 64 = 0; omega
    rw [show acc1 V c (64 * o.val + 0) hn = _ from acc1_first V c ⟨64 * o.val + 0, hn⟩ h0]
    refine (pay2_apply (iblk1 V c 0 ⟨64 * o.val + 0, hn⟩) (iblk1 V c 1 ⟨64 * o.val + 0, hn⟩) (k1_pay1 (F := Ideal)) r q).trans ?_
    rw [pay1_apply, Cert.Sums.prefixBlocks_succ, Cert.Sums.prefixBlocks_zero]
    exact congrArg (fun z => (0 : EReal) + z) (blockProduct V c o 0 hf hn r q j hj)
  | succ f ih =>
    intro hf hn
    have hN : cfg1.N = 128 := pointCount
    have hn' : 64 * o.val + f < cfg1.N := by omega
    have h0 : ¬(⟨64 * o.val + (f + 1), hn⟩ : Fin cfg1.N).val % 64 = 0 := by show ¬(64 * o.val + (f + 1)) % 64 = 0; omega
    rw [show acc1 V c (64 * o.val + (f + 1)) hn = _ from acc1_next V c ⟨64 * o.val + (f + 1), hn⟩ h0]
    refine (pay2_apply (iblk1 V c 0 ⟨64 * o.val + (f + 1), hn⟩) (iblk1 V c 1 ⟨64 * o.val + (f + 1), hn⟩) _ r q).trans ?_
    rw [Cert.Sums.prefixBlocks_succ 64 256 (terms V c r j) (f + 1) hf]
    refine congr (congrArg _ ?_) (blockProduct V c o (f + 1) hf hn r q j hj)
    refine (congrFun (acc1_congr V c _ (64 * o.val + f) (by show 64 * o.val + (f + 1) - 1 = 64 * o.val + f; omega) _ hn') (ix2 r q)).trans ?_
    exact ih (by omega) hn'

/-! ## The stored block, and the array -/

/-- The bias as a rank-1 array, read off its [1, 4096] row. -/
abbrev bias (c : Dev nD) : Cert.Spec.Arr1 4096 := fun j => V c main_v1 (ix2 (0 : Fin 1) (j 0))

/-- The bias block at a point, as a vector of its literal shape. -/
abbrev bblk (c : Dev nD) (t : Fin cfg1.N) : Vec Ideal S1x2048 .f32 := iblk1 V c 2 t

/-- What a last feature block stores at (r, q): the linear term's entry (r, 2048·(t / 64) + q). -/
theorem stored_apply (c : Dev nD) (t : Fin cfg1.N) (h : t.val % 64 = 63) (r : Fin 1024) (q : Fin 2048) (j : Fin 4096)
    (hj : j.val = 2048 * (t.val / 64) + q.val) :
    k1_pay3 (acc1 V c t.val t.isLt) (bblk V c t) (ix2 r q) = Cert.Spec.linAt (xarr V c) (warr V c) (bias V c) r j := by
  have hN : cfg1.N = 128 := pointCount
  have ht := t.isLt
  refine (pay3_apply (acc1 V c t.val t.isLt) (bblk V c t) r q).trans ?_
  unfold Cert.Spec.linAt
  refine congr (congrArg _ ?_) ?_
  · have hn : 64 * (⟨t.val / 64, by omega⟩ : Fin 2).val + 63 < cfg1.N := by show 64 * (t.val / 64) + 63 < cfg1.N; omega
    refine (congrFun (acc1_congr V c t.val (64 * (⟨t.val / 64, by omega⟩ : Fin 2).val + 63)
      (by show t.val = 64 * (t.val / 64) + 63; omega) t.isLt hn) (ix2 r q)).trans ?_
    refine (acc_inv V c ⟨t.val / 64, by omega⟩ r q j hj 63 (by omega) hn).trans ?_
    exact Cert.Sums.prefixBlocks_all 64 256 (terms V c r j)
  · exact bblk_apply V c t q (ix2 (0 : Fin 1) j) hj

/-- WHAT A LAST FEATURE BLOCK WRITES BACK is its block of the linear term of the arrays as the region finds them. -/
theorem writtenBack_eq (c : Dev nD) (t : Fin cfg1.N) (hf : (cfg1.win 3).flush t = true) :
    (dat1 V c).flushed 3 t
      = ((cfg1.win 3).blk t).view.read (Elt Ideal) (Cert.Spec.lin (xarr V c) (warr V c) (bias V c)) := by
  have h63 : t.val % 64 = 63 := (flush1_3 t).mp hf
  have hN : cfg1.N = 128 := pointCount
  have ht := t.isLt
  obtain ⟨-, -, -, -, -, -, e0, e1⟩ := blockIndices t
  show (cfg1.win 3).cut (grid1.coords t) ((dat1 V c).after 3 t) = _
  rw [after1_3]
  funext y
  have hy0 : (y 0).val < 1024 := (y 0).isLt
  have hy1 : (y 1).val < 2048 := (y 1).isLt
  rw [View.read_apply]
  have el : (cfg1.win 3).xinj (grid1.coords t) y = ix2 (⟨(y 0).val, hy0⟩ : Fin 1024) (⟨(y 1).val, hy1⟩ : Fin 2048) :=
    funext fun a => match a with
      | ⟨0, _⟩ => rfl
      | ⟨1, _⟩ => rfl
  have er : ((cfg1.win 3).blk t).view.emb y
      = ix2 (⟨(y 0).val, hy0⟩ : Fin 1024) (⟨2048 * (t.val / 64) + (y 1).val, by omega⟩ : Fin 4096) :=
    funext fun a => Fin.ext (by
      match a with
      | ⟨0, _⟩ => show win1_3.index t (0 : Fin 2) * 1024 + 1 * (y 0).val = (y 0).val; rw [e0]; omega
      | ⟨1, _⟩ => show win1_3.index t (1 : Fin 2) * 2048 + 1 * (y 1).val = 2048 * (t.val / 64) + (y 1).val; rw [e1]; omega)
  show k1_pay3 (acc1 V c t.val t.isLt) (bblk V c t) ((cfg1.win 3).xinj (grid1.coords t) y)
    = Cert.Spec.lin (xarr V c) (warr V c) (bias V c) (((cfg1.win 3).blk t).view.emb y)
  rw [el, er, Cert.Spec.lin_apply]
  exact stored_apply V c t h63 ⟨(y 0).val, hy0⟩ ⟨(y 1).val, hy1⟩ ⟨2048 * (t.val / 64) + (y 1).val, by omega⟩ rfl

/-- An index of the output array is in point t's block iff each coordinate is in the block's range on its axis. -/
theorem mem_outBlock (t : Fin cfg1.N) (i : S1024x4096.Idx) :
    i ∈ ((cfg1.win 3).blk t).view.set
      ↔ ∀ a : Fin 2, win1_3.index t a * S1024x2048.size a ≤ (i a).val ∧ (i a).val < win1_3.index t a * S1024x2048.size a + S1024x2048.size a := by
  show i ∈ ((View.whole main_v2).slice (win1_3.rect t)).set ↔ _
  rw [View.set_slice_whole, Rect.mem_set_unit]
  exact Iff.rfl

/-- Every entry of the output is written back: column j by the last feature block of column block j / 2048. -/
theorem every_entry_written (i : S1024x4096.Idx) : ∃ t : Fin cfg1.N, (cfg1.win 3).flush t = true ∧ i ∈ ((cfg1.win 3).blk t).view.set := by
  have hN : cfg1.N = 128 := pointCount
  have hi0 : (i 0).val < 1024 := (i 0).isLt
  have hi1 : (i 1).val < 4096 := (i 1).isLt
  have hlt : 64 * ((i 1).val / 2048) + 63 < cfg1.N := by omega
  obtain ⟨-, -, -, -, -, -, e0, e1⟩ := blockIndices ⟨64 * ((i 1).val / 2048) + 63, hlt⟩
  have e1' : win1_3.index ⟨64 * ((i 1).val / 2048) + 63, hlt⟩ (1 : Fin 2) = (i 1).val / 2048 := by
    rw [e1]; show (64 * ((i 1).val / 2048) + 63) / 64 = (i 1).val / 2048; omega
  refine ⟨⟨64 * ((i 1).val / 2048) + 63, hlt⟩, (flush1_3 _).mpr (by show (64 * ((i 1).val / 2048) + 63) % 64 = 63; omega), ?_⟩
  rw [mem_outBlock]
  intro a
  match a with
  | ⟨0, _⟩ =>
    show win1_3.index ⟨64 * ((i 1).val / 2048) + 63, hlt⟩ (0 : Fin 2) * 1024 ≤ (i 0).val
      ∧ (i 0).val < win1_3.index ⟨64 * ((i 1).val / 2048) + 63, hlt⟩ (0 : Fin 2) * 1024 + 1024
    rw [e0]; omega
  | ⟨1, _⟩ =>
    show win1_3.index ⟨64 * ((i 1).val / 2048) + 63, hlt⟩ (1 : Fin 2) * 2048 ≤ (i 1).val
      ∧ (i 1).val < win1_3.index ⟨64 * ((i 1).val / 2048) + 63, hlt⟩ (1 : Fin 2) * 2048 + 2048
    rw [e1']; omega

/-- THE OUTPUT ARRAY after the region: the linear term of the features, the weights and the bias as the region
    finds them. -/
theorem lin_final (c : Dev nD) :
    (dat1 (F := Ideal) V c).arrAt 3 cfg1.N
      = Cert.Spec.lin (V c main_arg0) (V c main_arg2) (fun j => V c main_v1 (ix2 (0 : Fin 1) (j 0))) :=
  (dat1 (F := Ideal) V c).arrAt_eq_of_cover 3 (Cert.Spec.lin (xarr V c) (warr V c) (bias V c))
    (fun t hf => writtenBack_eq V c t hf) every_entry_written

end Cert.KernelIdeal.HandVal.Lin

end
-- ==== Proof.KI_Val2.lean ====
/-
  Region 2, the kernel of the interaction network, read as a function of the arrays it finds.

  The grid is 8 row blocks of 128 rows. At point t the body computes, from rows 128 t … 128 t + 127 of the
  interaction vector v, the two weight matrices w1, w2 and the two bias rows b1, b2,
    h(p, j)     = max(Σ_d v(p, d) · w1(j, d) + b1(j), 0)
    inter(p, o) = Σ_j h(p, j) · w2(o, j) + b2(o)
  (each product into a zero accumulator with the weights transposed, so a weight array is read at (j, d) and (o, j);
  a format change is the identity on extended reals; a bias row repeated down the rows is read at its column), and
  the linear term's entry plus inter(p, o). Both are written back at every point; the row blocks tile the 1024 rows,
  so after the region the two output arrays are the specification's interaction output and total, entry by entry.
-/
import proofs.«165164_j35055523070100_1_alg».proof.Proof.KI_Dat2
import proofs.«165164_j35055523070100_1_alg».proof.Proof.Spec
import proofs.«165164_j35055523070100_1_alg».proof.Proof.LibPlainProduct
import Idealize.ShloMosaic.Lib.Pipeline.Value
import Idealize.ShloMosaic.Lib.ValueIdx
import Idealize.ShloMosaic.PureOps.Ideal.Laws

noncomputable section

open scoped BigOperators

namespace Cert.KernelIdeal.HandVal

open Cert.KernelIdeal Cert.KernelIdeal.Gen Cert.KernelIdeal.Hand Idealize.ShloMosaic Idealize.ShloMosaic.ValueIdx
open Idealize.ShloMosaic.TcCoe
open Idealize.ShloMosaic.Pipeline (Dat)

/-! ## The layout operations of the body, read at an entry -/

/-- The transposed first-layer weights at (d, j) are the weights at (j, d). -/
theorem k2_transpose_w1 {α : Type} (w : S256x256.Idx → α) (d j : Fin 256) :
    transpose S256x256 [1, 0] w transposes_S256x256_p1_0_S256x256 (ix2 d j) = w (ix2 j d) :=
  transpose_apply [1, 0] w transposes_S256x256_p1_0_S256x256 (ix2 d j) (ix2 j d) (fun b => match b with
    | ⟨0, _⟩ => rfl
    | ⟨1, _⟩ => rfl)

/-- The transposed second-layer weights at (j, o) are the weights at (o, j). -/
theorem k2_transpose_w2 {α : Type} (w : S4096x256.Idx → α) (j : Fin 256) (o : Fin 4096) :
    transpose S256x4096 [1, 0] w transposes_S4096x256_p1_0_S256x4096 (ix2 j o) = w (ix2 o j) :=
  transpose_apply [1, 0] w transposes_S4096x256_p1_0_S256x4096 (ix2 j o) (ix2 o j) (fun b => match b with
    | ⟨0, _⟩ => rfl
    | ⟨1, _⟩ => rfl)

/-- The first bias row, repeated down the 128 rows, is read at its column. -/
theorem k2_bcast_b1 {α : Type} (b : S1x256.Idx → α) (p : Fin 128) (j : Fin 256) :
    broadcastTo S128x256 b broadcasts_S1x256_S128x256 (ix2 p j) = b (ix2 (0 : Fin 1) j) :=
  broadcastTo_apply b broadcasts_S1x256_S128x256 (ix2 p j) (ix2 (0 : Fin 1) j) (fun a => match a with
    | ⟨0, _⟩ => by show 0 = if (1 : Nat) = 1 then 0 else p.val; rw [if_pos rfl]
    | ⟨1, _⟩ => by show j.val = if (256 : Nat) = 1 then 0 else j.val; rw [if_neg (by decide)])

/-- The second bias row, repeated down the 128 rows, is read at its column. -/
theorem k2_bcast_b2 {α : Type} (b : S1x4096.Idx → α) (p : Fin 128) (o : Fin 4096) :
    broadcastTo S128x4096 b broadcasts_S1x4096_S128x4096 (ix2 p o) = b (ix2 (0 : Fin 1) o) :=
  broadcastTo_apply b broadcasts_S1x4096_S128x4096 (ix2 p o) (ix2 (0 : Fin 1) o) (fun a => match a with
    | ⟨0, _⟩ => by show 0 = if (1 : Nat) = 1 then 0 else p.val; rw [if_pos rfl]
    | ⟨1, _⟩ => by show o.val = if (4096 : Nat) = 1 then 0 else o.val; rw [if_neg (by decide)])

/-! ## The body's arithmetic at an entry -/

/-- A row-block operand times the transposed first-layer weights, into zero: at (p, j) the sum over d of the operand at
    (p, d) times the weights at (j, d). -/
theorem k2_prod_w1T {φ ψ : FTy} (x : FVec Ideal S128x256 φ) (w : FVec Ideal S256x256 ψ) (p : Fin 128) (j : Fin 256) :
    matmul (F := Ideal) (DotDims.plain 128 256 256) none x (transpose S256x256 [1, 0] w transposes_S256x256_p1_0_S256x256)
        (constant (F := Ideal) S128x256 .f32 0x00000000#32) (ix2 p j)
      = ∑ d : Fin 256, x (ix2 p d) * w (ix2 j d) := by
  rw [Cert.PlainProduct.matmul_zero_apply]
  exact Finset.sum_congr rfl fun d _ => by rw [k2_transpose_w1]

/-- A row-block operand times the transposed second-layer weights, into zero: at (p, o) the sum over j of the operand
    at (p, j) times the weights at (o, j). -/
theorem k2_prod_w2T {φ ψ : FTy} (x : FVec Ideal S128x256 φ) (w : FVec Ideal S4096x256 ψ) (p : Fin 128) (o : Fin 4096) :
    matmul (F := Ideal) (DotDims.plain 128 256 4096) none x (transpose S256x4096 [1, 0] w transposes_S4096x256_p1_0_S256x4096)
        (constant (F := Ideal) S128x4096 .f32 0x00000000#32) (ix2 p o)
      = ∑ j : Fin 256, x (ix2 p j) * w (ix2 o j) := by
  rw [Cert.PlainProduct.matmul_zero_apply]
  exact Finset.sum_congr rfl fun j _ => by rw [k2_transpose_w2]

/-- The network's output for a row block, at row p of the block and column o: the hidden layer's entries — the maximum
    with zero of the row of the interaction block times the first weights' row j plus the first bias — times the
    second weights' row o, summed over j, plus the second bias. -/
theorem k2_pay1_at (x0 : Vec Ideal S128x256 .f32) (w1 : Vec Ideal S256x256 .f32) (b1 : Vec Ideal S1x256 .f32)
    (w2 : Vec Ideal S4096x256 .f32) (b2 : Vec Ideal S1x4096 .f32) (p : Fin 128) (o : Fin 4096) :
    k2_pay1 (F := Ideal) x0 w1 b1 w2 b2 (ix2 p o)
      = (∑ j : Fin 256, max ((∑ d : Fin 256, x0 (ix2 p d) * w1 (ix2 j d)) + b1 (ix2 (0 : Fin 1) j)) 0 * w2 (ix2 o j))
          + b2 (ix2 (0 : Fin 1) o) := by
  unfold k2_pay1
  dsimp only
  rw [shapeCast_self, shapeCast_self, shapeCast_self, addf_apply,
    show dot_S128x256_S256x4096_S128x4096_1_0_0_1_n_n = DotDims.plain 128 256 4096 from rfl,
    show dot_S128x256_S256x256_S128x256_1_0_0_1_n_n = DotDims.plain 128 256 256 from rfl, k2_prod_w2T, k2_bcast_b2]
  refine congrArg (· + b2 (ix2 (0 : Fin 1) o)) (Finset.sum_congr rfl fun j _ => ?_)
  rw [truncf_apply, truncf_apply, maximumf_apply, addf_apply, k2_prod_w1T, k2_bcast_b1, broadcast_apply, Ideal.ofBits_def,
    Ideal.ofBits_zero_f32]
  rfl

/-- The total for a row block, at (p, o): the linear block's entry plus the network's output there. -/
theorem k2_pay2_at (x0 : Vec Ideal S128x256 .f32) (w1 : Vec Ideal S256x256 .f32) (b1 : Vec Ideal S1x256 .f32)
    (w2 : Vec Ideal S4096x256 .f32) (b2 : Vec Ideal S1x4096 .f32) (l : Vec Ideal S128x4096 .f32) (p : Fin 128) (o : Fin 4096) :
    k2_pay2 (F := Ideal) x0 w1 b1 w2 b2 l (ix2 p o) = l (ix2 p o) + k2_pay1 (F := Ideal) x0 w1 b1 w2 b2 (ix2 p o) := by
  unfold k2_pay2
  rw [shapeCast_self, addf_apply]

/-! ## The windows' blocks, read where their rectangles say -/

variable (V : (c : Dev nD) → (b : Ref sig .tc) → Buf (Elt Ideal) ((c : Thread nD τ).loc b))

/-- The index maps over the grid: the row-blocked windows are at block (t, 0), the whole ones at (0, 0). -/
theorem idx2_rows : ∀ t : Fin cfg2.N, win2_0.index t (0 : Fin 2) = t.val ∧ win2_0.index t (1 : Fin 2) = 0
    ∧ win2_5.index t (0 : Fin 2) = t.val ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0 :=
  (by decide +kernel : ∀ t : Fin grid2.N, _)
/-- The whole-array windows are at block (0, 0) at every point. -/
theorem idx2_whole : ∀ t : Fin cfg2.N, win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- The interaction vector's block at point t is rows 128 t … 128 t + 127 of the array. -/
theorem iblk2_0_at (c : Dev nD) (t : Fin cfg2.N) (p : Fin 128) (d : Fin 256) (r : Fin 1024) (hr : r.val = t.val * 128 + p.val) :
    (iblk2 (F := Ideal) V c 0 t : Vec Ideal S128x256 .f32) (ix2 p d) = (V c main_v0 : S1024x256.Idx → EReal) (ix2 r d) := by
  obtain ⟨e0, e1, -⟩ := idx2_rows t
  unfold iblk2
  rw [View.read_apply]
  show V c main_v0 _ = V c main_v0 _
  congr 1
  funext a; apply Fin.ext
  match a with
  | ⟨0, _⟩ => show win2_0.index t (0 : Fin 2) * 128 + 1 * p.val = r.val; rw [e0, hr]; omega
  | ⟨1, _⟩ => show win2_0.index t (1 : Fin 2) * 256 + 1 * d.val = d.val; rw [e1]; omega

/-- The first-layer weights' window is the whole array at every point. -/
theorem iblk2_1_at (c : Dev nD) (t : Fin cfg2.N) (j d : Fin 256) :
    (iblk2 (F := Ideal) V c 1 t : Vec Ideal S256x256 .f32) (ix2 j d) = (V c main_arg4 : S256x256.Idx → EReal) (ix2 j d) := by
  obtain ⟨e0, e1, -⟩ := idx2_whole t
  unfold iblk2
  rw [View.read_apply]
  show V c main_arg4 _ = V c main_arg4 _
  congr 1
  funext a; apply Fin.ext
  match a with
  | ⟨0, _⟩ => show win2_1.index t (0 : Fin 2) * 256 + 1 * j.val = j.val; rw [e0]; omega
  | ⟨1, _⟩ => show win2_1.index t (1 : Fin 2) * 256 + 1 * d.val = d.val; rw [e1]; omega

/-- The first bias row's window is the whole row at every point. -/
theorem iblk2_2_at (c : Dev nD) (t : Fin cfg2.N) (j : Fin 256) :
    (iblk2 (F := Ideal) V c 2 t : Vec Ideal S1x256 .f32) (ix2 (0 : Fin 1) j) = (V c main_v3 : S1x256.Idx → EReal) (ix2 (0 : Fin 1) j) := by
  obtain ⟨-, -, e0, e1, -⟩ := idx2_whole t
  unfold iblk2
  rw [View.read_apply]
  show V c main_v3 _ = V c main_v3 _
  congr 1
  funext a; apply Fin.ext
  match a with
  | ⟨0, _⟩ => show win2_2.index t (0 : Fin 2) * 1 + 1 * (0 : Fin 1).val = (0 : Fin 1).val; rw [e0]; omega
  | ⟨1, _⟩ => show win2_2.index t (1 : Fin 2) * 256 + 1 * j.val = j.val; rw [e1]; omega

/-- The second-layer weights' window is the whole array at every point. -/
theorem iblk2_3_at (c : Dev nD) (t : Fin cfg2.N) (o : Fin 4096) (j : Fin 256) :
    (iblk2 (F := Ideal) V c 3 t : Vec Ideal S4096x256 .f32) (ix2 o j) = (V c main_arg6 : S4096x256.Idx → EReal) (ix2 o j) := by
  obtain ⟨-, -, -, -, e0, e1, -⟩ := idx2_whole t
  unfold iblk2
  rw [View.read_apply]
  show V c main_arg6 _ = V c main_arg6 _
  congr 1
  funext a; apply Fin.ext
  match a with
  | ⟨0, _⟩ => show win2_3.index t (0 : Fin 2) * 4096 + 1 * o.val = o.val; rw [e0]; omega
  | ⟨1, _⟩ => show win2_3.index t (1 : Fin 2) * 256 + 1 * j.val = j.val; rw [e1]; omega

/-- The second bias row's window is the whole row at every point. -/
theorem iblk2_4_at (c : Dev nD) (t : Fin cfg2.N) (o : Fin 4096) :
    (iblk2 (F := Ideal) V c 4 t : Vec Ideal S1x4096 .f32) (ix2 (0 : Fin 1) o) = (V c main_v4 : S1x4096.Idx → EReal) (ix2 (0 : Fin 1) o) := by
  obtain ⟨-, -, -, -, -, -, e0, e1⟩ := idx2_whole t
  unfold iblk2
  rw [View.read_apply]
  show V c main_v4 _ = V c main_v4 _
  congr 1
  funext a; apply Fin.ext
  match a with
  | ⟨0, _⟩ => show win2_4.index t (0 : Fin 2) * 1 + 1 * (0 : Fin 1).val = (0 : Fin 1).val; rw [e0]; omega
  | ⟨1, _⟩ => show win2_4.index t (1 : Fin 2) * 4096 + 1 * o.val = o.val; rw [e1]; omega

/-- The linear term's block at point t is rows 128 t … 128 t + 127 of the array. -/
theorem iblk2_5_at (c : Dev nD) (t : Fin cfg2.N) (p : Fin 128) (o : Fin 4096) (r : Fin 1024) (hr : r.val = t.val * 128 + p.val) :
    (iblk2 (F := Ideal) V c 5 t : Vec Ideal S128x4096 .f32) (ix2 p o) = (V c main_v2 : S1024x4096.Idx → EReal) (ix2 r o) := by
  obtain ⟨-, -, e0, e1, -⟩ := idx2_rows t
  unfold iblk2
  rw [View.read_apply]
  show V c main_v2 _ = V c main_v2 _
  congr 1
  funext a; apply Fin.ext
  match a with
  | ⟨0, _⟩ => show win2_5.index t (0 : Fin 2) * 128 + 1 * p.val = r.val; rw [e0, hr]; omega
  | ⟨1, _⟩ => show win2_5.index t (1 : Fin 2) * 4096 + 1 * o.val = o.val; rw [e1]; omega

/-! ## What a point leaves in the two output blocks -/

/-- The network's output for row block t, at row p of the block and column o, is the specification's entry at row
    128 t + p of the array. -/
theorem inter_point (c : Dev nD) (t : Fin cfg2.N) (p : Fin 128) (o : Fin 4096) (r : Fin 1024) (hr : r.val = t.val * 128 + p.val) :
    interBlk (F := Ideal) V c t (ix2 p o)
      = Cert.Spec.interAt (V c main_v0) (V c main_arg4) (fun j => V c main_v3 (ix2 (0 : Fin 1) (j 0))) (V c main_arg6)
          (fun j => V c main_v4 (ix2 (0 : Fin 1) (j 0))) r o := by
  unfold interBlk
  refine (k2_pay1_at (iblk2 V c 0 t) (iblk2 V c 1 t) (iblk2 V c 2 t) (iblk2 V c 3 t) (iblk2 V c 4 t) p o).trans ?_
  unfold Cert.Spec.interAt Cert.Spec.hidAt
  refine congrArg₂ (· + ·) (Finset.sum_congr rfl fun j _ => ?_) (iblk2_4_at V c t o)
  refine congrArg₂ (· * ·) (congrArg (max · 0) (congrArg₂ (· + ·) (Finset.sum_congr rfl fun d _ => ?_) (iblk2_2_at V c t j)))
    (iblk2_3_at V c t o j)
  exact congrArg₂ (· * ·) (iblk2_0_at V c t p d r hr) (iblk2_1_at V c t j d)

/-- The total for row block t, at (p, o), is the linear term's entry at row 128 t + p plus the specification's entry of
    the network's output there. -/
theorem total_point (c : Dev nD) (t : Fin cfg2.N) (p : Fin 128) (o : Fin 4096) (r : Fin 1024) (hr : r.val = t.val * 128 + p.val) :
    totalBlk (F := Ideal) V c t (ix2 p o)
      = Cert.Spec.total (V c main_v2) (V c main_v0) (V c main_arg4) (fun j => V c main_v3 (ix2 (0 : Fin 1) (j 0))) (V c main_arg6)
          (fun j => V c main_v4 (ix2 (0 : Fin 1) (j 0))) (ix2 r o) := by
  unfold totalBlk
  refine (k2_pay2_at (iblk2 V c 0 t) (iblk2 V c 1 t) (iblk2 V c 2 t) (iblk2 V c 3 t) (iblk2 V c 4 t) (iblk2 V c 5 t) p o).trans ?_
  rw [Cert.Spec.total_apply]
  exact congrArg₂ (· + ·) (iblk2_5_at V c t p o r hr) (inter_point V c t p o r hr)

/-! ## From the blocks to the arrays -/

/-- Point t writes back block t of the specification's interaction output. -/
theorem flushed2_7_eq (c : Dev nD) (t : Fin cfg2.N) :
    (dat2 (F := Ideal) V c).flushed 7 t = ((cfg2.win 7).blk t).view.read (Elt Ideal)
      (Cert.Spec.inter (V c main_v0) (V c main_arg4) (fun j => V c main_v3 (ix2 (0 : Fin 1) (j 0))) (V c main_arg6)
        (fun j => V c main_v4 (ix2 (0 : Fin 1) (j 0)))) := by
  show (cfg2.win 7).cut (grid2.coords t) ((dat2 V c).after 7 t) = _
  rw [after2_7]
  obtain ⟨-, -, -, -, -, -, e0, e1⟩ := idx2_rows t
  have ht : t.val < 8 := t.isLt
  funext y
  obtain ⟨p, o, rfl⟩ : ∃ (p : Fin 128) (o : Fin 4096), y = ix2 p o := ⟨y 0, y 1, eq_ix2 y⟩
  rw [View.read_apply]
  have hemb : ((cfg2.win 7).blk t).view.emb (ix2 p o) = ix2 (⟨t.val * 128 + p.val, by omega⟩ : Fin 1024) o := by
    funext a; apply Fin.ext
    match a with
    | ⟨0, _⟩ => show win2_7.index t (0 : Fin 2) * 128 + 1 * p.val = t.val * 128 + p.val; rw [e0]; omega
    | ⟨1, _⟩ => show win2_7.index t (1 : Fin 2) * 4096 + 1 * o.val = o.val; rw [e1]; omega
  rw [hemb]
  exact inter_point V c t p o ⟨t.val * 128 + p.val, by omega⟩ rfl

/-- Point t writes back block t of the specification's total. -/
theorem flushed2_6_eq (c : Dev nD) (t : Fin cfg2.N) :
    (dat2 (F := Ideal) V c).flushed 6 t = ((cfg2.win 6).blk t).view.read (Elt Ideal)
      (Cert.Spec.total (V c main_v2) (V c main_v0) (V c main_arg4) (fun j => V c main_v3 (ix2 (0 : Fin 1) (j 0))) (V c main_arg6)
        (fun j => V c main_v4 (ix2 (0 : Fin 1) (j 0)))) := by
  show (cfg2.win 6).cut (grid2.coords t) ((dat2 V c).after 6 t) = _
  rw [after2_6]
  obtain ⟨-, -, -, -, e0, e1, -⟩ := idx2_rows t
  have ht : t.val < 8 := t.isLt
  funext y
  obtain ⟨p, o, rfl⟩ : ∃ (p : Fin 128) (o : Fin 4096), y = ix2 p o := ⟨y 0, y 1, eq_ix2 y⟩
  rw [View.read_apply]
  have hemb : ((cfg2.win 6).blk t).view.emb (ix2 p o) = ix2 (⟨t.val * 128 + p.val, by omega⟩ : Fin 1024) o := by
    funext a; apply Fin.ext
    match a with
    | ⟨0, _⟩ => show win2_6.index t (0 : Fin 2) * 128 + 1 * p.val = t.val * 128 + p.val; rw [e0]; omega
    | ⟨1, _⟩ => show win2_6.index t (1 : Fin 2) * 4096 + 1 * o.val = o.val; rw [e1]; omega
  rw [hemb]
  exact total_point V c t p o ⟨t.val * 128 + p.val, by omega⟩ rfl

/-- Every entry of the interaction output's array is in the block of the point of its row block. -/
theorem cover2_7 (i : S1024x4096.Idx) : ∃ t : Fin cfg2.N, (cfg2.win 7).flush t = true ∧ i ∈ ((cfg2.win 7).blk t).view.set := by
  have hi0 : (i 0).val < 1024 := (i 0).isLt
  have hi1 : (i 1).val < 4096 := (i 1).isLt
  obtain ⟨t, ht⟩ : ∃ t : Fin cfg2.N, t.val = (i 0).val / 128 := ⟨⟨(i 0).val / 128, by show _ < 8; omega⟩, rfl⟩
  obtain ⟨-, -, -, -, -, -, e0, e1⟩ := idx2_rows t
  refine ⟨t, flush2_7 t, ?_⟩
  show i ∈ ((View.whole main_v5_1).slice (win2_7.rect t)).set
  rw [View.set_slice_whole, Rect.mem_set_unit]
  intro a
  match a with
  | ⟨0, _⟩ => show win2_7.index t (0 : Fin 2) * 128 ≤ (i 0).val ∧ (i 0).val < win2_7.index t (0 : Fin 2) * 128 + 128; rw [e0]; omega
  | ⟨1, _⟩ => show win2_7.index t (1 : Fin 2) * 4096 ≤ (i 1).val ∧ (i 1).val < win2_7.index t (1 : Fin 2) * 4096 + 4096; rw [e1]; omega

/-- Every entry of the total's array is in the block of the point of its row block. -/
theorem cover2_6 (i : S1024x4096.Idx) : ∃ t : Fin cfg2.N, (cfg2.win 6).flush t = true ∧ i ∈ ((cfg2.win 6).blk t).view.set := by
  have hi0 : (i 0).val < 1024 := (i 0).isLt
  have hi1 : (i 1).val < 4096 := (i 1).isLt
  obtain ⟨t, ht⟩ : ∃ t : Fin cfg2.N, t.val = (i 0).val / 128 := ⟨⟨(i 0).val / 128, by show _ < 8; omega⟩, rfl⟩
  obtain ⟨-, -, -, -, e0, e1, -⟩ := idx2_rows t
  refine ⟨t, flush2_6 t, ?_⟩
  show i ∈ ((View.whole main_v5_0).slice (win2_6.rect t)).set
  rw [View.set_slice_whole, Rect.mem_set_unit]
  intro a
  match a with
  | ⟨0, _⟩ => show win2_6.index t (0 : Fin 2) * 128 ≤ (i 0).val ∧ (i 0).val < win2_6.index t (0 : Fin 2) * 128 + 128; rw [e0]; omega
  | ⟨1, _⟩ => show win2_6.index t (1 : Fin 2) * 4096 ≤ (i 1).val ∧ (i 1).val < win2_6.index t (1 : Fin 2) * 4096 + 4096; rw [e1]; omega

/-- After the region the interaction output's array is the specification's interaction network over the arrays the
    region found. -/
theorem inter_final (c : Dev nD) :
    (dat2 (F := Ideal) V c).arrAt 7 cfg2.N
      = Cert.Spec.inter (V c main_v0) (V c main_arg4) (fun j => V c main_v3 (ix2 (0 : Fin 1) (j 0))) (V c main_arg6)
          (fun j => V c main_v4 (ix2 (0 : Fin 1) (j 0))) :=
  (dat2 (F := Ideal) V c).arrAt_eq_of_cover 7 _ (fun t _ => flushed2_7_eq V c t) cover2_7

/-- After the region the total's array is the specification's total: the linear term the region found plus the
    interaction network's output. -/
theorem total_final (c : Dev nD) :
    (dat2 (F := Ideal) V c).arrAt 6 cfg2.N
      = Cert.Spec.total (V c main_v2) (V c main_v0) (V c main_arg4) (fun j => V c main_v3 (ix2 (0 : Fin 1) (j 0))) (V c main_arg6)
          (fun j => V c main_v4 (ix2 (0 : Fin 1) (j 0))) :=
  (dat2 (F := Ideal) V c).arrAt_eq_of_cover 6 _ (fun t _ => flushed2_6_eq V c t) cover2_6

end Cert.KernelIdeal.HandVal

end
-- ==== Proof.KI_Results.lean ====
/-
  The idealized kernel's results as the specification of its arguments. Region 0 leaves the interaction vector in
  its output array, region 1 the linear term, region 2 the interaction network's output and its sum with the linear
  term; the host reshapes between them only turn each bias vector into a row, which the kernels read back along
  that row; every argument reaches every region as launched. Put together along the buffer contents at the
  boundaries, the program's three results are `Spec.total`, `Spec.lin` and `Spec.inter` of the arguments.
-/
import proofs.«165164_j35055523070100_1_alg».proof.Proof.Gen.KernelIdeal.Launch
import proofs.«165164_j35055523070100_1_alg».proof.Proof.Gen.KernelIdeal.Skeleton
import proofs.«165164_j35055523070100_1_alg».proof.Proof.Gen.KernelIdeal.Points
import proofs.«165164_j35055523070100_1_alg».proof.Proof.KI_Segs
import proofs.«165164_j35055523070100_1_alg».proof.Proof.KI_Val0
import proofs.«165164_j35055523070100_1_alg».proof.Proof.KI_Val1
import proofs.«165164_j35055523070100_1_alg».proof.Proof.KI_Val2
import proofs.«165164_j35055523070100_1_alg».proof.Proof.Spec
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import Idealize.ShloMosaic.Lib.ValueLayout
import Idealize.ShloMosaic.Lib.StableHlo.Run

set_option maxRecDepth 16384

noncomputable section

namespace Cert.KernelIdeal.HandVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hand Idealize.ShloMosaic.ValueIdx

variable {F : FTy → Type} [FloatOps F]

local notation "𝕄" => MT nD τ sig Unit (Elt F) ℕ (UR sig nD τ) ℕ

variable (m : (ℓ : Loc nD τ sig) → Buf (Elt Ideal) ℓ) (ρ : Dev nD → PrngReg)

/-! ## The arguments at the regions' entries -/

theorem VV2_arg0 (c : Dev nD) : VV2 m c main_arg0 = (m ((c : Thread nD τ).loc main_arg0)) :=
  (W2_host m c main_arg0 (by decide)).trans ((W1_keep m c main_arg0 (by decide)).trans rfl)
theorem VV2_arg2 (c : Dev nD) : VV2 m c main_arg2 = (m ((c : Thread nD τ).loc main_arg2)) :=
  (W2_host m c main_arg2 (by decide)).trans ((W1_keep m c main_arg2 (by decide)).trans rfl)
theorem VV4_arg4 (c : Dev nD) : VV4 m c main_arg4 = (m ((c : Thread nD τ).loc main_arg4)) :=
  (W4_host m c main_arg4 (by decide)).trans <| (W3_keep m c main_arg4 (by decide)).trans <| (W2_host m c main_arg4 (by decide)).trans <| (W1_keep m c main_arg4 (by decide)).trans rfl
theorem VV4_arg6 (c : Dev nD) : VV4 m c main_arg6 = (m ((c : Thread nD τ).loc main_arg6)) :=
  (W4_host m c main_arg6 (by decide)).trans <| (W3_keep m c main_arg6 (by decide)).trans <| (W2_host m c main_arg6 (by decide)).trans <| (W1_keep m c main_arg6 (by decide)).trans rfl
theorem W1_arg3 (c : Dev nD) : W1 m c (Proc.devRef .tc main_arg3) = (m ((c : Thread nD τ).loc main_arg3)) := (W1_keep m c main_arg3 (by decide)).trans rfl
theorem W3_arg5 (c : Dev nD) : W3 m c (Proc.devRef .tc main_arg5) = (m ((c : Thread nD τ).loc main_arg5)) :=
  (W3_keep m c main_arg5 (by decide)).trans <| (W2_host m c main_arg5 (by decide)).trans <| (W1_keep m c main_arg5 (by decide)).trans rfl
theorem W3_arg7 (c : Dev nD) : W3 m c (Proc.devRef .tc main_arg7) = (m ((c : Thread nD τ).loc main_arg7)) :=
  (W3_keep m c main_arg7 (by decide)).trans <| (W2_host m c main_arg7 (by decide)).trans <| (W1_keep m c main_arg7 (by decide)).trans rfl

/-! ## The bias rows: a host reshape [n] → [1, n] read back along its one row -/

/-- A rank-1 array reshaped to one row and read along that row is the array. -/
theorem row_of_reshape {n : ℕ} (x : (⟨1, ![n]⟩ : Shape).Idx → EReal) (h : (⟨1, ![n]⟩ : Shape).ShapeCasts ⟨2, ![1, n]⟩) :
    (fun j : (⟨1, ![n]⟩ : Shape).Idx => shapeCast ⟨2, ![1, n]⟩ x h (ix2 (0 : Fin 1) (j 0))) = x := by
  funext j
  exact (shapeCast_a_1a_apply x h (0 : Fin 1) (j 0)).trans (congrArg x (eq_ix1 j).symm)

theorem VV2_v1 (c : Dev nD) : VV2 m c main_v1 = shapeCast S1x4096 (W1 m c (Proc.devRef .tc main_arg3)) shapeCasts_S4096_S1x4096 := by
  show StableHlo.after hostOps1 (W1 m c) (Proc.devRef .tc main_v1) = _
  after_results
  try rfl
theorem VV4_v3 (c : Dev nD) : VV4 m c main_v3 = shapeCast S1x256 (W3 m c (Proc.devRef .tc main_arg5)) shapeCasts_S256_S1x256 := by
  show StableHlo.after hostOps2 (W3 m c) (Proc.devRef .tc main_v3) = _
  after_results
  try rfl
theorem VV4_v4 (c : Dev nD) : VV4 m c main_v4 = shapeCast S1x4096 (W3 m c (Proc.devRef .tc main_arg7)) shapeCasts_S4096_S1x4096 := by
  show StableHlo.after hostOps2 (W3 m c) (Proc.devRef .tc main_v4) = _
  after_results
  try rfl

theorem row_v1 (c : Dev nD) : (fun j : S4096.Idx => VV2 m c main_v1 (ix2 (0 : Fin 1) (j 0))) = (m ((c : Thread nD τ).loc main_arg3)) := by
  rw [VV2_v1, W1_arg3]; exact row_of_reshape _ _
theorem row_v3 (c : Dev nD) : (fun j : S256.Idx => VV4 m c main_v3 (ix2 (0 : Fin 1) (j 0))) = (m ((c : Thread nD τ).loc main_arg5)) := by
  rw [VV4_v3, W3_arg5]; exact row_of_reshape _ _
theorem row_v4 (c : Dev nD) : (fun j : S4096.Idx => VV4 m c main_v4 (ix2 (0 : Fin 1) (j 0))) = (m ((c : Thread nD τ).loc main_arg7)) := by
  rw [VV4_v4, W3_arg7]; exact row_of_reshape _ _

/-! ## What the regions leave -/

/-- Region 0 leaves the interaction vector in `main_v0`. -/
theorem W1_v0 (c : Dev nD) : W1 m c (Proc.devRef .tc main_v0) = Cert.Spec.iv (m ((c : Thread nD τ).loc main_arg0)) (m ((c : Thread nD τ).loc main_arg1)) :=
  (W1_arr m c 2).trans (iv_final (VV0 m) c)
/-- It is still there when region 2 is entered. -/
theorem VV4_v0 (c : Dev nD) : VV4 m c main_v0 = Cert.Spec.iv (m ((c : Thread nD τ).loc main_arg0)) (m ((c : Thread nD τ).loc main_arg1)) :=
  (W4_host m c main_v0 (by decide)).trans <| (W3_keep m c main_v0 (by decide)).trans <| (W2_host m c main_v0 (by decide)).trans (W1_v0 m c)
/-- Region 1 leaves the linear term in `main_v2`. -/
theorem W3_v2 (c : Dev nD) : W3 m c (Proc.devRef .tc main_v2) = Cert.Spec.lin (m ((c : Thread nD τ).loc main_arg0)) (m ((c : Thread nD τ).loc main_arg2)) (m ((c : Thread nD τ).loc main_arg3)) := by
  refine (W3_arr m c 3).trans ((Lin.lin_final (VV2 m) c).trans ?_)
  rw [VV2_arg0, VV2_arg2, row_v1]
/-- It is still there when region 2 is entered, and when the program ends. -/
theorem VV4_v2 (c : Dev nD) : VV4 m c main_v2 = Cert.Spec.lin (m ((c : Thread nD τ).loc main_arg0)) (m ((c : Thread nD τ).loc main_arg2)) (m ((c : Thread nD τ).loc main_arg3)) :=
  (W4_host m c main_v2 (by decide)).trans (W3_v2 m c)
theorem W5_v2 (c : Dev nD) : W5 m c (Proc.devRef .tc main_v2) = Cert.Spec.lin (m ((c : Thread nD τ).loc main_arg0)) (m ((c : Thread nD τ).loc main_arg2)) (m ((c : Thread nD τ).loc main_arg3)) :=
  (W5_keep m c main_v2 (by decide)).trans (VV4_v2 m c)
/-- Region 2 leaves the interaction network's output in `main_v5_1` … -/
theorem W5_v5_1 (c : Dev nD) : W5 m c (Proc.devRef .tc main_v5_1)
    = Cert.Spec.inter (Cert.Spec.iv (m ((c : Thread nD τ).loc main_arg0)) (m ((c : Thread nD τ).loc main_arg1))) (m ((c : Thread nD τ).loc main_arg4)) (m ((c : Thread nD τ).loc main_arg5)) (m ((c : Thread nD τ).loc main_arg6)) (m ((c : Thread nD τ).loc main_arg7)) := by
  refine (W5_arr m c 7).trans ((inter_final (VV4 m) c).trans ?_)
  rw [VV4_v0, VV4_arg4, VV4_arg6, row_v3, row_v4]
/-- … and its sum with the linear term in `main_v5_0`. -/
theorem W5_v5_0 (c : Dev nD) : W5 m c (Proc.devRef .tc main_v5_0)
    = Cert.Spec.total (Cert.Spec.lin (m ((c : Thread nD τ).loc main_arg0)) (m ((c : Thread nD τ).loc main_arg2)) (m ((c : Thread nD τ).loc main_arg3))) (Cert.Spec.iv (m ((c : Thread nD τ).loc main_arg0)) (m ((c : Thread nD τ).loc main_arg1))) (m ((c : Thread nD τ).loc main_arg4)) (m ((c : Thread nD τ).loc main_arg5)) (m ((c : Thread nD τ).loc main_arg6)) (m ((c : Thread nD τ).loc main_arg7)) := by
  refine (W5_arr m c 6).trans ((total_final (VV4 m) c).trans ?_)
  rw [VV4_v2, VV4_v0, VV4_arg4, VV4_arg6, row_v3, row_v4]

/-! ## The run, with the specification in its post -/

/-- Every weakly fair execution of the idealized kernel's @main terminates with the three results at the
    specification of the arguments, and the arguments as launched. -/
theorem run_spec : θ_run (defs (F := Ideal)) (onTc (τ := τ) (main (F := Ideal))) ⟨m, fun _ => 0, ρ⟩ (fun r => ∀ c : Dev nD,
      r.2.mem ((c.tc : Thread nD τ).loc main_v5_0) = Cert.Spec.total (Cert.Spec.lin (m ((c : Thread nD τ).loc main_arg0)) (m ((c : Thread nD τ).loc main_arg2)) (m ((c : Thread nD τ).loc main_arg3))) (Cert.Spec.iv (m ((c : Thread nD τ).loc main_arg0)) (m ((c : Thread nD τ).loc main_arg1))) (m ((c : Thread nD τ).loc main_arg4)) (m ((c : Thread nD τ).loc main_arg5)) (m ((c : Thread nD τ).loc main_arg6)) (m ((c : Thread nD τ).loc main_arg7))
      ∧ r.2.mem ((c.tc : Thread nD τ).loc main_v2) = Cert.Spec.lin (m ((c : Thread nD τ).loc main_arg0)) (m ((c : Thread nD τ).loc main_arg2)) (m ((c : Thread nD τ).loc main_arg3))
      ∧ r.2.mem ((c.tc : Thread nD τ).loc main_v5_1) = Cert.Spec.inter (Cert.Spec.iv (m ((c : Thread nD τ).loc main_arg0)) (m ((c : Thread nD τ).loc main_arg1))) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c _ (mem_uc main_v5_0 (by decide))).trans (W5_v5_0 m c),
    (h c _ (mem_uc main_v2 (by decide))).trans (W5_v2 m c),
    (h c _ (mem_uc main_v5_1 (by decide))).trans (W5_v5_1 m c),
    (h c _ (mem_uc main_arg0 (by decide))).trans (W5_main_arg0 m c),
    (h c _ (mem_uc main_arg1 (by decide))).trans (W5_main_arg1 m c),
    (h c _ (mem_uc main_arg2 (by decide))).trans (W5_main_arg2 m c),
    (h c _ (mem_uc main_arg3 (by decide))).trans (W5_main_arg3 m c),
    (h c _ (mem_uc main_arg4 (by decide))).trans (W5_main_arg4 m c),
    (h c _ (mem_uc main_arg5 (by decide))).trans (W5_main_arg5 m c),
    (h c _ (mem_uc main_arg6 (by decide))).trans (W5_main_arg6 m c),
    (h c _ (mem_uc main_arg7 (by decide))).trans (W5_main_arg7 m c)⟩) (run_all m ρ)

end Cert.KernelIdeal.HandVal

end
-- ==== Proof.RefSpec.lean ====
/-
  The reference program computes the specification.

  Each of the reference's three results, read at an index (p, o), is the specification's entry there: a contraction
  of the reference is the finite sum over its one contracted axis of the left operand at (p, k) times the right at
  (k, o); a transposed weight array read at (k, o) is the weights at (o, k), which is how the specification states its
  sums; a bias broadcast along the rows is read at its column; the rectifier is the maximum with a broadcast zero; and
  the constant ½ is the pattern the specification names.
-/
import proofs.«165164_j35055523070100_1_alg».proof.Proof.Gen.ReferenceIdeal.Read
import proofs.«165164_j35055523070100_1_alg».proof.Proof.Spec
import Idealize.ShloMosaic.Lib.ValueIdx
import Idealize.ShloMosaic.PureOps.Ideal.Laws

noncomputable section

open scoped BigOperators

namespace Cert.ReferenceIdeal.RefSpec

open Cert.ReferenceIdeal Cert.ReferenceIdeal.Read Idealize.ShloMosaic Idealize.ShloMosaic.ValueIdx

/-! ## Indices: the reference's index maps at (p, o) and a contraction coordinate k -/

/-- The linear term's left operand is read at (p, k). -/
theorem lidx20 (p : Fin 1024) (q : Fin 4096) (k : Fin 16384) : lidx_main_v20 (ix2 p q) k = ix2 p k :=
  funext fun a => Fin.ext (by match a with | ⟨0, _⟩ => rfl | ⟨1, _⟩ => rfl)
/-- The transposed linear weights at (k, o) are the weights at (o, k). -/
theorem ridx20 (p : Fin 1024) (q : Fin 4096) (k : Fin 16384) : idx_main_v19 (ridx_main_v20 (ix2 p q) k) = ix2 q k :=
  funext fun a => Fin.ext (by match a with | ⟨0, _⟩ => rfl | ⟨1, _⟩ => rfl)
/-- The linear bias, broadcast along the rows, is read at its column. -/
theorem bidx22 (p : Fin 1024) (q : Fin 4096) : idx_main_v21 (idx_main_v22 (ix2 p q)) = ix1 q :=
  funext fun a => Fin.ext (by match a with | ⟨0, _⟩ => rfl)

/-! ## The linear term -/

/-- The reference's linear result is the specification's linear term. -/
theorem v23_eq (x0 : FVec Ideal S1024x16384 .f32) (x2 : FVec Ideal S4096x16384 .f32) (x3 : FVec Ideal S4096 .f32) :
    val_main_v23 (F := Ideal) x0 x2 x3 = Cert.Spec.lin x0 x2 x3 := by
  funext i
  obtain ⟨p, q, rfl⟩ : ∃ (p : Fin 1024) (q : Fin 4096), i = ix2 p q := ⟨i 0, i 1, eq_ix2 i⟩
  rw [val_main_v23_apply, val_main_v20_apply, val_main_v22_apply, val_main_v21_apply, Cert.Spec.lin_apply]
  simp only [val_main_v19_apply, lidx20, ridx20, bidx22, Ideal.addf_def]
  rfl

/-! ## The interaction vector -/

/-- The features are read at (p, f) in the sum of the weighted embeddings. -/
theorem lidx0 (p : Fin 1024) (d : Fin 256) (k : Fin 16384) : lidx_main_v0 (ix2 p d) k = ix2 p k :=
  funext fun a => Fin.ext (by match a with | ⟨0, _⟩ => rfl | ⟨1, _⟩ => rfl)
/-- The embedding table is read at (f, d) there. -/
theorem ridx0 (p : Fin 1024) (d : Fin 256) (k : Fin 16384) : ridx_main_v0 (ix2 p d) k = ix2 k d :=
  funext fun a => Fin.ext (by match a with | ⟨0, _⟩ => rfl | ⟨1, _⟩ => rfl)
/-- The squared features are read at (p, f) in the sum of the squares. -/
theorem lidx3 (p : Fin 1024) (d : Fin 256) (k : Fin 16384) : lidx_main_v3 (ix2 p d) k = ix2 p k :=
  funext fun a => Fin.ext (by match a with | ⟨0, _⟩ => rfl | ⟨1, _⟩ => rfl)
/-- The squared embedding table is read at (f, d) there. -/
theorem ridx3 (p : Fin 1024) (d : Fin 256) (k : Fin 16384) : ridx_main_v3 (ix2 p d) k = ix2 k d :=
  funext fun a => Fin.ext (by match a with | ⟨0, _⟩ => rfl | ⟨1, _⟩ => rfl)

/-- The reference's scaled difference ½ · (S² − Q) is the specification's interaction vector. -/
theorem v7_eq (x0 : FVec Ideal S1024x16384 .f32) (x1 : FVec Ideal S16384x256 .f32) :
    val_main_v7 (F := Ideal) x0 x1 = Cert.Spec.iv x0 x1 := by
  funext i
  obtain ⟨p, d, rfl⟩ : ∃ (p : Fin 1024) (d : Fin 256), i = ix2 p d := ⟨i 0, i 1, eq_ix2 i⟩
  rw [val_main_v7_apply, val_main_v6_apply, val_main_cst_apply, val_main_v5_apply, val_main_v4_apply, val_main_v3_apply,
    val_main_v0_apply, Cert.Spec.iv_apply]
  simp only [val_main_v1_apply, val_main_v2_apply, lidx0, ridx0, lidx3, ridx3, Ideal.mulf_def, Ideal.subf_def,
    Ideal.ofBits_def]
  rfl

/-! ## The hidden layer -/

/-- The interaction vector is read at (p, d) in the first layer's sum. -/
theorem lidx9 (p : Fin 1024) (j : Fin 256) (k : Fin 256) : lidx_main_v9 (ix2 p j) k = ix2 p k :=
  funext fun a => Fin.ext (by match a with | ⟨0, _⟩ => rfl | ⟨1, _⟩ => rfl)
/-- The transposed first-layer weights at (d, j) are the weights at (j, d). -/
theorem ridx9 (p : Fin 1024) (j : Fin 256) (k : Fin 256) : idx_main_v8 (ridx_main_v9 (ix2 p j) k) = ix2 j k :=
  funext fun a => Fin.ext (by match a with | ⟨0, _⟩ => rfl | ⟨1, _⟩ => rfl)
/-- The first layer's bias, broadcast along the rows, is read at its column. -/
theorem bidx11 (p : Fin 1024) (j : Fin 256) : idx_main_v10 (idx_main_v11 (ix2 p j)) = ix1 j :=
  funext fun a => Fin.ext (by match a with | ⟨0, _⟩ => rfl)

/-- The reference's rectified first layer at (p, j) is the specification's hidden entry over the interaction vector. -/
theorem v13_at (x0 : FVec Ideal S1024x16384 .f32) (x1 : FVec Ideal S16384x256 .f32) (x4 : FVec Ideal S256x256 .f32)
    (x5 : FVec Ideal S256 .f32) (p : Fin 1024) (j : Fin 256) :
    val_main_v13 (F := Ideal) x0 x1 x4 x5 (ix2 p j) = Cert.Spec.hidAt (Cert.Spec.iv x0 x1) x4 x5 p j := by
  rw [val_main_v13_apply, val_main_v12_apply, val_main_v9_apply, val_main_v11_apply, val_main_v10_apply,
    val_main_call0_v0_apply, val_main_call0_cst_apply, v7_eq]
  simp only [val_main_v8_apply, lidx9, ridx9, bidx11, Ideal.addf_def, Ideal.maximumf_def, Ideal.ofBits_def,
    Ideal.ofBits_zero_f32]
  rfl

/-! ## The interaction network's output -/

/-- The hidden layer is read at (p, j) in the second layer's sum. -/
theorem lidx15 (p : Fin 1024) (q : Fin 4096) (k : Fin 256) : lidx_main_v15 (ix2 p q) k = ix2 p k :=
  funext fun a => Fin.ext (by match a with | ⟨0, _⟩ => rfl | ⟨1, _⟩ => rfl)
/-- The transposed second-layer weights at (j, o) are the weights at (o, j). -/
theorem ridx15 (p : Fin 1024) (q : Fin 4096) (k : Fin 256) : idx_main_v14 (ridx_main_v15 (ix2 p q) k) = ix2 q k :=
  funext fun a => Fin.ext (by match a with | ⟨0, _⟩ => rfl | ⟨1, _⟩ => rfl)
/-- The second layer's bias, broadcast along the rows, is read at its column. -/
theorem bidx17 (p : Fin 1024) (q : Fin 4096) : idx_main_v16 (idx_main_v17 (ix2 p q)) = ix1 q :=
  funext fun a => Fin.ext (by match a with | ⟨0, _⟩ => rfl)

/-- The reference's interaction result is the specification's interaction network over the interaction vector. -/
theorem v18_eq (x0 : FVec Ideal S1024x16384 .f32) (x1 : FVec Ideal S16384x256 .f32) (x4 : FVec Ideal S256x256 .f32)
    (x5 : FVec Ideal S256 .f32) (x6 : FVec Ideal S4096x256 .f32) (x7 : FVec Ideal S4096 .f32) :
    val_main_v18 (F := Ideal) x0 x1 x4 x5 x6 x7 = Cert.Spec.inter (Cert.Spec.iv x0 x1) x4 x5 x6 x7 := by
  funext i
  obtain ⟨p, q, rfl⟩ : ∃ (p : Fin 1024) (q : Fin 4096), i = ix2 p q := ⟨i 0, i 1, eq_ix2 i⟩
  rw [val_main_v18_apply, val_main_v15_apply, val_main_v17_apply, val_main_v16_apply, Cert.Spec.inter_apply]
  simp only [val_main_v14_apply, lidx15, ridx15, bidx17, v13_at, Ideal.addf_def]
  rfl

/-! ## The sum of the two -/

/-- The reference's first result is the specification's total: the linear term plus the interaction network's output. -/
theorem v24_eq (x0 : FVec Ideal S1024x16384 .f32) (x1 : FVec Ideal S16384x256 .f32) (x2 : FVec Ideal S4096x16384 .f32)
    (x3 : FVec Ideal S4096 .f32) (x4 : FVec Ideal S256x256 .f32) (x5 : FVec Ideal S256 .f32)
    (x6 : FVec Ideal S4096x256 .f32) (x7 : FVec Ideal S4096 .f32) :
    val_main_v24 (F := Ideal) x0 x1 x2 x3 x4 x5 x6 x7
      = Cert.Spec.total (Cert.Spec.lin x0 x2 x3) (Cert.Spec.iv x0 x1) x4 x5 x6 x7 := by
  funext i
  obtain ⟨p, q, rfl⟩ : ∃ (p : Fin 1024) (q : Fin 4096), i = ix2 p q := ⟨i 0, i 1, eq_ix2 i⟩
  rw [val_main_v24_apply, v23_eq, v18_eq, Cert.Spec.total_apply, Cert.Spec.inter_apply, Ideal.addf_def]

/-! ## The reference's run, with the specification in its post -/

section Run

open Idealize.ShloMosaic.TcCoe Idealize.SL.Sem

/-- On every device, from any memory with zero counters, every weakly fair execution of the reference terminates with its
    three results at the specification's total, linear term and interaction network's output of the eight arguments'
    launch contents, and with the arguments unchanged. -/
theorem run_spec (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ fun r => ∀ c : Dev nD,
      r.2.mem ((c.tc : Thread nD τ).loc main_v24)
          = Cert.Spec.total (Cert.Spec.lin (m ((c.tc : Thread nD τ).loc main_arg0)) (m ((c.tc : Thread nD τ).loc main_arg2))
              (m ((c.tc : Thread nD τ).loc main_arg3)))
            (Cert.Spec.iv (m ((c.tc : Thread nD τ).loc main_arg0)) (m ((c.tc : Thread nD τ).loc main_arg1)))
            (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_v23)
          = Cert.Spec.lin (m ((c.tc : Thread nD τ).loc main_arg0)) (m ((c.tc : Thread nD τ).loc main_arg2))
              (m ((c.tc : Thread nD τ).loc main_arg3))
      ∧ r.2.mem ((c.tc : Thread nD τ).loc main_v18)
          = Cert.Spec.inter (Cert.Spec.iv (m ((c.tc : Thread nD τ).loc main_arg0)) (m ((c.tc : Thread nD τ).loc main_arg1)))
            (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run _ _ _).mono (fun _ h c =>
      ⟨(h c).1.trans (by rw [val_main_v24_eq, v24_eq]),
        (h c).2.1.trans (by rw [val_main_v23_eq, v23_eq]),
        (h c).2.2.1.trans (by rw [val_main_v18_eq, v18_eq]),
        (h c).2.2.2⟩)
    (Cert.ReferenceIdeal.Value.run (F := Ideal) m ρ)

end Run

end Cert.ReferenceIdeal.RefSpec

end
-- ==== Proof.lean ====
/-
  The certificate of the factorization-machine kernel against its reference: three pallas_calls — the pairwise
  interaction vector ½·((x·e)² − x²·e²) accumulated over 16 blocks of features, the linear term x·Wᵀ + b accumulated
  over 64, and the two-layer interaction network with its sum with the linear term — against the same mathematics
  written as plain array operations.

  The three frames: each program runs to the end, faults nowhere and leaves its arguments as launched — for the
  kernel as printed and for its idealization by the run of @main through its three regions (`Hand.frame`, one text
  at both float instances), for the reference by its run with the results dropped. The idealization rewrote no
  operation, so nothing is to preserve. Over the extended reals the idealized kernel's three results are
  `Spec.total`, `Spec.lin` and `Spec.inter` of the arguments (`HandVal.run_spec`: format changes are the identity,
  a matrix product into a zero accumulator is a plain sum, and a sum accumulated block by block from zero is the
  sum over all features — sums of extended reals regroup freely), and so are the reference's (`RefSpec.run_spec`);
  from memories that agree on the arguments the two specifications are one term.
-/
import proofs.«165164_j35055523070100_1_alg».proof.Defs
import proofs.«165164_j35055523070100_1_alg».proof.Proof.Gen.Kernel
import proofs.«165164_j35055523070100_1_alg».proof.Proof.Gen.Kernel.Skeleton
import proofs.«165164_j35055523070100_1_alg».proof.Proof.Gen.Kernel.Launch
import proofs.«165164_j35055523070100_1_alg».proof.Proof.Gen.Kernel.Regions
import proofs.«165164_j35055523070100_1_alg».proof.Proof.Gen.Kernel.Points
import proofs.«165164_j35055523070100_1_alg».proof.Proof.Gen.KernelIdeal
import proofs.«165164_j35055523070100_1_alg».proof.Proof.Gen.KernelIdeal.Skeleton
import proofs.«165164_j35055523070100_1_alg».proof.Proof.Gen.KernelIdeal.Launch
import proofs.«165164_j35055523070100_1_alg».proof.Proof.Gen.KernelIdeal.Regions
import proofs.«165164_j35055523070100_1_alg».proof.Proof.Gen.KernelIdeal.Points
import proofs.«165164_j35055523070100_1_alg».proof.Proof.Gen.ReferenceIdeal
import proofs.«165164_j35055523070100_1_alg».proof.Proof.Gen.Pre_finite_inputs
import proofs.«165164_j35055523070100_1_alg».proof.Proof.Gen.ReferenceIdeal.Run
import proofs.«165164_j35055523070100_1_alg».proof.Proof.Gen.ReferenceIdeal.Read
import proofs.«165164_j35055523070100_1_alg».proof.Proof.K_Segs
import proofs.«165164_j35055523070100_1_alg».proof.Proof.KI_Results
import proofs.«165164_j35055523070100_1_alg».proof.Proof.RefSpec
import Idealize.ShloMosaic.Adequacy
import Idealize.ShloMosaic.Init

noncomputable section

namespace Cert.Proof

open Idealize.ShloMosaic Idealize.SL.Sem

/-- The kernel as printed runs, faults nowhere and leaves its arguments as launched. -/
theorem frame_k : Cert.frame_Kernel := fun m ρ _ => Cert.Kernel.Hand.frame (F := Bits) m ρ
/-- So does its idealization. -/
theorem frame_ki : Cert.frame_KernelIdeal := fun m ρ _ => Cert.KernelIdeal.Hand.frame (F := Ideal) m ρ
/-- And the reference: its run with the results dropped. -/
theorem frame_ri : Cert.frame_ReferenceIdeal := fun m ρ _ =>
  (θ_run Cert.ReferenceIdeal.defs _ _).mono (fun _ h c => (h c).2.2.2) (Cert.ReferenceIdeal.RefSpec.run_spec m ρ)

/-- From memories agreeing on the arguments both idealized programs end with their three results at the
    specification of the arguments: the same arrays. -/
theorem algebraic : Cert.algebraic_KernelIdeal_ReferenceIdeal := by
  intro m ρ m' ρ' _ hagree
  refine ⟨fun c => Cert.Spec.total (Cert.Spec.lin (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (Cert.Spec.iv (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.Spec.lin (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.Spec.inter (Cert.Spec.iv (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.HandVal.run_spec m ρ, ?_⟩
  refine (θ_run Cert.ReferenceIdeal.defs _ _).mono (fun _ h c => ?_) (Cert.ReferenceIdeal.RefSpec.run_spec m' ρ')
  obtain ⟨e0, e1, e2, e3, e4, e5, e6, e7⟩ := hagree c
  obtain ⟨h24, h23, h18, hargs⟩ := h c
  refine ⟨?_, ?_, ?_, hargs⟩
  · rw [h24, e0, e1, e2, e3, e4, e5, e6, e7]
  · rw [h23, e0, e2, e3]
  · rw [h18, e0, e1, e4, e5, e6, e7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
